-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000x32 : Shape := ⟨2, ![1600000, 32]⟩
abbrev S256x32 : Shape := ⟨2, ![256, 32]⟩
abbrev S100000 : Shape := ⟨1, ![100000]⟩
abbrev S96x32 : Shape := ⟨2, ![96, 32]⟩
abbrev S32 : Shape := ⟨1, ![32]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S256x32 : S_.BroadcastsInDim S256x32 (![] : Fin 0 → Fin S256x32.rank)
  reducesTo_S256x32_S_d0_1 : S256x32.ReducesTo [0, 1] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg6 : FVec F S32 .f32) (main_v13 : IVec S_ 1) (main_v16 : IVec S96x32 1) : IVec S_ 1 :=
  let main_c_5 : IVec S_ 1 := constantI S_ 1 1#1
  let main_v17 : IVec S_ 1 := (fun x v => Host.reduce IntOp.andi x v reducesTo_S96x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x32 .f32) (main_arg1 : IVec S2x1600000 32) (main_arg2 : FVec F S1600000x32 .f32) (main_arg3 : FVec F S256x32 .f32) (main_arg4 : IVec S100000 32) (main_arg5 : FVec F S96x32 .f32) (main_arg6 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S256x32 .f32 := Host.absf main_arg3
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S96x32 .f32 := Host.absf main_arg5
  let main_cst_4 : FVec F S_ .f32 := constant S_ .f32 0x7F800000#32
  let main_v15 : FVec F S96x32 .f32 := broadcastInDim S96x32 ![] bcast_S_S96x32 main_cst_4
  let main_v16 : IVec S96x32 1 := cmpf .olt main_v14 main_v15
  fn_part1 (F := F) main_arg1 main_arg6 main_v13 main_v16
-- ==== Kernel.lean ====
abbrev S100000x32 : Shape := ⟨2, ![100000, 32]⟩
abbrev S2x1600000 : Shape := ⟨2, ![2, 1600000]⟩
abbrev S1600000x32 : Shape := ⟨2, ![1600000, 32]⟩
abbrev S256x32 : Shape := ⟨2, ![256, 32]⟩
abbrev S100000 : Shape := ⟨1, ![100000]⟩
abbrev S96x32 : Shape := ⟨2, ![96, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S106496x32 : Shape := ⟨2, ![106496, 32]⟩
abbrev S106496 : Shape := ⟨1, ![106496]⟩
abbrev S1x106496 : Shape := ⟨2, ![1, 106496]⟩
abbrev S8192x32 : Shape := ⟨2, ![8192, 32]⟩
abbrev S1x8192 : Shape := ⟨2, ![1, 8192]⟩
abbrev S256x1 : Shape := ⟨2, ![256, 1]⟩
abbrev S256x8192 : Shape := ⟨2, ![256, 8192]⟩
abbrev S1605632x32 : Shape := ⟨2, ![1605632, 32]⟩
abbrev S1605632 : Shape := ⟨1, ![1605632]⟩
abbrev S1x1605632 : Shape := ⟨2, ![1, 1605632]⟩
abbrev S1x32 : Shape := ⟨2, ![1, 32]⟩
abbrev S32x32 : Shape := ⟨2, ![32, 32]⟩

abbrev nBuf : Space → Nat
  | .hbm => 49
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S256x32, .f32⟩
  | .hbm, ⟨4, _⟩ => ⟨S100000, .i32⟩
  | .hbm, ⟨5, _⟩ => ⟨S96x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1, .i32⟩
  | .hbm, ⟨18, _⟩ => ⟨S_, .i32⟩
  | .hbm, ⟨19, _⟩ => ⟨S1600000x1, .i32⟩
  | .hbm, ⟨20, _⟩ => ⟨S1600000x1, .i1⟩
  | .hbm, ⟨21, _⟩ => ⟨S1x1, .i32⟩
  | .hbm, ⟨22, _⟩ => ⟨S1600000x1, .i32⟩
  | .hbm, ⟨23, _⟩ => ⟨S1600000x1, .i1⟩
  | .hbm, ⟨24, _⟩ => ⟨S1600000x1, .i1⟩
  | .hbm, ⟨25, _⟩ => ⟨S_, .i1⟩
  | .hbm, ⟨26, _⟩ => ⟨S1600000, .i1⟩
  | .hbm, ⟨27, _⟩ => ⟨S1600000, .i32⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S_, .i32⟩
  | .hbm, ⟨32, _⟩ => ⟨S_, .f32⟩
  | .hbm, ⟨33, _⟩ => ⟨S106496x32, .f32⟩
  | .hbm, ⟨34, _⟩ => ⟨S_, .i32⟩
  | .hbm, ⟨35, _⟩ => ⟨S_, .i32⟩
  | .hbm, ⟨36, _⟩ => ⟨S106496, .i32⟩
  | .hbm, ⟨37, _⟩ => ⟨S1x106496, .i32⟩
  | .hbm, ⟨38, _⟩ => ⟨S256x32, .f32⟩
  | .hbm, ⟨39, _⟩ => ⟨S_, .i32⟩
  | .hbm, ⟨40, _⟩ => ⟨S_, .f32⟩
  | .hbm, ⟨41, _⟩ => ⟨S1605632x32, .f32⟩
  | .hbm, ⟨42, _⟩ => ⟨S_, .i32⟩
  | .hbm, ⟨43, _⟩ => ⟨S_, .i32⟩
  | .hbm, ⟨44, _⟩ => ⟨S1605632, .i32⟩
  | .hbm, ⟨45, _⟩ => ⟨S1x1605632, .i32⟩
  | .hbm, ⟨46, _⟩ => ⟨S256x32, .f32⟩
  | .hbm, ⟨47, _⟩ => ⟨S1x32, .f32⟩
  | .hbm, ⟨48, _⟩ => ⟨S256x32, .f32⟩
  | .local _ .vmem, ⟨0, _⟩ => ⟨S8192x32, .f32⟩
  | .local _ .vmem, ⟨1, _⟩ => ⟨S8192x32, .f32⟩
  | .local _ .vmem, ⟨2, _⟩ => ⟨S1x8192, .i32⟩
  | .local _ .vmem, ⟨3, _⟩ => ⟨S1x8192, .i32⟩
  | .local _ .vmem, ⟨4, _⟩ => ⟨S256x32, .f32⟩
  | .local _ .vmem, ⟨5, _⟩ => ⟨S256x32, .f32⟩
  | .local _ .vmem, ⟨6, _⟩ => ⟨S8192x32, .f32⟩
  | .local _ .vmem, ⟨7, _⟩ => ⟨S8192x32, .f32⟩
  | .local _ .vmem, ⟨8, _⟩ => ⟨S1x8192, .i32⟩
  | .local _ .vmem, ⟨9, _⟩ => ⟨S1x8192, .i32⟩
  | .local _ .vmem, ⟨10, _⟩ => ⟨S256x32, .f32⟩
  | .local _ .vmem, ⟨11, _⟩ => ⟨S256x32, .f32⟩
  | .local _ .vmem, ⟨12, _⟩ => ⟨S256x32, .f32⟩
  | .local _ .vmem, ⟨13, _⟩ => ⟨S256x32, .f32⟩
  | .local _ .vmem, ⟨14, _⟩ => ⟨S256x32, .f32⟩
  | .local _ .vmem, ⟨15, _⟩ => ⟨S96x32, .f32⟩
  | .local _ .vmem, ⟨16, _⟩ => ⟨S1x32, .f32⟩
  | .local _ .vmem, ⟨17, _⟩ => ⟨S256x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_c_4 : Ref sig .tc := ⟨.hbm, 28, rfl⟩
abbrev main_call0_v14 : Ref sig .tc := ⟨.hbm, 29, rfl⟩
abbrev main_v2 : Ref sig .tc := ⟨.hbm, 30, rfl⟩
abbrev main_c : Ref sig .tc := ⟨.hbm, 31, rfl⟩
abbrev main_call1_v0 : Ref sig .tc := ⟨.hbm, 32, rfl⟩
abbrev main_v3 : Ref sig .tc := ⟨.hbm, 33, rfl⟩
abbrev main_c_0 : Ref sig .tc := ⟨.hbm, 34, rfl⟩
abbrev main_call2_v0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_call3_v0 : Ref sig .tc := ⟨.hbm, 40, rfl⟩
abbrev main_v7 : Ref sig .tc := ⟨.hbm, 41, rfl⟩
abbrev main_c_2 : Ref sig .tc := ⟨.hbm, 42, rfl⟩
abbrev main_call4_v0 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32 : BitVec 32 := 12#32
  let v21 : BitVec 1 := Scalar.cmpi .eq arg0 c12_i32
  let v22 : BitVec 32 := Scalar.extui v21
  let c0_i32_8 : BitVec 32 := 0#32
  let v23 : BitVec 1 := Scalar.cmpi .ne v22 c0_i32_8
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![196], ![false]⟩

def k1_cond2 (i : grid1.Coords) : BitVec 1 :=
  let arg0 : BitVec 32 := BitVec.ofNat 32 (i 0).val
  let c195_i32 : BitVec 32 := 195#32
  let v21 : BitVec 1 := Scalar.cmpi .eq arg0 c195_i32
  let v22 : BitVec 32 := Scalar.extui v21
  let c0_i32_8 : BitVec 32 := 0#32
  let v23 : BitVec 1 := Scalar.cmpi .ne v22 c0_i32_8
  v23

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x32 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  pads_S100000x32_S106496x32_064960_000 : S100000x32.Pads (![0, 0] : Fin 2 → Nat) ![6496, 0] ![0, 0] S106496x32
  pads_S100000_S106496_064960 : S100000.Pads (![0] : Fin 1 → Nat) ![6496] ![0] S106496
  shapeCasts_S106496_S1x106496 : S106496.ShapeCasts S1x106496
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  iota_S256x1_d0_w32 : S256x1.Iotas .tc 32 [0]
  broadcasts_S256x1_S256x8192 : S256x1.Broadcasts S256x8192
  broadcasts_S1x8192_S256x8192 : S1x8192.Broadcasts S256x8192
  natLt_1_32 : 1 < 32
  bitsLt_bf16_f32 : FTy.bits .bf16 < FTy.bits .f32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  pads_S1600000x32_S1605632x32_056320_000 : S1600000x32.Pads (![0, 0] : Fin 2 → Nat) ![5632, 0] ![0, 0] S1605632x32
  pads_S1600000_S1605632_056320 : S1600000.Pads (![0] : Fin 1 → Nat) ![5632] ![0] S1605632
  shapeCasts_S1605632_S1x1605632 : S1605632.ShapeCasts S1x1605632
  shapeCasts_S32_S1x32 : S32.ShapeCasts S1x32
  inb_S96x32_S32x32_0_0 : ∀ a, (![0, 0] : Fin 2 → Nat) a + S32x32.size a ≤ S96x32.size a
  h_S32x32 : 0 < S32x32.numel
  inb_S96x32_S32x32_32_0 : ∀ a, (![32, 0] : Fin 2 → Nat) a + S32x32.size a ≤ S96x32.size a
  inb_S96x32_S32x32_64_0 : ∀ a, (![64, 0] : Fin 2 → Nat) a + S32x32.size a ≤ S96x32.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  gather_S100000_S1600000x1_S1600000_n_0_n_n_0_1_1_wf : GatherDims.WF S100000 S1600000x1 S1600000 [] [0] [] [0] [] 1 ![1]
  dot_S256x8192_S8192x32_S256x32_1_0_0_1_n_n_wf : DotDims.WF S256x8192 S8192x32 S256x32 [1] [0] [0] [1] [] []
  dot_S256x32_S32x32_S256x32_1_0_0_1_n_n_wf : DotDims.WF S256x32 S32x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S106496x32.size a
  hwx0_0 : ∀ i : grid0.Coords, EltTy.bits .f32 = 32 ∨ (Rect.block (s := S106496x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x106496.size a
  hwx0_1 : ∀ i : grid0.Coords, EltTy.bits .i32 = 32 ∨ (Rect.block (s := S1x106496) S1x8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S1605632x32.size a
  hwx1_0 : ∀ i : grid1.Coords, EltTy.bits .f32 = 32 ∨ (Rect.block (s := S1605632x32) S8192x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8192.size a ≤ S1x1605632.size a
  hwx1_1 : ∀ i : grid1.Coords, EltTy.bits .i32 = 32 ∨ (Rect.block (s := S1x1605632) S1x8192.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x32.size a ≤ S256x32.size a
  hwx1_2 : ∀ i : grid1.Coords, EltTy.bits .f32 = 32 ∨ (Rect.block (s := S256x32) S256x32.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x32.size a ≤ S256x32.size a
  hwx2_0 : ∀ i : grid2.Coords, EltTy.bits .f32 = 32 ∨ (Rect.block (s := S256x32) S256x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x32.size a ≤ S256x32.size a
  hwx2_1 : ∀ i : grid2.Coords, EltTy.bits .f32 = 32 ∨ (Rect.block (s := S256x32) S256x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x32.size a ≤ S256x32.size a
  hwx2_2 : ∀ i : grid2.Coords, EltTy.bits .f32 = 32 ∨ (Rect.block (s := S256x32) S256x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x32.size a ≤ S96x32.size a
  hwx2_3 : ∀ i : grid2.Coords, EltTy.bits .f32 = 32 ∨ (Rect.block (s := S96x32) S96x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x32.size a ≤ S256x32.size a
  hwx2_5 : ∀ i : grid2.Coords, EltTy.bits .f32 = 32 ∨ (Rect.block (s := S256x32) S256x32.size (cc2_transform_5 i) (hinb2_5 i)).WholeWords (EltTy.packing .f32)

variable [Facts₀]

def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf

abbrev win0_0 : Pipeline.Window sig grid0 :=
  Pipeline.Window.ofSpec (Memref.whole main_v3) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x32.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v7) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S256x32.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v6) S256x32.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v10) S256x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S256x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S96x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v12) S256x32.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000x32 : Shape := ⟨2, ![1600000, 32]⟩
abbrev S256x32 : Shape := ⟨2, ![256, 32]⟩
abbrev S100000 : Shape := ⟨1, ![100000]⟩
abbrev S96x32 : Shape := ⟨2, ![96, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S1600000x1 : Shape := ⟨2, ![1600000, 1]⟩
abbrev S256x96 : Shape := ⟨2, ![256, 96]⟩
abbrev S1x32 : Shape := ⟨2, ![1, 32]⟩

abbrev nBuf : Space → Nat
  | .hbm => 34
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000x32, .f32⟩
  | .hbm, ⟨3, _⟩ => ⟨S256x32, .f32⟩
  | .hbm, ⟨4, _⟩ => ⟨S100000, .i32⟩
  | .hbm, ⟨5, _⟩ => ⟨S96x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S256x32, .f32⟩
  | .hbm, ⟨11, _⟩ => ⟨S100000x1, .i32⟩
  | .hbm, ⟨12, _⟩ => ⟨S256x32, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000, .i32⟩
  | .hbm, ⟨22, _⟩ => ⟨S_, .f32⟩
  | .hbm, ⟨23, _⟩ => ⟨S256x32, .f32⟩
  | .hbm, ⟨24, _⟩ => ⟨S1600000x1, .i32⟩
  | .hbm, ⟨25, _⟩ => ⟨S256x32, .f32⟩
  | .hbm, ⟨26, _⟩ => ⟨S256x96, .f32⟩
  | .hbm, ⟨27, _⟩ => ⟨S256x32, .f32⟩
  | .hbm, ⟨28, _⟩ => ⟨S1x32, .f32⟩
  | .hbm, ⟨29, _⟩ => ⟨S256x32, .f32⟩
  | .hbm, ⟨30, _⟩ => ⟨S256x32, .f32⟩
  | .hbm, ⟨31, _⟩ => ⟨S_, .f32⟩
  | .hbm, ⟨32, _⟩ => ⟨S256x32, .f32⟩
  | .hbm, ⟨33, _⟩ => ⟨S256x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S256x32 : S_.BroadcastsInDim S256x32 (![] : Fin 0 → Fin S256x32.rank)
  bcast_S100000_S100000x1_0 : S100000.BroadcastsInDim S100000x1 (![0] : Fin 1 → Fin S100000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S256x32_S256x32_S256x32_S256x96_d1 : Shape.Concatenates [S256x32, S256x32, S256x32] S256x96 1
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  scatter_S256x32_S100000x1_S100000x32_1_0_0_1_wf : ScatterDims.WF S256x32 S100000x1 S100000x32 [1] [0] [0] 1
  gather_S100000_S1600000x1_S1600000_n_0_n_n_0_1_1_wf : GatherDims.WF S100000 S1600000x1 S1600000 [] [0] [] [0] [] 1 ![1]
  scatter_S256x32_S1600000x1_S1600000x32_1_0_0_1_wf : ScatterDims.WF S256x32 S1600000x1 S1600000x32 [1] [0] [0] 1
  dot_S256x96_S96x32_S256x32_1_0_0_1_n_n_wf : DotDims.WF S256x96 S96x32 S256x32 [1] [0] [0] [1] [] []

variable [Facts₀]

def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S256x32_S1600000x1_S1600000x32_1_0_0_1 : ScatterDims S256x32 S1600000x1 S1600000x32 where
  updateWindowDims := [1]
  insertedWindowDims := [0]
  scatterDimsToOperandDims := [0]
  indexVectorDim := 1
  wf := scatter_S256x32_S1600000x1_S1600000x32_1_0_0_1_wf
def dot_S256x96_S96x32_S256x32_1_0_0_1_n_n : DotDims S256x96 S96x32 S256x32 where
  lhsContracting := [1]
  rhsContracting := [0]
  lhsNonContracting := [0]
  rhsNonContracting := [1]
  lhsBatch := []
  rhsBatch := []
  wf := dot_S256x96_S96x32_S256x32_1_0_0_1_n_n_wf

class Facts : Prop extends Facts₀ where

variable [Facts]
-- ==== Proof.K.Blocks.lean ====
/-
  The quantities the three kernel regions are described with, as pure functions of the buffer contents a region
  is entered with (`V`): the block of an operand that a grid point sees, and the two carried accumulators.

  Regions 0 and 1 are the same segment sum at two sizes. Point `t` sees rows `8192·t … 8192·t + 8191` of the
  (padded) feature array and the matching 8192 segment ids; its body adds, to what the accumulator held, the
  product of the one-hot matrix of the ids (256 × 8192) with the feature block (8192 × 32). At the first point
  the accumulator is first reset to zero. `acc0 n` / `acc1 n` is the accumulator after point `n`.
  Region 2 has one point; its body's result is `out2` of the five operand arrays.
-/
import proofs.«414828_j70153995813297_1_alg».proof.Proof.Gen.Kernel.Launch
import proofs.«414828_j70153995813297_1_alg».proof.Proof.Gen.Kernel.Skeleton
import proofs.«414828_j70153995813297_1_alg».proof.Proof.Gen.Kernel.Points

set_option maxRecDepth 16384

noncomputable section

namespace Cert.Kernel.H

open Idealize.ShloMosaic Idealize.ShloMosaic.TcCoe
open Idealize.SL Idealize.SL.Sem
open Cert.Kernel Cert.Kernel.Gen

variable {F : FTy → Type} [FloatOps F]
variable (V : (c : Dev nD) → (b : Ref sig .tc) → Buf (Elt F) ((c : Thread nD τ).loc b))

/-! ## Region 0 -/

/-- Operand `w`'s block at point `t` of region 0, read off the operand's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows point `t` sees (8192 × 32). -/
abbrev feat0 (c : Dev nD) (t : Fin cfg0.N) : Vec F S8192x32 .f32 := iblk0 V c 0 t
/-- The segment ids point `t` sees (1 × 8192). -/
abbrev ids0 (c : Dev nD) (t : Fin cfg0.N) : Vec F S1x8192 .i32 := iblk0 V c 1 t

/-- The accumulator after point `n`: the body's sum over what the point before left, over zero at the first point. -/
def acc0 (c : Dev nD) : (n : ℕ) → n < cfg0.N → Vec F S256x32 .f32
  | 0, h => k0_pay2 (ids0 V c ⟨0, h⟩) (feat0 V c ⟨0, h⟩) (k0_pay1 (F := F))
  | n + 1, h => k0_pay2 (ids0 V c ⟨n + 1, h⟩) (feat0 V c ⟨n + 1, h⟩) (acc0 c n (Nat.lt_of_succ_lt h))

theorem acc0_zero (c : Dev nD) (h : 0 < cfg0.N) :
    acc0 V c 0 h = k0_pay2 (ids0 V c ⟨0, h⟩) (feat0 V c ⟨0, h⟩) (k0_pay1 (F := F)) := rfl
theorem acc0_succ (c : Dev nD) (n : ℕ) (h : n + 1 < cfg0.N) :
    acc0 V c (n + 1) h = k0_pay2 (ids0 V c ⟨n + 1, h⟩) (feat0 V c ⟨n + 1, h⟩) (acc0 V c n (Nat.lt_of_succ_lt h)) := rfl

/-! ## Region 1 -/

/-- Operand `w`'s block at point `t` of region 1, read off the operand's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev feat1 (c : Dev nD) (t : Fin cfg1.N) : Vec F S8192x32 .f32 := iblk1 V c 0 t
abbrev ids1 (c : Dev nD) (t : Fin cfg1.N) : Vec F S1x8192 .i32 := iblk1 V c 1 t

def acc1 (c : Dev nD) : (n : ℕ) → n < cfg1.N → Vec F S256x32 .f32
  | 0, h => k1_pay2 (ids1 V c ⟨0, h⟩) (feat1 V c ⟨0, h⟩) (k1_pay1 (F := F))
  | n + 1, h => k1_pay2 (ids1 V c ⟨n + 1, h⟩) (feat1 V c ⟨n + 1, h⟩) (acc1 c n (Nat.lt_of_succ_lt h))

theorem acc1_zero (c : Dev nD) (h : 0 < cfg1.N) :
    acc1 V c 0 h = k1_pay2 (ids1 V c ⟨0, h⟩) (feat1 V c ⟨0, h⟩) (k1_pay1 (F := F)) := rfl
theorem acc1_succ (c : Dev nD) (n : ℕ) (h : n + 1 < cfg1.N) :
    acc1 V c (n + 1) h = k1_pay2 (ids1 V c ⟨n + 1, h⟩) (feat1 V c ⟨n + 1, h⟩) (acc1 V c n (Nat.lt_of_succ_lt h)) := rfl

/-! ## Region 2 -/

/-- Operand `w`'s block at the one point of region 2: the operand's whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev node2 (c : Dev nD) (t : Fin cfg2.N) : Vec F S256x32 .f32 := iblk2 V c 0 t
abbrev edge2 (c : Dev nD) (t : Fin cfg2.N) : Vec F S256x32 .f32 := iblk2 V c 1 t
abbrev glob2 (c : Dev nD) (t : Fin cfg2.N) : Vec F S256x32 .f32 := iblk2 V c 2 t
abbrev wts2 (c : Dev nD) (t : Fin cfg2.N) : Vec F S96x32 .f32 := iblk2 V c 3 t
abbrev bias2 (c : Dev nD) (t : Fin cfg2.N) : Vec F S1x32 .f32 := iblk2 V c 4 t

end Cert.Kernel.H

end
-- ==== Proof.K.R0.lean ====
/-
  Region 0: the segment sum over 13 grid points, as the pipeline's proof data.
  The accumulator lives in a scratch buffer the kernel keeps between points, so the region's invariant carries it:
  before the first point the scratch holds anything; after point `n` it holds `acc0 n`. The output block is
  stored at the last point only (and written back there); at the other points the output window is idle.
-/
import proofs.«414828_j70153995813297_1_alg».proof.Proof.K.Blocks
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, and where the output window is idle -/

/-- The accumulator is reset where the grid coordinate is zero. -/
abbrev first0 (i : grid0.Coords) : Prop :=
  (Scalar.cmpi .ne (Scalar.extui (Scalar.cmpi .eq (BitVec.ofNat 32 (i 0).val) 0#32)) 0#32) = 1#1
/-- The accumulator is copied to the output block where the grid coordinate is the last. -/
abbrev last0 (i : grid0.Coords) : Prop := k0_cond2 i = 1#1

/-- The reset condition holds at point 0 and nowhere else. -/
theorem first0_iff : ∀ t : Fin cfg0.N, first0 (grid0.coords t) ↔ t.val = 0 :=
  (by decide +kernel : ∀ t : Fin grid0.N, first0 (grid0.coords t) ↔ t.val = 0)
/-- The copy-out condition holds at point 12 and nowhere else. -/
theorem last0_iff : ∀ t : Fin cfg0.N, last0 (grid0.coords t) ↔ t.val = 12 :=
  (by decide +kernel : ∀ t : Fin grid0.N, last0 (grid0.coords t) ↔ t.val = 12)
/-- The two input windows are live at every point. -/
theorem live0_0 : ∀ i, cfg0.idle 0 i = false := fun _ => rfl
theorem live0_1 : ∀ i, cfg0.idle 1 i = false := fun _ => rfl
/-- The output window is idle, and not written back, at every point but the last; at the last it is live. -/
theorem idle0_2 : ∀ t : Fin cfg0.N, t.val ≠ 12 → cfg0.idle 2 (grid0.coords t) = true :=
  (by decide +kernel : ∀ t : Fin grid0.N, t.val ≠ 12 → cfg0.idle 2 (grid0.coords t) = true)
theorem noflush0_2 : ∀ t : Fin cfg0.N, t.val ≠ 12 → (cfg0.win 2).flush t = false :=
  (by decide +kernel : ∀ t : Fin grid0.N, t.val ≠ 12 → win0_2.flush t = false)
theorem live0_2 : ∀ t : Fin cfg0.N, t.val = 12 → cfg0.idle 2 (grid0.coords t) = false :=
  (by decide +kernel : ∀ t : Fin grid0.N, t.val = 12 → cfg0.idle 2 (grid0.coords t) = false)

/-- The offsets of every load and store of the body: the origin. -/
theorem hz0 : (![0, 0] : Fin 2 → Nat) = fun _ => 0 := funext fun a => by fin_cases a <;> rfl

/-- What a buffer of the accumulator's shape reads after stores the last of which is of the whole buffer: that store's payload,
    whatever the earlier stores and the contents before them. -/
theorem read_last0 {sp : Space} (v : View sig .tc sp S256x32 .f32) (f : v.ty.Contents (Elt F)) (w : S256x32.Idx → Elt F .f32)
    (L : List (View.Piece (Elt F) S256x32 .f32)) :
    v.read (Elt F) (v.writes (Elt F) f
      ((⟨Rect.unit (s := S256x32) ![0, 0] S256x32.size inb_S256x32_S256x32_0_0, w⟩ : View.Piece (Elt F) S256x32 .f32) :: L)) = w := by
  rw [View.read_writes_eq_canon _ _ _ (fun y => ⟨_, List.mem_cons_self, View.mem_set_unit_zero hz0 inb_S256x32_S256x32_0_0 y⟩),
    View.canon_cons_unit_zero hz0]

/-! ## The body on any whole memrefs, case by case

Every load and store of the body is of a whole buffer, so a buffer reads back the last payload stored into it and a
load reads the buffer's contents. The output buffer is touched at the last point only. -/

set_option maxHeartbeats 1000000 in
/-- At the first point: the accumulator, holding anything, is set to zero and then to the body's sum over zero. -/
theorem run_first0 (c : Dev nD) (E : Set ℕ) (i : grid0.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : first0 i) (h2 : ¬ last0 i)
    (x : Vec F S8192x32 .f32) (ids : Vec F S1x8192 .i32) (K : PUnit → sProp 𝕄) :
    iprop(owns (c : Thread nD τ) arg1 fullShare x ∗ owns (c : Thread nD τ) arg2 fullShare ids ∗ (∃ d, owns (c : Thread nD τ) arg4 fullShare d)
        ∗ (iprop(owns (c : Thread nD τ) arg1 fullShare x ∗ owns (c : Thread nD τ) arg2 fullShare ids
            ∗ owns (c : Thread nD τ) arg4 fullShare (k0_pay2 ids x (k0_pay1 (F := F)))) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%d4, %f4, -, H4⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [read_last0]
  simp only [View.readAt_eq_ld, View.ld_unit_zero (S := S1x8192) hz0, View.ld_unit_zero (S := S8192x32) hz0,
    View.readCov_unit_zero (S := S256x32) _ hz0]

set_option maxHeartbeats 1000000 in
/-- At a point neither first nor last: the accumulator, holding `s`, is set to the body's sum over `s`. -/
theorem run_mid0 (c : Dev nD) (E : Set ℕ) (i : grid0.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : ¬ first0 i) (h2 : ¬ last0 i)
    (x : Vec F S8192x32 .f32) (ids : Vec F S1x8192 .i32) (s : Vec F S256x32 .f32) (K : PUnit → sProp 𝕄) :
    iprop(owns (c : Thread nD τ) arg1 fullShare x ∗ owns (c : Thread nD τ) arg2 fullShare ids ∗ owns (c : Thread nD τ) arg4 fullShare s
        ∗ (iprop(owns (c : Thread nD τ) arg1 fullShare x ∗ owns (c : Thread nD τ) arg2 fullShare ids
            ∗ owns (c : Thread nD τ) arg4 fullShare (k0_pay2 ids x s)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%f4, %hf4, H4⟩, Hk⟩
  subst hf1; subst hf2; subst hf4
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [read_last0]
  simp only [View.readAt_eq_ld, View.ld_unit_zero (S := S1x8192) hz0, View.ld_unit_zero (S := S8192x32) hz0,
    View.ld_unit_zero (S := S256x32) hz0]

set_option maxHeartbeats 1000000 in
/-- At the last point: the accumulator, holding `s`, is set to the body's sum over `s`, and the output buffer, holding
    anything, to the same. -/
theorem run_last0 (c : Dev nD) (E : Set ℕ) (i : grid0.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : ¬ first0 i) (h2 : last0 i)
    (x : Vec F S8192x32 .f32) (ids : Vec F S1x8192 .i32) (s : Vec F S256x32 .f32) (K : PUnit → sProp 𝕄) :
    iprop(owns (c : Thread nD τ) arg1 fullShare x ∗ owns (c : Thread nD τ) arg2 fullShare ids ∗ (∃ d, owns (c : Thread nD τ) arg3 fullShare d)
        ∗ owns (c : Thread nD τ) arg4 fullShare s
        ∗ (iprop(owns (c : Thread nD τ) arg1 fullShare x ∗ owns (c : Thread nD τ) arg2 fullShare ids
            ∗ owns (c : Thread nD τ) arg3 fullShare (k0_pay2 ids x s) ∗ owns (c : Thread nD τ) arg4 fullShare (k0_pay2 ids x s)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [read_last0]
    simp only [View.readAt_eq_ld, View.ld_unit_zero (S := S1x8192) hz0, View.ld_unit_zero (S := S8192x32) hz0,
      View.ld_unit_zero (S := S256x32) hz0, View.readCov_unit_zero (S := S256x32) _ hz0]
  iexists _; isplitr
  swap; · iexact H4
  ipureintro
  sl_unfold_words
  rw [read_last0]
  simp only [View.readAt_eq_ld, View.ld_unit_zero (S := S1x8192) hz0, View.ld_unit_zero (S := S8192x32) hz0,
    View.ld_unit_zero (S := S256x32) hz0]

variable (V : (c : Dev nD) → (b : Ref sig .tc) → Buf (Elt F) ((c : Thread nD τ).loc b))

/-- The scratch operand: a whole scoped buffer of the kernel's own. -/
abbrev scM0 : Memref sig .tc .vmem S256x32 .f32 := Memref.whole cc0_scratch0

/-- The region invariant before position `n`: before the first point the class's (every scoped buffer no window stages at
    anything, the generator register at some state); afterwards the same with the scratch at what point `n - 1` left. -/
def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ ∃ r, prngReg c r)

/-- The proof data of pipeline 0 on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The accumulator and the invariant, point by point -/

/-- At the first point the accumulator is the body's sum over zero; -/
theorem acc0_first (c : Dev nD) (t : Fin cfg0.N) (h : t.val = 0) :
    acc0 V c t.val t.isLt = k0_pay2 (ids0 V c t) (feat0 V c t) (k0_pay1 (F := F)) := by
  obtain ⟨n, hn⟩ := t
  cases n with
  | zero => rfl
  | succ n => exact absurd h (Nat.succ_ne_zero n)

/-- at a later point, the body's sum over the accumulator of the point before. -/
theorem acc0_later (c : Dev nD) (t : Fin cfg0.N) (h : t.val ≠ 0) :
    acc0 V c t.val t.isLt
      = k0_pay2 (ids0 V c t) (feat0 V c t) (acc0 V c (t.val - 1) (Nat.lt_of_le_of_lt (Nat.sub_le _ _) t.isLt)) := by
  obtain ⟨n, hn⟩ := t
  cases n with
  | zero => exact absurd rfl h
  | succ n => rfl

/-- Before the first point the invariant is the class's, -/
theorem PhiS0_first (c : Dev nD) (n : ℕ) (h : n ≤ cfg0.N) (hz : n = 0) : PhiS0 V c n h = Pipeline.ΦA spec0 c := by
  subst hz; rfl

/-- before a later one, the scratch at the accumulator of the point before beside the unopened rest. -/
theorem PhiS0_later (c : Dev nD) (n : ℕ) (h : n ≤ cfg0.N) (hz : n ≠ 0) :
    PhiS0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ ∃ r, prngReg c r) := by
  cases n with
  | zero => exact absurd rfl hz
  | succ n => rfl

theorem Phi0_castSucc (c : Dev nD) (t : Fin cfg0.N) :
    (dat0 V c).Φ t.castSucc = PhiS0 V c t.val (Nat.le_of_lt t.isLt) := rfl

theorem Phi0_succ (c : Dev nD) (t : Fin cfg0.N) :
    (dat0 V c).Φ t.succ = iprop(owns (c : Thread nD τ) scM0 fullShare (acc0 V c t.val t.isLt)
      ∗ Pipeline.scopedRestBut (Ix := Unit) (Name := ℕ) (U := UR sig nD τ) (Lvl := ℕ) (Val := Elt F) spec0 c [cc0_scratch0]
      ∗ ∃ r, prngReg c r) := rfl

/-- The class's invariant with the scratch taken out of the scoped rest, as a memref owned at some contents. -/
theorem PhiA0_split (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
        ∗ ∃ r, prngReg c r) := by
  unfold Pipeline.ΦA
  rw [Pipeline.scopedRest_split_of_list spec0 c [cc0_scratch0] (by decide) (by decide)]
  simp only [bigSepL_singleton, scM0, owns_whole]
  try rfl

/-! ## What the windows' buffers hold around the body -/

/-- An input's buffer holds its block at every point, fetched there or not. -/
theorem before0_0 (c : Dev nD) (t : Fin cfg0.N) (d) : (dat0 V c).before 0 t d = iblk0 V c 0 t :=
  ((dat0 V c).before_in_eq_fetched 0 rfl live0_0 (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl live0_1 (fun _ _ _ => rfl)
    (fun t => by rw [after0_1]; unfold Dat.blockOf iblk0; rw [A_eq0]; try rfl) t d).trans
    (by unfold Dat.fetched Dat.blockOf iblk0; rw [A_eq0]; try rfl)

/-- The body leaves each input's buffer at its block; -/
theorem leaves0_0 (c : Dev nD) (t : Fin cfg0.N) :
    (dat0 V c).leavesExact 0 t = owns (c : Thread nD τ) (st0_0 t) fullShare (iblk0 V c 0 t) := by
  unfold Dat.leavesExact; rw [live0_0, after0_0]
theorem leaves0_1 (c : Dev nD) (t : Fin cfg0.N) :
    (dat0 V c).leavesExact 1 t = owns (c : Thread nD τ) (st0_1 t) fullShare (iblk0 V c 1 t) := by
  unfold Dat.leavesExact; rw [live0_1, after0_1]
/-- the output's, at the last point, at the accumulator. -/
theorem leaves0_2 (c : Dev nD) (t : Fin cfg0.N) (h : t.val = 12) :
    (dat0 V c).leavesExact 2 t = owns (c : Thread nD τ) (st0_2 t) fullShare (acc0 V c t.val t.isLt) := by
  unfold Dat.leavesExact; rw [live0_2 t h, after0_2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' buffers hold their blocks. At the last point the scratch holds the accumulator of
    the point before, and the body leaves the scratch and the output's buffer at this point's; at an earlier point the
    output's buffer is handed back as found, and the scratch — holding anything at the first point, the accumulator of
    the point before at the others — is left at this point's accumulator. The rest of the invariant passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    Phi0_succ, Phi0_castSucc, leaves0_0, leaves0_1]
  by_cases hl : t.val = 12
  · have hf : t.val ≠ 0 := by omega
    rw [leaves0_2 V c t hl, PhiS0_later V c _ _ hf, acc0_later V c t hf]
    iintro ⟨⟨HS, HR, Hg⟩, Ho, ⟨%d0, H0⟩, ⟨%d1, H1⟩, ⟨%d2, H2⟩⟩
    iapply (run_last0 c Set.univ (grid0.coords t) _ _ _ _ _ _ _ _ (fun h => hf ((first0_iff t).mp h)) ((last0_iff t).mpr hl)
      (feat0 V c t) (ids0 V c t) (acc0 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [Dat.leavesExact_idle (dat0 V c) 2 t (idle0_2 t hl) (noflush0_2 t hl)]
    by_cases hf : t.val = 0
    · rw [PhiS0_first V c _ _ hf, PhiA0_split, acc0_first V c t hf]
      iintro ⟨⟨⟨HS, HR⟩, Hg⟩, Ho, ⟨%d0, H0⟩, ⟨%d1, H1⟩, H2⟩
      iapply (run_first0 c Set.univ (grid0.coords t) _ _ _ _ _ _ _ _ ((first0_iff t).mpr hf) (fun h => hl ((last0_iff t).mp h))
        (feat0 V c t) (ids0 V c t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS0_later V c _ _ hf, acc0_later V c t hf]
      iintro ⟨⟨HS, HR, Hg⟩, Ho, ⟨%d0, H0⟩, ⟨%d1, H1⟩, H2⟩
      iapply (run_mid0 c Set.univ (grid0.coords t) _ _ _ _ _ _ _ _ (fun h => hf ((first0_iff t).mp h)) (fun h => hl ((last0_iff t).mp h))
        (feat0 V c t) (ids0 V c t) (acc0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_first V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_later V c _ _ (by rw [show cfg0.N = 13 from N_0]; decide), PhiA0_split]
  iintro ⟨HS, HR, Hg⟩
  isplitl [HS HR]
  · isplitl [HS]; · iexists _; iexact HS
    iexact HR
  iexact Hg

end Cert.Kernel.H

end
-- ==== Proof.K.R1.lean ====
/-
  Region 1: the segment sum over 196 grid points, as the pipeline's proof data.
  The accumulator lives in a scratch buffer the kernel keeps between points, so the region's invariant carries it:
  before the first point the scratch holds anything; after point `n` it holds `acc1 n`. The output block is
  stored at the last point only (and written back there); at the other points the output window is idle.
-/
import proofs.«414828_j70153995813297_1_alg».proof.Proof.K.Blocks
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, and where the output window is idle -/

/-- The accumulator is reset where the grid coordinate is zero. -/
abbrev first1 (i : grid1.Coords) : Prop :=
  (Scalar.cmpi .ne (Scalar.extui (Scalar.cmpi .eq (BitVec.ofNat 32 (i 0).val) 0#32)) 0#32) = 1#1
/-- The accumulator is copied to the output block where the grid coordinate is the last. -/
abbrev last1 (i : grid1.Coords) : Prop := k1_cond2 i = 1#1

/-- The reset condition holds at point 0 and nowhere else. -/
theorem first1_iff : ∀ t : Fin cfg1.N, first1 (grid1.coords t) ↔ t.val = 0 :=
  (by decide +kernel : ∀ t : Fin grid1.N, first1 (grid1.coords t) ↔ t.val = 0)
/-- The copy-out condition holds at point 195 and nowhere else. -/
theorem last1_iff : ∀ t : Fin cfg1.N, last1 (grid1.coords t) ↔ t.val = 195 :=
  (by decide +kernel : ∀ t : Fin grid1.N, last1 (grid1.coords t) ↔ t.val = 195)
/-- The two input windows are live at every point. -/
theorem live1_0 : ∀ i, cfg1.idle 0 i = false := fun _ => rfl
theorem live1_1 : ∀ i, cfg1.idle 1 i = false := fun _ => rfl
/-- The output window is idle, and not written back, at every point but the last; at the last it is live. -/
theorem idle1_2 : ∀ t : Fin cfg1.N, t.val ≠ 195 → cfg1.idle 2 (grid1.coords t) = true :=
  (by decide +kernel : ∀ t : Fin grid1.N, t.val ≠ 195 → cfg1.idle 2 (grid1.coords t) = true)
theorem noflush1_2 : ∀ t : Fin cfg1.N, t.val ≠ 195 → (cfg1.win 2).flush t = false :=
  (by decide +kernel : ∀ t : Fin grid1.N, t.val ≠ 195 → win1_2.flush t = false)
theorem live1_2 : ∀ t : Fin cfg1.N, t.val = 195 → cfg1.idle 2 (grid1.coords t) = false :=
  (by decide +kernel : ∀ t : Fin grid1.N, t.val = 195 → cfg1.idle 2 (grid1.coords t) = false)

/-- The offsets of every load and store of the body: the origin. -/
theorem hz1 : (![0, 0] : Fin 2 → Nat) = fun _ => 0 := funext fun a => by fin_cases a <;> rfl

/-- What a buffer of the accumulator's shape reads after stores the last of which is of the whole buffer: that store's payload,
    whatever the earlier stores and the contents before them. -/
theorem read_last1 {sp : Space} (v : View sig .tc sp S256x32 .f32) (f : v.ty.Contents (Elt F)) (w : S256x32.Idx → Elt F .f32)
    (L : List (View.Piece (Elt F) S256x32 .f32)) :
    v.read (Elt F) (v.writes (Elt F) f
      ((⟨Rect.unit (s := S256x32) ![0, 0] S256x32.size inb_S256x32_S256x32_0_0, w⟩ : View.Piece (Elt F) S256x32 .f32) :: L)) = w := by
  rw [View.read_writes_eq_canon _ _ _ (fun y => ⟨_, List.mem_cons_self, View.mem_set_unit_zero hz1 inb_S256x32_S256x32_0_0 y⟩),
    View.canon_cons_unit_zero hz1]

/-! ## The body on any whole memrefs, case by case

Every load and store of the body is of a whole buffer, so a buffer reads back the last payload stored into it and a
load reads the buffer's contents. The output buffer is touched at the last point only. -/

set_option maxHeartbeats 1000000 in
/-- At the first point: the accumulator, holding anything, is set to zero and then to the body's sum over zero. -/
theorem run_first1 (c : Dev nD) (E : Set ℕ) (i : grid1.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : first1 i) (h2 : ¬ last1 i)
    (x : Vec F S8192x32 .f32) (ids : Vec F S1x8192 .i32) (K : PUnit → sProp 𝕄) :
    iprop(owns (c : Thread nD τ) arg1 fullShare x ∗ owns (c : Thread nD τ) arg2 fullShare ids ∗ (∃ d, owns (c : Thread nD τ) arg4 fullShare d)
        ∗ (iprop(owns (c : Thread nD τ) arg1 fullShare x ∗ owns (c : Thread nD τ) arg2 fullShare ids
            ∗ owns (c : Thread nD τ) arg4 fullShare (k1_pay2 ids x (k1_pay1 (F := F)))) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f1, %hf1, H1⟩, ⟨%f2, %hf2, H2⟩, ⟨%d4, %f4, -, H4⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [read_last1]
  simp only [View.readAt_eq_ld, View.ld_unit_zero (S := S1x8192) hz1, View.ld_unit_zero (S := S8192x32) hz1,
    View.readCov_unit_zero (S := S256x32) _ hz1]

set_option maxHeartbeats 1000000 in
/-- At a point neither first nor last: the accumulator, holding `s`, is set to the body's sum over `s`. -/
theorem run_mid1 (c : Dev nD) (E : Set ℕ) (i : grid1.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : ¬ first1 i) (h2 : ¬ last1 i)
    (x : Vec F S8192x32 .f32) (ids : Vec F S1x8192 .i32) (s : Vec F S256x32 .f32) (K : PUnit → sProp 𝕄) :
    iprop(owns (c : Thread nD τ) arg1 fullShare x ∗ owns (c : Thread nD τ) arg2 fullShare ids ∗ owns (c : Thread nD τ) arg4 fullShare s
        ∗ (iprop(owns (c : Thread nD τ) arg1 fullShare x ∗ owns (c : Thread nD τ) arg2 fullShare ids
            ∗ owns (c : Thread nD τ) arg4 fullShare (k1_pay2 ids x s)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f1, %hf1, H1⟩, ⟨%f2, %hf2, H2⟩, ⟨%f4, %hf4, H4⟩, Hk⟩
  subst hf1; subst hf2; subst hf4
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [read_last1]
  simp only [View.readAt_eq_ld, View.ld_unit_zero (S := S1x8192) hz1, View.ld_unit_zero (S := S8192x32) hz1,
    View.ld_unit_zero (S := S256x32) hz1]

set_option maxHeartbeats 1000000 in
/-- At the last point: the accumulator, holding `s`, is set to the body's sum over `s`, and the output buffer, holding
    anything, to the same. -/
theorem run_last1 (c : Dev nD) (E : Set ℕ) (i : grid1.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : ¬ first1 i) (h2 : last1 i)
    (x : Vec F S8192x32 .f32) (ids : Vec F S1x8192 .i32) (s : Vec F S256x32 .f32) (K : PUnit → sProp 𝕄) :
    iprop(owns (c : Thread nD τ) arg1 fullShare x ∗ owns (c : Thread nD τ) arg2 fullShare ids ∗ (∃ d, owns (c : Thread nD τ) arg3 fullShare d)
        ∗ owns (c : Thread nD τ) arg4 fullShare s
        ∗ (iprop(owns (c : Thread nD τ) arg1 fullShare x ∗ owns (c : Thread nD τ) arg2 fullShare ids
            ∗ owns (c : Thread nD τ) arg3 fullShare (k1_pay2 ids x s) ∗ owns (c : Thread nD τ) arg4 fullShare (k1_pay2 ids x s)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [read_last1]
    simp only [View.readAt_eq_ld, View.ld_unit_zero (S := S1x8192) hz1, View.ld_unit_zero (S := S8192x32) hz1,
      View.ld_unit_zero (S := S256x32) hz1, View.readCov_unit_zero (S := S256x32) _ hz1]
  iexists _; isplitr
  swap; · iexact H4
  ipureintro
  sl_unfold_words
  rw [read_last1]
  simp only [View.readAt_eq_ld, View.ld_unit_zero (S := S1x8192) hz1, View.ld_unit_zero (S := S8192x32) hz1,
    View.ld_unit_zero (S := S256x32) hz1]

variable (V : (c : Dev nD) → (b : Ref sig .tc) → Buf (Elt F) ((c : Thread nD τ).loc b))

/-- The scratch operand: a whole scoped buffer of the kernel's own. -/
abbrev scM1 : Memref sig .tc .vmem S256x32 .f32 := Memref.whole cc1_scratch0

/-- The region invariant before position `n`: before the first point the class's (every scoped buffer no window stages at
    anything, the generator register at some state); afterwards the same with the scratch at what point `n - 1` left. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ ∃ r, prngReg c r)

/-- The proof data of pipeline 0 on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-! ## The accumulator and the invariant, point by point -/

/-- At the first point the accumulator is the body's sum over zero; -/
theorem acc1_first (c : Dev nD) (t : Fin cfg1.N) (h : t.val = 0) :
    acc1 V c t.val t.isLt = k1_pay2 (ids1 V c t) (feat1 V c t) (k1_pay1 (F := F)) := by
  obtain ⟨n, hn⟩ := t
  cases n with
  | zero => rfl
  | succ n => exact absurd h (Nat.succ_ne_zero n)

/-- at a later point, the body's sum over the accumulator of the point before. -/
theorem acc1_later (c : Dev nD) (t : Fin cfg1.N) (h : t.val ≠ 0) :
    acc1 V c t.val t.isLt
      = k1_pay2 (ids1 V c t) (feat1 V c t) (acc1 V c (t.val - 1) (Nat.lt_of_le_of_lt (Nat.sub_le _ _) t.isLt)) := by
  obtain ⟨n, hn⟩ := t
  cases n with
  | zero => exact absurd rfl h
  | succ n => rfl

/-- Before the first point the invariant is the class's, -/
theorem PhiS1_first (c : Dev nD) (n : ℕ) (h : n ≤ cfg1.N) (hz : n = 0) : PhiS1 V c n h = Pipeline.ΦA spec1 c := by
  subst hz; rfl

/-- before a later one, the scratch at the accumulator of the point before beside the unopened rest. -/
theorem PhiS1_later (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

theorem Phi1_castSucc (c : Dev nD) (t : Fin cfg1.N) :
    (dat1 V c).Φ t.castSucc = PhiS1 V c t.val (Nat.le_of_lt t.isLt) := rfl

theorem Phi1_succ (c : Dev nD) (t : Fin cfg1.N) :
    (dat1 V c).Φ t.succ = iprop(owns (c : Thread nD τ) scM1 fullShare (acc1 V c t.val t.isLt)
      ∗ Pipeline.scopedRestBut (Ix := Unit) (Name := ℕ) (U := UR sig nD τ) (Lvl := ℕ) (Val := Elt F) spec1 c [cc1_scratch0]
      ∗ ∃ r, prngReg c r) := rfl

/-- The class's invariant with the scratch taken out of the scoped rest, as a memref owned at some contents. -/
theorem PhiA1_split (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
        ∗ ∃ r, prngReg c r) := by
  unfold Pipeline.ΦA
  rw [Pipeline.scopedRest_split_of_list spec1 c [cc1_scratch0] (by decide) (by decide)]
  simp only [bigSepL_singleton, scM1, owns_whole]
  try rfl

/-! ## What the windows' buffers hold around the body -/

/-- An input's buffer holds its block at every point, fetched there or not. -/
theorem before1_0 (c : Dev nD) (t : Fin cfg1.N) (d) : (dat1 V c).before 0 t d = iblk1 V c 0 t :=
  ((dat1 V c).before_in_eq_fetched 0 rfl live1_0 (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl live1_1 (fun _ _ _ => rfl)
    (fun t => by rw [after1_1]; unfold Dat.blockOf iblk1; rw [A_eq1]; try rfl) t d).trans
    (by unfold Dat.fetched Dat.blockOf iblk1; rw [A_eq1]; try rfl)

/-- The body leaves each input's buffer at its block; -/
theorem leaves1_0 (c : Dev nD) (t : Fin cfg1.N) :
    (dat1 V c).leavesExact 0 t = owns (c : Thread nD τ) (st1_0 t) fullShare (iblk1 V c 0 t) := by
  unfold Dat.leavesExact; rw [live1_0, after1_0]
theorem leaves1_1 (c : Dev nD) (t : Fin cfg1.N) :
    (dat1 V c).leavesExact 1 t = owns (c : Thread nD τ) (st1_1 t) fullShare (iblk1 V c 1 t) := by
  unfold Dat.leavesExact; rw [live1_1, after1_1]
/-- the output's, at the last point, at the accumulator. -/
theorem leaves1_2 (c : Dev nD) (t : Fin cfg1.N) (h : t.val = 195) :
    (dat1 V c).leavesExact 2 t = owns (c : Thread nD τ) (st1_2 t) fullShare (acc1 V c t.val t.isLt) := by
  unfold Dat.leavesExact; rw [live1_2 t h, after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point. The inputs' buffers hold their blocks. At the last point the scratch holds the accumulator of
    the point before, and the body leaves the scratch and the output's buffer at this point's; at an earlier point the
    output's buffer is handed back as found, and the scratch — holding anything at the first point, the accumulator of
    the point before at the others — is left at this point's accumulator. The rest of the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    Phi1_succ, Phi1_castSucc, leaves1_0, leaves1_1]
  by_cases hl : t.val = 195
  · have hf : t.val ≠ 0 := by omega
    rw [leaves1_2 V c t hl, PhiS1_later V c _ _ hf, acc1_later V c t hf]
    iintro ⟨⟨HS, HR, Hg⟩, Ho, ⟨%d0, H0⟩, ⟨%d1, H1⟩, ⟨%d2, H2⟩⟩
    iapply (run_last1 c Set.univ (grid1.coords t) _ _ _ _ _ _ _ _ (fun h => hf ((first1_iff t).mp h)) ((last1_iff t).mpr hl)
      (feat1 V c t) (ids1 V c t) (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [Dat.leavesExact_idle (dat1 V c) 2 t (idle1_2 t hl) (noflush1_2 t hl)]
    by_cases hf : t.val = 0
    · rw [PhiS1_first V c _ _ hf, PhiA1_split, acc1_first V c t hf]
      iintro ⟨⟨⟨HS, HR⟩, Hg⟩, Ho, ⟨%d0, H0⟩, ⟨%d1, H1⟩, H2⟩
      iapply (run_first1 c Set.univ (grid1.coords t) _ _ _ _ _ _ _ _ ((first1_iff t).mpr hf) (fun h => hl ((last1_iff t).mp h))
        (feat1 V c t) (ids1 V c t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS1_later V c _ _ hf, acc1_later V c t hf]
      iintro ⟨⟨HS, HR, Hg⟩, Ho, ⟨%d0, H0⟩, ⟨%d1, H1⟩, H2⟩
      iapply (run_mid1 c Set.univ (grid1.coords t) _ _ _ _ _ _ _ _ (fun h => hf ((first1_iff t).mp h)) (fun h => hl ((last1_iff t).mp h))
        (feat1 V c t) (ids1 V c t) (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_first V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_later V c _ _ (by rw [show cfg1.N = 196 from N_1]; decide), PhiA1_split]
  iintro ⟨HS, HR, Hg⟩
  isplitl [HS HR]
  · isplitl [HS]; · iexists _; iexact HS
    iexact HR
  iexact Hg

end Cert.Kernel.H

end
-- ==== Proof.K.R2.lean ====
/-
  Region 2: one grid point; the body reads the two segment sums, the globals, the three 32-row bands of the
  weights and the bias, and stores `out2` of them into the output block, which is the whole result array.
-/
import proofs.«414828_j70153995813297_1_alg».proof.Proof.K.Blocks
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three 32-row bands of the 96-row weight block, and the whole blocks of the other operands. -/
abbrev rW0 : Rect S96x32 := Rect.unit (s := S96x32) ![0, 0] S32x32.size inb_S96x32_S32x32_0_0
abbrev rW1 : Rect S96x32 := Rect.unit (s := S96x32) ![32, 0] S32x32.size inb_S96x32_S32x32_32_0
abbrev rW2 : Rect S96x32 := Rect.unit (s := S96x32) ![64, 0] S32x32.size inb_S96x32_S32x32_64_0

/-- What the body stores into the output block, from the five operand blocks. -/
def out2 (node edge glob : Vec F S256x32 .f32) (w : Vec F S96x32 .f32) (b : Vec F S1x32 .f32) : Vec F S256x32 .f32 :=
  k2_pay1 (View.ld w rW0) (View.ld w rW1) (View.ld w rW2) node edge glob b

/-- The proof data of pipeline 2 on core `c`, at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (node2 V c t) (edge2 V c t) (glob2 V c t) (wts2 V c t) (bias2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_5 (c : Dev nD) (t : Fin cfg2.N) :
    (dat2 V c).after 5 t = out2 (node2 V c t) (edge2 V c t) (glob2 V c t) (wts2 V c t) (bias2 V c t) := by dsimp only [dat2]

/-! ## What the body leaves in each input window: its block -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-! ## What the body finds in each input window: its block, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body's accesses to whole buffers -/

abbrev rN : Rect S256x32 := Rect.unit (s := S256x32) ![0, 0] S256x32.size inb_S256x32_S256x32_0_0
abbrev rB : Rect S1x32 := Rect.unit (s := S1x32) ![0, 0] S1x32.size inb_S1x32_S1x32_0_0

/-- A load through the whole-buffer rectangle reads the contents. -/
theorem ld_rN (X : Vec F S256x32 .f32) : View.ld X rN = X :=
  View.ld_unit_zero (by funext a; fin_cases a <;> rfl) _ X
theorem ld_rB (X : Vec F S1x32 .f32) : View.ld X rB = X :=
  View.ld_unit_zero (by funext a; fin_cases a <;> rfl) _ X

/-- The one store through the whole-buffer rectangle covers the buffer. -/
theorem cover2_5 (p0 : Vec F S256x32 .f32) (y : S256x32.Idx) :
    ∃ pc ∈ ([⟨rN, p0⟩] : List (View.Piece (Elt F) S256x32 .f32)), y ∈ pc.1.set :=
  View.cover_of_tiled [⟨rN, p0⟩] S256x32.size (by rfl) y

/-- What the one whole-buffer store of the payload of the loads leaves is `out2`. -/
theorem canon2_5 (node edge glob : Vec F S256x32 .f32) (w : Vec F S96x32 .f32) (b : Vec F S1x32 .f32) :
    View.canon [(⟨rN, k2_pay1 (View.ld w rW0) (View.ld w rW1) (View.ld w rW2) (View.ld node rN) (View.ld edge rN) (View.ld glob rN) (View.ld b rB)⟩ :
      View.Piece (Elt F) S256x32 .f32)] = out2 node edge glob w b := by
  rw [View.canon_unit_zero (by funext a; fin_cases a <;> rfl), ld_rN, ld_rN, ld_rN, ld_rB]; rfl

/-! ## The body's triple -/

set_option maxHeartbeats 1000000 in
/-- The body on whole staging memrefs, the five operands' at read contents and the output's at anything, runs to the
    continuation holding the operands' as they were and the output's at `out2` of them: the value loaded from the
    output is not used, and the one store covers the output. -/
theorem sound_kernel2 (c : Dev nD) (E : Set ℕ) (i : grid2.Coords)
    (arg1 : Memref sig .tc .vmem S256x32 .f32) (harg1 : arg1.IsWhole) (arg2 : Memref sig .tc .vmem S256x32 .f32) (harg2 : arg2.IsWhole)
    (arg3 : Memref sig .tc .vmem S256x32 .f32) (harg3 : arg3.IsWhole) (arg4 : Memref sig .tc .vmem S96x32 .f32) (harg4 : arg4.IsWhole)
    (arg5 : Memref sig .tc .vmem S1x32 .f32) (harg5 : arg5.IsWhole) (arg6 : Memref sig .tc .vmem S256x32 .f32) (harg6 : arg6.IsWhole)
    (node edge glob : Vec F S256x32 .f32) (w : Vec F S96x32 .f32) (b : Vec F S1x32 .f32) (K : PUnit → sProp 𝕄) :
    iprop(owns (c : Thread nD τ) arg1 fullShare node ∗ owns (c : Thread nD τ) arg2 fullShare edge
        ∗ owns (c : Thread nD τ) arg3 fullShare glob ∗ owns (c : Thread nD τ) arg4 fullShare w
        ∗ owns (c : Thread nD τ) arg5 fullShare b ∗ (∃ d, owns (c : Thread nD τ) arg6 fullShare d)
        ∗ (iprop(owns (c : Thread nD τ) arg1 fullShare node ∗ owns (c : Thread nD τ) arg2 fullShare edge
            ∗ owns (c : Thread nD τ) arg3 fullShare glob ∗ owns (c : Thread nD τ) arg4 fullShare w
            ∗ owns (c : Thread nD τ) arg5 fullShare b ∗ owns (c : Thread nD τ) arg6 fullShare (out2 node edge glob w b)) -∗ K ⟨⟩))
      ⊢ wp frame (wpE (defs₀ (F := F)) Variants.none c none) E
          (cc2_kernel i arg1 harg1 arg2 harg2 arg3 harg3 arg4 harg4 arg5 harg5 arg6 harg6) K := by
  simp only [cc2_kernel_eq_skeleton]; unfold cc2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover2_5 _)).trans
    (canon2_5 (View.read (Elt F) arg1.view f1) (View.read (Elt F) arg2.view f2) (View.read (Elt F) arg3.view f3)
      (View.read (Elt F) arg4.view f4) (View.read (Elt F) arg5.view f5))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at the point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at the one point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Fold.lean ====
/-
  What the TensorCore's unscoped buffers hold between the items of the kernel program's @main, from the launch
  memory `m`: a stretch of host operations applies them (`StableHlo.after`); a kernel region leaves its operands'
  arrays at what its pipeline's write-backs leave (the inputs as entered, the output at the last write-back) and
  every other buffer as entered. `V7`, `V13`, `V15` are the contents the three regions are entered with.
-/
import proofs.«414828_j70153995813297_1_alg».proof.Proof.K.R0
import proofs.«414828_j70153995813297_1_alg».proof.Proof.K.R1
import proofs.«414828_j70153995813297_1_alg».proof.Proof.K.R2

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the slice and reshape of the edge list's first row. -/
abbrev W1 : Dev nD → Valuation τ sig (Elt F) := fun c => StableHlo.after hostOps0 (W0 m c)
/-- After the take of `batch` at the source nodes. -/
abbrev W2 : Dev nD → Valuation τ sig (Elt F) := fun c => StableHlo.after hostOps0_1 (W1 m c)
abbrev W3 : Dev nD → Valuation τ sig (Elt F) := fun c => StableHlo.after hostOps0_2 (W2 m c)
/-- After the zero padding of `x`. -/
abbrev W4 : Dev nD → Valuation τ sig (Elt F) := fun c => StableHlo.after hostOps0_3 (W3 m c)
abbrev W5 : Dev nD → Valuation τ sig (Elt F) := fun c => StableHlo.after hostOps0_4 (W4 m c)
/-- After the padding of `batch` with -1. -/
abbrev W6 : Dev nD → Valuation τ sig (Elt F) := fun c => StableHlo.after hostOps0_5 (W5 m c)
/-- After its reshape to one row: region 0's entry. -/
abbrev W7 : Dev nD → Valuation τ sig (Elt F) := fun c => StableHlo.after hostOps0_6 (W6 m c)
abbrev V7 : (c : Dev nD) → (b : Ref sig .tc) → Buf (Elt F) ((c : Thread nD τ).loc b) := atTc (W7 m)

/-- At region 0's exit. -/
def W8 (c : Dev nD) : Valuation τ sig (Elt F) :=
  Pipeline.withArrays spec0 c (W7 m c) fun w => (dat0 (V7 m) c).arrAt w cfg0.N
theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
abbrev V8 : (c : Dev nD) → (b : Ref sig .tc) → Buf (Elt F) ((c : Thread nD τ).loc b) := atTc (W8 m)
theorem hF0 (c : Dev nD) (w : Fin cfg0.W) : (dat0 (V7 m) c).arrAt w cfg0.N = V8 m c (Pipeline.arrRef spec0 w) :=
  (W8_arr m c w).symm
theorem hrest0 (c : Dev nD) : ∀ b, b ∉ Finset.univ.image (Pipeline.arrRef spec0) → V8 m c b = V7 m c b :=
  fun b hb => W8_of_ne m c b fun w e => hb (Finset.mem_image.mpr ⟨w, Finset.mem_univ _, e⟩)

abbrev W9 : Dev nD → Valuation τ sig (Elt F) := fun c => StableHlo.after hostOps1 (W8 m c)
/-- After the zero padding of `edge_attr`. -/
abbrev W10 : Dev nD → Valuation τ sig (Elt F) := fun c => StableHlo.after hostOps1_1 (W9 m c)
abbrev W11 : Dev nD → Valuation τ sig (Elt F) := fun c => StableHlo.after hostOps1_2 (W10 m c)
/-- After the padding of the source nodes' graph ids with -1. -/
abbrev W12 : Dev nD → Valuation τ sig (Elt F) := fun c => StableHlo.after hostOps1_3 (W11 m c)
/-- After its reshape to one row: region 1's entry. -/
abbrev W13 : Dev nD → Valuation τ sig (Elt F) := fun c => StableHlo.after hostOps1_4 (W12 m c)
abbrev V13 : (c : Dev nD) → (b : Ref sig .tc) → Buf (Elt F) ((c : Thread nD τ).loc b) := atTc (W13 m)

/-- At region 1's exit. -/
def W14 (c : Dev nD) : Valuation τ sig (Elt F) :=
  Pipeline.withArrays spec1 c (W13 m c) fun w => (dat1 (V13 m) c).arrAt w cfg1.N
theorem W14_arr (c : Dev nD) (w : Fin cfg1.W) :
    W14 m c (Proc.devRef .tc (Pipeline.arrRef spec1 w)) = (dat1 (V13 m) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m c (Proc.devRef .tc b) = W13 m c (Proc.devRef .tc b) := by
  unfold W14; exact Pipeline.withArrays_of_ne spec1 c _ _ b hb
abbrev V14 : (c : Dev nD) → (b : Ref sig .tc) → Buf (Elt F) ((c : Thread nD τ).loc b) := atTc (W14 m)
theorem hF1 (c : Dev nD) (w : Fin cfg1.W) : (dat1 (V13 m) c).arrAt w cfg1.N = V14 m c (Pipeline.arrRef spec1 w) :=
  (W14_arr m c w).symm
theorem hrest1 (c : Dev nD) : ∀ b, b ∉ Finset.univ.image (Pipeline.arrRef spec1) → V14 m c b = V13 m c b :=
  fun b hb => W14_of_ne m c b fun w e => hb (Finset.mem_image.mpr ⟨w, Finset.mem_univ _, e⟩)

/-- After the reshape of the bias to one row: region 2's entry. -/
abbrev W15 : Dev nD → Valuation τ sig (Elt F) := fun c => StableHlo.after hostOps2 (W14 m c)
abbrev V15 : (c : Dev nD) → (b : Ref sig .tc) → Buf (Elt F) ((c : Thread nD τ).loc b) := atTc (W15 m)

/-- At region 2's exit: the end of @main. -/
def W16 (c : Dev nD) : Valuation τ sig (Elt F) :=
  Pipeline.withArrays spec2 c (W15 m c) fun w => (dat2 (V15 m) c).arrAt w cfg2.N
theorem W16_arr (c : Dev nD) (w : Fin cfg2.W) :
    W16 m c (Proc.devRef .tc (Pipeline.arrRef spec2 w)) = (dat2 (V15 m) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m c (Proc.devRef .tc b) = W15 m c (Proc.devRef .tc b) := by
  unfold W16; exact Pipeline.withArrays_of_ne spec2 c _ _ b hb
abbrev V16 : (c : Dev nD) → (b : Ref sig .tc) → Buf (Elt F) ((c : Thread nD τ).loc b) := atTc (W16 m)
theorem hF2 (c : Dev nD) (w : Fin cfg2.W) : (dat2 (V15 m) c).arrAt w cfg2.N = V16 m c (Pipeline.arrRef spec2 w) :=
  (W16_arr m c w).symm
theorem hrest2 (c : Dev nD) : ∀ b, b ∉ Finset.univ.image (Pipeline.arrRef spec2) → V16 m c b = V15 m c b :=
  fun b hb => W16_of_ne m c b fun w e => hb (Finset.mem_image.mpr ⟨w, Finset.mem_univ _, e⟩)

end Cert.Kernel.H

end
-- ==== Proof.K.Launch.lean ====
/-
  The launch of the kernel program. Its main function is sixteen items run one after another on each core:
  thirteen stretches of host operations and three kernel regions. Between two items a core holds every
  unscoped buffer whole at the contents the fold names (`W0 … W16`), its generator register at some state, and
  owes nothing. A stretch of host operations moves the buffers from one boundary's contents to the next by applying
  its operations; a region takes its operands' arrays out of the unscoped buffers, runs its pipeline from its
  invariant's first point to its last, and puts the arrays back at what the write-backs left. The several-regions
  launch theorem composes the sixteen: every weakly fair execution from the launch memory terminates, and the
  final memory holds every unscoped buffer at `W16`. Read at the seven argument arrays, `W16` is the launch
  memory: no host operation writes an argument, and a region either does not touch it or reads it through an
  input window, which its write-backs leave as entered.
-/
import proofs.«414828_j70153995813297_1_alg».proof.Proof.K.Fold
import proofs.«414828_j70153995813297_1_alg».proof.Proof.Gen.Kernel.Regions

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer an item does not write is carried through it

A stretch of host operations changes only the buffers its operations write; a region changes only its operands'
arrays. The three lemmas walk a reference that none of them writes back from a region's entry to the previous
region's exit (or to the launch). -/

/-- From region 0's entry back to the launch, through the seven stretches before it. -/
theorem W7_back (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 m c (Proc.devRef .tc r) = m ((c : Thread nD τ).loc r) :=
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- From region 1's entry back to region 0's exit, through the five stretches between them. -/
theorem W13_back (c : Dev nD) (r : Ref sig .tc) (h0 : r ∉ hostOps1_W) (h1 : r ∉ hostOps1_1_W) (h2 : r ∉ hostOps1_2_W)
    (h3 : r ∉ hostOps1_3_W) (h4 : r ∉ hostOps1_4_W) :
    W13 m c (Proc.devRef .tc r) = W8 m c (Proc.devRef .tc r) :=
  (StableHlo.after_of_writes_sub hostOps1_4 _ hostOps1_4_writes h4).trans <|
  (StableHlo.after_of_writes_sub hostOps1_3 _ hostOps1_3_writes h3).trans <|
  (StableHlo.after_of_writes_sub hostOps1_2 _ hostOps1_2_writes h2).trans <|
  (StableHlo.after_of_writes_sub hostOps1_1 _ hostOps1_1_writes h1).trans <|
  (StableHlo.after_of_writes_sub hostOps1 _ hostOps1_writes h0)

/-- From region 2's entry back to the launch, for a reference that no stretch writes and that is no operand of
    region 0 or region 1. -/
theorem W15_back (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (hr0 : ∀ w, Pipeline.arrRef spec0 w ≠ r)
    (h8 : r ∉ hostOps1_W) (h9 : r ∉ hostOps1_1_W) (h10 : r ∉ hostOps1_2_W) (h11 : r ∉ hostOps1_3_W) (h12 : r ∉ hostOps1_4_W)
    (hr1 : ∀ w, Pipeline.arrRef spec1 w ≠ r) (h14 : r ∉ hostOps2_W) :
    W15 m c (Proc.devRef .tc r) = m ((c : Thread nD τ).loc r) :=
  (StableHlo.after_of_writes_sub hostOps2 _ hostOps2_writes h14).trans <|
  (W14_of_ne m c r hr1).trans <|
  (W13_back m c r h8 h9 h10 h11 h12).trans <|
  (W8_of_ne m c r hr0).trans <|
  W7_back m c r h0 h1 h2 h3 h4 h5 h6

/-! ## The arguments end as launched -/

/-- An argument no region has as an operand: region 2 leaves it as entered, and the walk back reaches the launch. -/
theorem W16_main_arg0 (c : Dev nD) : W16 m c (Proc.devRef .tc main_arg0) = m ((c : Thread nD τ).loc main_arg0) :=
  (W16_of_ne m c main_arg0 (by decide)).trans
    (W15_back m c main_arg0 (by decide) (by decide) (by decide) (by decide) (by decide) (by decide) (by decide) (by decide)
      (by decide) (by decide) (by decide) (by decide) (by decide) (by decide) (by decide))
theorem W16_main_arg1 (c : Dev nD) : W16 m c (Proc.devRef .tc main_arg1) = m ((c : Thread nD τ).loc main_arg1) :=
  (W16_of_ne m c main_arg1 (by decide)).trans
    (W15_back m c main_arg1 (by decide) (by decide) (by decide) (by decide) (by decide) (by decide) (by decide) (by decide)
      (by decide) (by decide) (by decide) (by decide) (by decide) (by decide) (by decide))
theorem W16_main_arg2 (c : Dev nD) : W16 m c (Proc.devRef .tc main_arg2) = m ((c : Thread nD τ).loc main_arg2) :=
  (W16_of_ne m c main_arg2 (by decide)).trans
    (W15_back m c main_arg2 (by decide) (by decide) (by decide) (by decide) (by decide) (by decide) (by decide) (by decide)
      (by decide) (by decide) (by decide) (by decide) (by decide) (by decide) (by decide))
/-- The globals are region 2's third input: its array after the write-backs is the array as entered. -/
theorem W16_main_arg3 (c : Dev nD) : W16 m c (Proc.devRef .tc main_arg3) = m ((c : Thread nD τ).loc main_arg3) :=
  ((W16_arr m c 2).trans (((dat2 (V15 m) c).arrAt_in 2 rfl _).trans (A_eq2 (V15 m) c 2))).trans
    (W15_back m c main_arg3 (by decide) (by decide) (by decide) (by decide) (by decide) (by decide) (by decide) (by decide)
      (by decide) (by decide) (by decide) (by decide) (by decide) (by decide) (by decide))
theorem W16_main_arg4 (c : Dev nD) : W16 m c (Proc.devRef .tc main_arg4) = m ((c : Thread nD τ).loc main_arg4) :=
  (W16_of_ne m c main_arg4 (by decide)).trans
    (W15_back m c main_arg4 (by decide) (by decide) (by decide) (by decide) (by decide) (by decide) (by decide) (by decide)
      (by decide) (by decide) (by decide) (by decide) (by decide) (by decide) (by decide))
/-- The weights are region 2's fourth input. -/
theorem W16_main_arg5 (c : Dev nD) : W16 m c (Proc.devRef .tc main_arg5) = m ((c : Thread nD τ).loc main_arg5) :=
  ((W16_arr m c 3).trans (((dat2 (V15 m) c).arrAt_in 3 rfl _).trans (A_eq2 (V15 m) c 3))).trans
    (W15_back m c main_arg5 (by decide) (by decide) (by decide) (by decide) (by decide) (by decide) (by decide) (by decide)
      (by decide) (by decide) (by decide) (by decide) (by decide) (by decide) (by decide))
/-- The bias is read by the last stretch (its reshape to one row) and written by none. -/
theorem W16_main_arg6 (c : Dev nD) : W16 m c (Proc.devRef .tc main_arg6) = m ((c : Thread nD τ).loc main_arg6) :=
  (W16_of_ne m c main_arg6 (by decide)).trans
    (W15_back m c main_arg6 (by decide) (by decide) (by decide) (by decide) (by decide) (by decide) (by decide) (by decide)
      (by decide) (by decide) (by decide) (by decide) (by decide) (by decide) (by decide))

/-! ## The proof data of the three pipelines and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V7 m) c
  | ⟨1, _⟩ => fun c => dat1 (V13 m) c
  | ⟨2, _⟩ => fun c => dat2 (V15 m) c

/-- No core owes another anything: no level is assigned. -/
abbrev L : GSem nD τ sig → Finset Unit := fun _ => ∅
abbrev lv : GSem nD τ sig → Unit → ℕ := fun _ _ => 0

/-- Every unscoped buffer of core `c`, whole, at the valuation `W c`. -/
abbrev bufsAt (W : Dev nD → Valuation τ sig (Elt F)) (c : Dev nD) : sProp 𝕄 :=
  StableHlo.held (c : Thread nD τ) (Pipeline.ucRefs τ sig) (W c)
/-- The core's generator register at some state. -/
abbrev prng (c : Dev nD) : sProp 𝕄 := iprop(∃ r, prngReg c r)
/-- The core owes nothing. -/
abbrev owesNothing (c : Dev nD) : sProp 𝕄 := iprop(∃ W, owes (c : Thread nD τ) (0 : CellTallies nD τ sig Unit) W)
/-- What rides beside the buffers through every item: the generator register (a region's invariant takes it in and
    gives it back) and the core owing nothing. -/
abbrev R (c : Dev nD) : sProp 𝕄 := iprop(prng c ∗ owesNothing c)

/-- A stretch of host operations as a segment: over the unscoped references, from the contents `W` to the contents
    after the operations, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at `W16`, the generator register. -/
abbrev Tₙ (c : Dev nD) : sProp 𝕄 := iprop(bufsAt (W16 m) c ∗ prng c)

/-! ## What a region's four entailments are made of -/

/-- Owing nothing is holding the proof data's tallies at a point where they are zero and no recorded pair is
    excluded. -/
theorem owesAt_of_nothing {cfg : Cfg sig Λ₀} {c : Dev nD} (dat : Dat τ (Elt F) Unit ℕ (UR sig nD τ) ℕ cfg c) (t : Fin (cfg.N + 1))
    (ho : dat.owed t = 0) (hr : dat.recorded t = Set.univ) : (owesNothing c : sProp 𝕄) ⊢ dat.owesAt () t := by
  unfold Pipeline.Dat.owesAt Pipeline.owesWithin
  rw [ho]
  iintro ⟨%W, HO⟩
  iexists W
  isplitr
  · ipureintro
    intro x _
    exact Or.inl (hr ▸ Set.mem_univ x)
  iexact HO

/-- And back: the tallies at a point where they are zero, whatever was recorded, are the core owing nothing. -/
theorem nothing_of_owesAt {cfg : Cfg sig Λ₀} {c : Dev nD} (dat : Dat τ (Elt F) Unit ℕ (UR sig nD τ) ℕ cfg c) (t : Fin (cfg.N + 1))
    (ho : dat.owed t = 0) : dat.owesAt () t ⊢ (owesNothing c : sProp 𝕄) := by
  unfold Pipeline.Dat.owesAt Pipeline.owesWithin
  rw [ho]
  iintro ⟨%W, -, HO⟩
  iexists W
  iexact HO

/-- A kernel with no prefetched table holds its tables for nothing. -/
theorem prefHeld_of_none (pre : Pipeline.Prefetch sig) (h : pre.K = 0) (c : Dev nD) (q : Fin pre.K → PosShare TreeShare)
    (v : pre.Contents (Elt F)) : (BI.emp : sProp 𝕄) ⊢ Pipeline.prefHeld pre c q v := by
  haveI : IsEmpty (Fin pre.K) := by rw [h]; infer_instance
  unfold Pipeline.prefHeld
  rw [Finset.univ_eq_empty, BI.bigSep_empty]

/-- The class's invariant is the scoped buffers no window stages beside the generator register: assembled from the
    register, anything at all (dropped), and those buffers. -/
theorem classInv_in {gr W : ℕ} (win : Fin W → Pipeline.WinSpec sig gr) (c : Dev nD) (T : sProp 𝕄) :
    iprop(prng c ∗ T ∗ Pipeline.scopedRest win c) ⊢ (Pipeline.ΦA win c : sProp 𝕄) := by
  unfold Pipeline.ΦA
  iintro ⟨Hprng, -, Hsc⟩
  isplitl [Hsc]; · iexact Hsc
  iexact Hprng

/-- And taken apart again. -/
theorem classInv_out {gr W : ℕ} (win : Fin W → Pipeline.WinSpec sig gr) (c : Dev nD) :
    (Pipeline.ΦA win c : sProp 𝕄) ⊢ iprop(prng c ∗ BI.emp ∗ Pipeline.scopedRest win c) := by
  unfold Pipeline.ΦA
  iintro ⟨Hsc, Hprng⟩
  isplitl [Hprng]; · iexact Hprng
  isplitr; · iempintro
  iexact Hsc

set_option backward.isDefEq.respectTransparency.types false in
/-- Region 0's entry: every unscoped buffer at `W7` is its operands' arrays as entered beside the other buffers. -/
theorem enter0 (c : Dev nD) :
    (bufsAt (W7 m) c : sProp 𝕄)
      ⊢ iprop((pdats m 0 c).arrays ((pdats m 0 c).arrAt · 0)
          ∗ Pipeline.unscopedRest (Ix := Unit) (Name := ℕ) (U := UR sig nD τ) (Lvl := ℕ) spec0 c (V7 m c)) := by
  have h := Pipeline.arrays_of_unscopedBufs (p := 0) (pcfgs (F := F)) adm (pdats m) launch0.win launch0.arr_whole c
    ((pdats m 0 c).share_full fun _ => rfl) (V7 m c) fun _ => rfl
  rw [Pipeline.unscopedBufs_held] at h
  exact h

set_option backward.isDefEq.respectTransparency.types false in
/-- Region 0's exit: its operands' arrays at what the write-backs left, beside the other buffers as entered, are
    every unscoped buffer at `W8`. -/
theorem leave0 (c : Dev nD) :
    iprop((pdats m 0 c).arrays ((pdats m 0 c).arrAt · cfg0.N)
        ∗ Pipeline.unscopedRest (Ix := Unit) (Name := ℕ) (U := UR sig nD τ) (Lvl := ℕ) spec0 c (V7 m c))
      ⊢ (bufsAt (W8 m) c : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (V7 m c) (V8 m c) ((pdats m 0 c).arrAt · cfg0.N) (hF0 m c) (hrest0 m c)
  rw [Pipeline.unscopedBufs_held] at h
  exact h

set_option backward.isDefEq.respectTransparency.types false in
/-- Region 1's entry: every unscoped buffer at `W13` is its operands' arrays as entered beside the other buffers. -/
theorem enter1 (c : Dev nD) :
    (bufsAt (W13 m) c : sProp 𝕄)
      ⊢ iprop((pdats m 1 c).arrays ((pdats m 1 c).arrAt · 0)
          ∗ Pipeline.unscopedRest (Ix := Unit) (Name := ℕ) (U := UR sig nD τ) (Lvl := ℕ) spec1 c (V13 m c)) := by
  have h := Pipeline.arrays_of_unscopedBufs (p := 1) (pcfgs (F := F)) adm (pdats m) launch1.win launch1.arr_whole c
    ((pdats m 1 c).share_full fun _ => rfl) (V13 m c) fun _ => rfl
  rw [Pipeline.unscopedBufs_held] at h
  exact h

set_option backward.isDefEq.respectTransparency.types false in
/-- Region 1's exit: its operands' arrays at what the write-backs left, beside the other buffers as entered, are
    every unscoped buffer at `W14`. -/
theorem leave1 (c : Dev nD) :
    iprop((pdats m 1 c).arrays ((pdats m 1 c).arrAt · cfg1.N)
        ∗ Pipeline.unscopedRest (Ix := Unit) (Name := ℕ) (U := UR sig nD τ) (Lvl := ℕ) spec1 c (V13 m c))
      ⊢ (bufsAt (W14 m) c : sProp 𝕄) := by
  have h := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V13 m c) (V14 m c) ((pdats m 1 c).arrAt · cfg1.N) (hF1 m c) (hrest1 m c)
  rw [Pipeline.unscopedBufs_held] at h
  exact h

set_option backward.isDefEq.respectTransparency.types false in
/-- Region 2's entry: every unscoped buffer at `W15` is its operands' arrays as entered beside the other buffers. -/
theorem enter2 (c : Dev nD) :
    (bufsAt (W15 m) c : sProp 𝕄)
      ⊢ iprop((pdats m 2 c).arrays ((pdats m 2 c).arrAt · 0)
          ∗ Pipeline.unscopedRest (Ix := Unit) (Name := ℕ) (U := UR sig nD τ) (Lvl := ℕ) spec2 c (V15 m c)) := by
  have h := Pipeline.arrays_of_unscopedBufs (p := 2) (pcfgs (F := F)) adm (pdats m) launch2.win launch2.arr_whole c
    ((pdats m 2 c).share_full fun _ => rfl) (V15 m c) fun _ => rfl
  rw [Pipeline.unscopedBufs_held] at h
  exact h

set_option backward.isDefEq.respectTransparency.types false in
/-- Region 2's exit: its operands' arrays at what the write-backs left, beside the other buffers as entered, are
    every unscoped buffer at `W16`. -/
theorem leave2 (c : Dev nD) :
    iprop((pdats m 2 c).arrays ((pdats m 2 c).arrAt · cfg2.N)
        ∗ Pipeline.unscopedRest (Ix := Unit) (Name := ℕ) (U := UR sig nD τ) (Lvl := ℕ) spec2 c (V15 m c))
      ⊢ (bufsAt (W16 m) c : sProp 𝕄) := by
  have h := Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (V15 m c) (V16 m c) ((pdats m 2 c).arrAt · cfg2.N) (hF2 m c) (hrest2 m c)
  rw [Pipeline.unscopedBufs_held] at h
  exact h

/-! ## The regions as segments -/

set_option backward.isDefEq.respectTransparency.types false in
/-- Region 0 as a segment: entered from every unscoped buffer at `W7`, left at `W8`. The operands' arrays go
    through the pipeline, the other buffers around it; the generator register goes into the invariant and comes back;
    nothing is owed before or after; the kernel has no semaphore of its own and no prefetched table.
    The invariant's first point is reached from the class's invariant and its last point gives the class's back
    (the scratch accumulator's named contents are the region's own business). -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (V7 m) c).loose
  hwaits := Pipeline.hwaits_of_owed_zero _ _ _ _ L lv 0 fun _ _ => rfl
  pre c := iprop(bufsAt (W7 m) c ∗ R c)
  post c := iprop(bufsAt (W8 m) c ∗ R c)
  X c := prng c
  Y c := prng c
  Z c := Pipeline.unscopedRest (Ix := Unit) (Name := ℕ) (U := UR sig nD τ) (Lvl := ℕ) spec0 c (V7 m c)
  hentry c := by
    iintro ⟨⟨Hbufs, Hprng, Howes⟩, -, -⟩
    imodintro
    ihave Hsplit := (enter0 m c) $$ Hbufs
    icases Hsplit with ⟨Harr, Hrest⟩
    isplitl [Harr]; · iexact Harr
    isplitr; · iapply (prefHeld_of_none _ rfl c _ _); iempintro
    isplitl [Howes]; · iapply (owesAt_of_nothing (pdats m 0 c) 0 rfl rfl); iexact Howes
    isplitl [Hprng]; · iexact Hprng
    iexact Hrest
  hin c := (classInv_in spec0 c _).trans (hin0 (V7 m) c)
  hout c := by
    rw [Pipeline.ownSems0_none]
    exact (hout0 (V7 m) c).trans (classInv_out spec0 c)
  hexit c := by
    iintro ⟨Harr, Howes, Hprng, Hrest⟩
    imodintro
    isplitl [Harr Hrest]
    · iapply (leave0 m c); isplitl [Harr]; · iexact Harr
      iexact Hrest
    isplitl [Hprng]; · iexact Hprng
    iapply (nothing_of_owesAt (pdats m 0 c) (Fin.last _) rfl); iexact Howes

set_option backward.isDefEq.respectTransparency.types false in
/-- Region 1 as a segment: entered from every unscoped buffer at `W13`, left at `W14`. The operands' arrays go
    through the pipeline, the other buffers around it; the generator register goes into the invariant and comes back;
    nothing is owed before or after; the kernel has no semaphore of its own and no prefetched table.
    The invariant's first point is reached from the class's invariant and its last point gives the class's back
    (the scratch accumulator's named contents are the region's own business). -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (V13 m) c).loose
  hwaits := Pipeline.hwaits_of_owed_zero _ _ _ _ L lv 1 fun _ _ => rfl
  pre c := iprop(bufsAt (W13 m) c ∗ R c)
  post c := iprop(bufsAt (W14 m) c ∗ R c)
  X c := prng c
  Y c := prng c
  Z c := Pipeline.unscopedRest (Ix := Unit) (Name := ℕ) (U := UR sig nD τ) (Lvl := ℕ) spec1 c (V13 m c)
  hentry c := by
    iintro ⟨⟨Hbufs, Hprng, Howes⟩, -, -⟩
    imodintro
    ihave Hsplit := (enter1 m c) $$ Hbufs
    icases Hsplit with ⟨Harr, Hrest⟩
    isplitl [Harr]; · iexact Harr
    isplitr; · iapply (prefHeld_of_none _ rfl c _ _); iempintro
    isplitl [Howes]; · iapply (owesAt_of_nothing (pdats m 1 c) 0 rfl rfl); iexact Howes
    isplitl [Hprng]; · iexact Hprng
    iexact Hrest
  hin c := (classInv_in spec1 c _).trans (hin1 (V13 m) c)
  hout c := by
    rw [Pipeline.ownSems0_none]
    exact (hout1 (V13 m) c).trans (classInv_out spec1 c)
  hexit c := by
    iintro ⟨Harr, Howes, Hprng, Hrest⟩
    imodintro
    isplitl [Harr Hrest]
    · iapply (leave1 m c); isplitl [Harr]; · iexact Harr
      iexact Hrest
    isplitl [Hprng]; · iexact Hprng
    iapply (nothing_of_owesAt (pdats m 1 c) (Fin.last _) rfl); iexact Howes

set_option backward.isDefEq.respectTransparency.types false in
/-- Region 2 as a segment: entered from every unscoped buffer at `W15`, left at `W16`. The operands' arrays go
    through the pipeline, the other buffers around it; the generator register goes into the invariant and comes back;
    nothing is owed before or after; the kernel has no semaphore of its own and no prefetched table.
    The invariant is the class's at its one point. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (V15 m) c).loose
  hwaits := Pipeline.hwaits_of_owed_zero _ _ _ _ L lv 2 fun _ _ => rfl
  pre c := iprop(bufsAt (W15 m) c ∗ R c)
  post c := iprop(Tₙ m c ∗ owesNothing c)
  X c := prng c
  Y c := prng c
  Z c := Pipeline.unscopedRest (Ix := Unit) (Name := ℕ) (U := UR sig nD τ) (Lvl := ℕ) spec2 c (V15 m c)
  hentry c := by
    iintro ⟨⟨Hbufs, Hprng, Howes⟩, -, -⟩
    imodintro
    ihave Hsplit := (enter2 m c) $$ Hbufs
    icases Hsplit with ⟨Harr, Hrest⟩
    isplitl [Harr]; · iexact Harr
    isplitr; · iapply (prefHeld_of_none _ rfl c _ _); iempintro
    isplitl [Howes]; · iapply (owesAt_of_nothing (pdats m 2 c) 0 rfl rfl); iexact Howes
    isplitl [Hprng]; · iexact Hprng
    iexact Hrest
  hin c := classInv_in spec2 c _
  hout c := by
    rw [Pipeline.ownSems0_none]
    exact classInv_out spec2 c
  hexit c := by
    iintro ⟨Harr, Howes, Hprng, Hrest⟩
    imodintro
    isplitr [Howes]
    · isplitl [Harr Hrest]
      · iapply (leave2 m c); isplitl [Harr]; · iexact Harr
        iexact Hrest
      iexact Hprng
    iapply (nothing_of_owesAt (pdats m 2 c) (Fin.last _) rfl); iexact Howes

/-! ## The main function as segments, and the launch -/

/-- The sixteen items in order: a host segment per stretch, from its boundary's contents; a region per kernel call. -/
abbrev segs : List (Pipeline.Seg (pcfgs (F := F)) adm (pdats m) () defs₀ Variants.none L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .host (hseg hostOps1_1 hostOps1_1_sub hostOps1_1_fresh (W9 m)),
    .host (hseg hostOps1_2 hostOps1_2_sub hostOps1_2_fresh (W10 m)),
    .host (hseg hostOps1_3 hostOps1_3_sub hostOps1_3_fresh (W11 m)),
    .host (hseg hostOps1_4 hostOps1_4_sub hostOps1_4_fresh (W12 m)),
    .region (reg1 m),
    .host (hseg hostOps2 hostOps2_sub hostOps2_fresh (W14 m)),
    .region (reg2 m) ]

/-- The main function is the run of the segments: it is the chain of its sixteen items, and the segments' run is
    the chain of their programs, which are those items. -/
theorem main_run (c : Dev nD) : main (F := F) c = Pipeline.Seg.run (segs m) := by
  rw [main_chain c, Pipeline.Seg.run_eq_chain]
  rfl

set_option backward.isDefEq.respectTransparency.types false in
/-- THE RUN. From any memory with zero counters, every weakly fair execution of the main function on the TensorCores
    terminates, nothing faulting, and the final memory holds every unscoped buffer at `W16`: the launch makes the
    first thread state on each core, the sixteen segments chain from it to the last, and the last is read against
    the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W16 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [BI.bigSep_emp_const]
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(bufsAt (W0 m) c ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = bufsAt (W0 m) c
        from Pipeline.unscopedBufs_held c (W0 m c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem ((c : Thread nD τ).1, b) = W16 m c b)
    (hfin := fun c s' => by
      iintro ⟨⟨Hbufs, -⟩, HSI⟩
      unfold bufsAt StableHlo.held
      imodintro
      iapply (pointsTo_read_all (Pipeline.ucRefs τ sig) (fun b => ((c : Thread nD τ).1, b)) (W16 m c) s')
      isplitl [Hbufs] <;> iassumption)
    (hQ := fun _ h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W16_main_arg0 m c),
      (h c _ (mem_uc main_arg1 (by decide))).trans (W16_main_arg1 m c),
      (h c _ (mem_uc main_arg2 (by decide))).trans (W16_main_arg2 m c),
      (h c _ (mem_uc main_arg3 (by decide))).trans (W16_main_arg3 m c),
      (h c _ (mem_uc main_arg4 (by decide))).trans (W16_main_arg4 m c),
      (h c _ (mem_uc main_arg5 (by decide))).trans (W16_main_arg5 m c),
      (h c _ (mem_uc main_arg6 (by decide))).trans (W16_main_arg6 m c)⟩) (run_all m ρ)

/-- The run's result beside the frame: the output array ends at what region 2's write-back left, and every argument
    array at its launch contents. -/
theorem run_result : θ_run defs (onTc (τ := τ) (main (F := F))) ⟨m, fun _ => 0, ρ⟩ (fun r => ∀ c : Dev nD,
      r.2.mem ((c.tc : Thread nD τ).loc main_v12) = W16 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v12 (by decide)),
      (h c _ (mem_uc main_arg0 (by decide))).trans (W16_main_arg0 m c),
      (h c _ (mem_uc main_arg1 (by decide))).trans (W16_main_arg1 m c),
      (h c _ (mem_uc main_arg2 (by decide))).trans (W16_main_arg2 m c),
      (h c _ (mem_uc main_arg3 (by decide))).trans (W16_main_arg3 m c),
      (h c _ (mem_uc main_arg4 (by decide))).trans (W16_main_arg4 m c),
      (h c _ (mem_uc main_arg5 (by decide))).trans (W16_main_arg5 m c),
      (h c _ (mem_uc main_arg6 (by decide))).trans (W16_main_arg6 m c)⟩) (run_all m ρ)

end Cert.Kernel.H

end
-- ==== Proof.KI.Blocks.lean ====
/-
  The quantities the three kernel regions are described with, as pure functions of the buffer contents a region
  is entered with (`V`): the block of an operand that a grid point sees, and the two carried accumulators.

  Regions 0 and 1 are the same segment sum at two sizes. Point `t` sees rows `8192·t … 8192·t + 8191` of the
  (padded) feature array and the matching 8192 segment ids; its body adds, to what the accumulator held, the
  product of the one-hot matrix of the ids (256 × 8192) with the feature block (8192 × 32). At the first point
  the accumulator is first reset to zero. `acc0 n` / `acc1 n` is the accumulator after point `n`.
  Region 2 has one point; its body's result is `out2` of the five operand arrays.
-/
import proofs.«414828_j70153995813297_1_alg».proof.Proof.Gen.KernelIdeal.Launch
import proofs.«414828_j70153995813297_1_alg».proof.Proof.Gen.KernelIdeal.Skeleton
import proofs.«414828_j70153995813297_1_alg».proof.Proof.Gen.KernelIdeal.Points

set_option maxRecDepth 16384

noncomputable section

namespace Cert.KernelIdeal.H

open Idealize.ShloMosaic Idealize.ShloMosaic.TcCoe
open Idealize.SL Idealize.SL.Sem
open Cert.KernelIdeal Cert.KernelIdeal.Gen

variable {F : FTy → Type} [FloatOps F]
variable (V : (c : Dev nD) → (b : Ref sig .tc) → Buf (Elt F) ((c : Thread nD τ).loc b))

/-! ## Region 0 -/

/-- Operand `w`'s block at point `t` of region 0, read off the operand's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature rows point `t` sees (8192 × 32). -/
abbrev feat0 (c : Dev nD) (t : Fin cfg0.N) : Vec F S8192x32 .f32 := iblk0 V c 0 t
/-- The segment ids point `t` sees (1 × 8192). -/
abbrev ids0 (c : Dev nD) (t : Fin cfg0.N) : Vec F S1x8192 .i32 := iblk0 V c 1 t

/-- The accumulator after point `n`: the body's sum over what the point before left, over zero at the first point. -/
def acc0 (c : Dev nD) : (n : ℕ) → n < cfg0.N → Vec F S256x32 .f32
  | 0, h => k0_pay2 (ids0 V c ⟨0, h⟩) (feat0 V c ⟨0, h⟩) (k0_pay1 (F := F))
  | n + 1, h => k0_pay2 (ids0 V c ⟨n + 1, h⟩) (feat0 V c ⟨n + 1, h⟩) (acc0 c n (Nat.lt_of_succ_lt h))

theorem acc0_zero (c : Dev nD) (h : 0 < cfg0.N) :
    acc0 V c 0 h = k0_pay2 (ids0 V c ⟨0, h⟩) (feat0 V c ⟨0, h⟩) (k0_pay1 (F := F)) := rfl
theorem acc0_succ (c : Dev nD) (n : ℕ) (h : n + 1 < cfg0.N) :
    acc0 V c (n + 1) h = k0_pay2 (ids0 V c ⟨n + 1, h⟩) (feat0 V c ⟨n + 1, h⟩) (acc0 V c n (Nat.lt_of_succ_lt h)) := rfl

/-! ## Region 1 -/

/-- Operand `w`'s block at point `t` of region 1, read off the operand's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev feat1 (c : Dev nD) (t : Fin cfg1.N) : Vec F S8192x32 .f32 := iblk1 V c 0 t
abbrev ids1 (c : Dev nD) (t : Fin cfg1.N) : Vec F S1x8192 .i32 := iblk1 V c 1 t

def acc1 (c : Dev nD) : (n : ℕ) → n < cfg1.N → Vec F S256x32 .f32
  | 0, h => k1_pay2 (ids1 V c ⟨0, h⟩) (feat1 V c ⟨0, h⟩) (k1_pay1 (F := F))
  | n + 1, h => k1_pay2 (ids1 V c ⟨n + 1, h⟩) (feat1 V c ⟨n + 1, h⟩) (acc1 c n (Nat.lt_of_succ_lt h))

theorem acc1_zero (c : Dev nD) (h : 0 < cfg1.N) :
    acc1 V c 0 h = k1_pay2 (ids1 V c ⟨0, h⟩) (feat1 V c ⟨0, h⟩) (k1_pay1 (F := F)) := rfl
theorem acc1_succ (c : Dev nD) (n : ℕ) (h : n + 1 < cfg1.N) :
    acc1 V c (n + 1) h = k1_pay2 (ids1 V c ⟨n + 1, h⟩) (feat1 V c ⟨n + 1, h⟩) (acc1 V c n (Nat.lt_of_succ_lt h)) := rfl

/-! ## Region 2 -/

/-- Operand `w`'s block at the one point of region 2: the operand's whole array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev node2 (c : Dev nD) (t : Fin cfg2.N) : Vec F S256x32 .f32 := iblk2 V c 0 t
abbrev edge2 (c : Dev nD) (t : Fin cfg2.N) : Vec F S256x32 .f32 := iblk2 V c 1 t
abbrev glob2 (c : Dev nD) (t : Fin cfg2.N) : Vec F S256x32 .f32 := iblk2 V c 2 t
abbrev wts2 (c : Dev nD) (t : Fin cfg2.N) : Vec F S96x32 .f32 := iblk2 V c 3 t
abbrev bias2 (c : Dev nD) (t : Fin cfg2.N) : Vec F S1x32 .f32 := iblk2 V c 4 t

end Cert.KernelIdeal.H

end
-- ==== Proof.KI.R0.lean ====
/-
  Region 0: the segment sum over 13 grid points, as the pipeline's proof data.
  The accumulator lives in a scratch buffer the kernel keeps between points, so the region's invariant carries it:
  before the first point the scratch holds anything; after point `n` it holds `acc0 n`. The output block is
  stored at the last point only (and written back there); at the other points the output window is idle.
-/
import proofs.«414828_j70153995813297_1_alg».proof.Proof.KI.Blocks
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, and where the output window is idle -/

/-- The accumulator is reset where the grid coordinate is zero. -/
abbrev first0 (i : grid0.Coords) : Prop :=
  (Scalar.cmpi .ne (Scalar.extui (Scalar.cmpi .eq (BitVec.ofNat 32 (i 0).val) 0#32)) 0#32) = 1#1
/-- The accumulator is copied to the output block where the grid coordinate is the last. -/
abbrev last0 (i : grid0.Coords) : Prop := k0_cond2 i = 1#1

/-- The reset condition holds at point 0 and nowhere else. -/
theorem first0_iff : ∀ t : Fin cfg0.N, first0 (grid0.coords t) ↔ t.val = 0 :=
  (by decide +kernel : ∀ t : Fin grid0.N, first0 (grid0.coords t) ↔ t.val = 0)
/-- The copy-out condition holds at point 12 and nowhere else. -/
theorem last0_iff : ∀ t : Fin cfg0.N, last0 (grid0.coords t) ↔ t.val = 12 :=
  (by decide +kernel : ∀ t : Fin grid0.N, last0 (grid0.coords t) ↔ t.val = 12)
/-- The two input windows are live at every point. -/
theorem live0_0 : ∀ i, cfg0.idle 0 i = false := fun _ => rfl
theorem live0_1 : ∀ i, cfg0.idle 1 i = false := fun _ => rfl
/-- The output window is idle, and not written back, at every point but the last; at the last it is live. -/
theorem idle0_2 : ∀ t : Fin cfg0.N, t.val ≠ 12 → cfg0.idle 2 (grid0.coords t) = true :=
  (by decide +kernel : ∀ t : Fin grid0.N, t.val ≠ 12 → cfg0.idle 2 (grid0.coords t) = true)
theorem noflush0_2 : ∀ t : Fin cfg0.N, t.val ≠ 12 → (cfg0.win 2).flush t = false :=
  (by decide +kernel : ∀ t : Fin grid0.N, t.val ≠ 12 → win0_2.flush t = false)
theorem live0_2 : ∀ t : Fin cfg0.N, t.val = 12 → cfg0.idle 2 (grid0.coords t) = false :=
  (by decide +kernel : ∀ t : Fin grid0.N, t.val = 12 → cfg0.idle 2 (grid0.coords t) = false)

/-- The offsets of every load and store of the body: the origin. -/
theorem hz0 : (![0, 0] : Fin 2 → Nat) = fun _ => 0 := funext fun a => by fin_cases a <;> rfl

/-- What a buffer of the accumulator's shape reads after stores the last of which is of the whole buffer: that store's payload,
    whatever the earlier stores and the contents before them. -/
theorem read_last0 {sp : Space} (v : View sig .tc sp S256x32 .f32) (f : v.ty.Contents (Elt F)) (w : S256x32.Idx → Elt F .f32)
    (L : List (View.Piece (Elt F) S256x32 .f32)) :
    v.read (Elt F) (v.writes (Elt F) f
      ((⟨Rect.unit (s := S256x32) ![0, 0] S256x32.size inb_S256x32_S256x32_0_0, w⟩ : View.Piece (Elt F) S256x32 .f32) :: L)) = w := by
  rw [View.read_writes_eq_canon _ _ _ (fun y => ⟨_, List.mem_cons_self, View.mem_set_unit_zero hz0 inb_S256x32_S256x32_0_0 y⟩),
    View.canon_cons_unit_zero hz0]

/-! ## The body on any whole memrefs, case by case

Every load and store of the body is of a whole buffer, so a buffer reads back the last payload stored into it and a
load reads the buffer's contents. The output buffer is touched at the last point only. -/

set_option maxHeartbeats 1000000 in
/-- At the first point: the accumulator, holding anything, is set to zero and then to the body's sum over zero. -/
theorem run_first0 (c : Dev nD) (E : Set ℕ) (i : grid0.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : first0 i) (h2 : ¬ last0 i)
    (x : Vec F S8192x32 .f32) (ids : Vec F S1x8192 .i32) (K : PUnit → sProp 𝕄) :
    iprop(owns (c : Thread nD τ) arg1 fullShare x ∗ owns (c : Thread nD τ) arg2 fullShare ids ∗ (∃ d, owns (c : Thread nD τ) arg4 fullShare d)
        ∗ (iprop(owns (c : Thread nD τ) arg1 fullShare x ∗ owns (c : Thread nD τ) arg2 fullShare ids
            ∗ owns (c : Thread nD τ) arg4 fullShare (k0_pay2 ids x (k0_pay1 (F := F)))) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%d4, %f4, -, H4⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [read_last0]
  simp only [View.readAt_eq_ld, View.ld_unit_zero (S := S1x8192) hz0, View.ld_unit_zero (S := S8192x32) hz0,
    View.readCov_unit_zero (S := S256x32) _ hz0]

set_option maxHeartbeats 1000000 in
/-- At a point neither first nor last: the accumulator, holding `s`, is set to the body's sum over `s`. -/
theorem run_mid0 (c : Dev nD) (E : Set ℕ) (i : grid0.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : ¬ first0 i) (h2 : ¬ last0 i)
    (x : Vec F S8192x32 .f32) (ids : Vec F S1x8192 .i32) (s : Vec F S256x32 .f32) (K : PUnit → sProp 𝕄) :
    iprop(owns (c : Thread nD τ) arg1 fullShare x ∗ owns (c : Thread nD τ) arg2 fullShare ids ∗ owns (c : Thread nD τ) arg4 fullShare s
        ∗ (iprop(owns (c : Thread nD τ) arg1 fullShare x ∗ owns (c : Thread nD τ) arg2 fullShare ids
            ∗ owns (c : Thread nD τ) arg4 fullShare (k0_pay2 ids x s)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%f4, %hf4, H4⟩, Hk⟩
  subst hf1; subst hf2; subst hf4
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [read_last0]
  simp only [View.readAt_eq_ld, View.ld_unit_zero (S := S1x8192) hz0, View.ld_unit_zero (S := S8192x32) hz0,
    View.ld_unit_zero (S := S256x32) hz0]

set_option maxHeartbeats 1000000 in
/-- At the last point: the accumulator, holding `s`, is set to the body's sum over `s`, and the output buffer, holding
    anything, to the same. -/
theorem run_last0 (c : Dev nD) (E : Set ℕ) (i : grid0.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : ¬ first0 i) (h2 : last0 i)
    (x : Vec F S8192x32 .f32) (ids : Vec F S1x8192 .i32) (s : Vec F S256x32 .f32) (K : PUnit → sProp 𝕄) :
    iprop(owns (c : Thread nD τ) arg1 fullShare x ∗ owns (c : Thread nD τ) arg2 fullShare ids ∗ (∃ d, owns (c : Thread nD τ) arg3 fullShare d)
        ∗ owns (c : Thread nD τ) arg4 fullShare s
        ∗ (iprop(owns (c : Thread nD τ) arg1 fullShare x ∗ owns (c : Thread nD τ) arg2 fullShare ids
            ∗ owns (c : Thread nD τ) arg3 fullShare (k0_pay2 ids x s) ∗ owns (c : Thread nD τ) arg4 fullShare (k0_pay2 ids x s)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [read_last0]
    simp only [View.readAt_eq_ld, View.ld_unit_zero (S := S1x8192) hz0, View.ld_unit_zero (S := S8192x32) hz0,
      View.ld_unit_zero (S := S256x32) hz0, View.readCov_unit_zero (S := S256x32) _ hz0]
  iexists _; isplitr
  swap; · iexact H4
  ipureintro
  sl_unfold_words
  rw [read_last0]
  simp only [View.readAt_eq_ld, View.ld_unit_zero (S := S1x8192) hz0, View.ld_unit_zero (S := S8192x32) hz0,
    View.ld_unit_zero (S := S256x32) hz0]

variable (V : (c : Dev nD) → (b : Ref sig .tc) → Buf (Elt F) ((c : Thread nD τ).loc b))

/-- The scratch operand: a whole scoped buffer of the kernel's own. -/
abbrev scM0 : Memref sig .tc .vmem S256x32 .f32 := Memref.whole cc0_scratch0

/-- The region invariant before position `n`: before the first point the class's (every scoped buffer no window stages at
    anything, the generator register at some state); afterwards the same with the scratch at what point `n - 1` left. -/
def PhiS0 (c : Dev nD) : (n : ℕ) → n ≤ cfg0.N → sProp 𝕄
  | 0, _ => Pipeline.ΦA spec0 c
  | n + 1, hn => iprop(owns (c : Thread nD τ) scM0 fullShare (acc0 V c n hn)
      ∗ Pipeline.scopedRestBut (Ix := Unit) (Name := ℕ) (U := UR sig nD τ) (Lvl := ℕ) (Val := Elt F) spec0 c [cc0_scratch0]
      ∗ ∃ r, prngReg c r)

/-- The proof data of pipeline 0 on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

/-! ## The accumulator and the invariant, point by point -/

/-- At the first point the accumulator is the body's sum over zero; -/
theorem acc0_first (c : Dev nD) (t : Fin cfg0.N) (h : t.val = 0) :
    acc0 V c t.val t.isLt = k0_pay2 (ids0 V c t) (feat0 V c t) (k0_pay1 (F := F)) := by
  obtain ⟨n, hn⟩ := t
  cases n with
  | zero => rfl
  | succ n => exact absurd h (Nat.succ_ne_zero n)

/-- at a later point, the body's sum over the accumulator of the point before. -/
theorem acc0_later (c : Dev nD) (t : Fin cfg0.N) (h : t.val ≠ 0) :
    acc0 V c t.val t.isLt
      = k0_pay2 (ids0 V c t) (feat0 V c t) (acc0 V c (t.val - 1) (Nat.lt_of_le_of_lt (Nat.sub_le _ _) t.isLt)) := by
  obtain ⟨n, hn⟩ := t
  cases n with
  | zero => exact absurd rfl h
  | succ n => rfl

/-- Before the first point the invariant is the class's, -/
theorem PhiS0_first (c : Dev nD) (n : ℕ) (h : n ≤ cfg0.N) (hz : n = 0) : PhiS0 V c n h = Pipeline.ΦA spec0 c := by
  subst hz; rfl

/-- before a later one, the scratch at the accumulator of the point before beside the unopened rest. -/
theorem PhiS0_later (c : Dev nD) (n : ℕ) (h : n ≤ cfg0.N) (hz : n ≠ 0) :
    PhiS0 V c n h = iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]
      ∗ ∃ r, prngReg c r) := by
  cases n with
  | zero => exact absurd rfl hz
  | succ n => rfl

theorem Phi0_castSucc (c : Dev nD) (t : Fin cfg0.N) :
    (dat0 V c).Φ t.castSucc = PhiS0 V c t.val (Nat.le_of_lt t.isLt) := rfl

theorem Phi0_succ (c : Dev nD) (t : Fin cfg0.N) :
    (dat0 V c).Φ t.succ = iprop(owns (c : Thread nD τ) scM0 fullShare (acc0 V c t.val t.isLt)
      ∗ Pipeline.scopedRestBut (Ix := Unit) (Name := ℕ) (U := UR sig nD τ) (Lvl := ℕ) (Val := Elt F) spec0 c [cc0_scratch0]
      ∗ ∃ r, prngReg c r) := rfl

/-- The class's invariant with the scratch taken out of the scoped rest, as a memref owned at some contents. -/
theorem PhiA0_split (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
        ∗ ∃ r, prngReg c r) := by
  unfold Pipeline.ΦA
  rw [Pipeline.scopedRest_split_of_list spec0 c [cc0_scratch0] (by decide) (by decide)]
  simp only [bigSepL_singleton, scM0, owns_whole]
  try rfl

/-! ## What the windows' buffers hold around the body -/

/-- An input's buffer holds its block at every point, fetched there or not. -/
theorem before0_0 (c : Dev nD) (t : Fin cfg0.N) (d) : (dat0 V c).before 0 t d = iblk0 V c 0 t :=
  ((dat0 V c).before_in_eq_fetched 0 rfl live0_0 (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl live0_1 (fun _ _ _ => rfl)
    (fun t => by rw [after0_1]; unfold Dat.blockOf iblk0; rw [A_eq0]; try rfl) t d).trans
    (by unfold Dat.fetched Dat.blockOf iblk0; rw [A_eq0]; try rfl)

/-- The body leaves each input's buffer at its block; -/
theorem leaves0_0 (c : Dev nD) (t : Fin cfg0.N) :
    (dat0 V c).leavesExact 0 t = owns (c : Thread nD τ) (st0_0 t) fullShare (iblk0 V c 0 t) := by
  unfold Dat.leavesExact; rw [live0_0, after0_0]
theorem leaves0_1 (c : Dev nD) (t : Fin cfg0.N) :
    (dat0 V c).leavesExact 1 t = owns (c : Thread nD τ) (st0_1 t) fullShare (iblk0 V c 1 t) := by
  unfold Dat.leavesExact; rw [live0_1, after0_1]
/-- the output's, at the last point, at the accumulator. -/
theorem leaves0_2 (c : Dev nD) (t : Fin cfg0.N) (h : t.val = 12) :
    (dat0 V c).leavesExact 2 t = owns (c : Thread nD τ) (st0_2 t) fullShare (acc0 V c t.val t.isLt) := by
  unfold Dat.leavesExact; rw [live0_2 t h, after0_2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 1600000 in
/-- The body at any point. The inputs' buffers hold their blocks. At the last point the scratch holds the accumulator of
    the point before, and the body leaves the scratch and the output's buffer at this point's; at an earlier point the
    output's buffer is handed back as found, and the scratch — holding anything at the first point, the accumulator of
    the point before at the others — is left at this point's accumulator. The rest of the invariant passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    Phi0_succ, Phi0_castSucc, leaves0_0, leaves0_1]
  by_cases hl : t.val = 12
  · have hf : t.val ≠ 0 := by omega
    rw [leaves0_2 V c t hl, PhiS0_later V c _ _ hf, acc0_later V c t hf]
    iintro ⟨⟨HS, HR, Hg⟩, Ho, ⟨%d0, H0⟩, ⟨%d1, H1⟩, ⟨%d2, H2⟩⟩
    iapply (run_last0 c Set.univ (grid0.coords t) _ _ _ _ _ _ _ _ (fun h => hf ((first0_iff t).mp h)) ((last0_iff t).mpr hl)
      (feat0 V c t) (ids0 V c t) (acc0 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [Dat.leavesExact_idle (dat0 V c) 2 t (idle0_2 t hl) (noflush0_2 t hl)]
    by_cases hf : t.val = 0
    · rw [PhiS0_first V c _ _ hf, PhiA0_split, acc0_first V c t hf]
      iintro ⟨⟨⟨HS, HR⟩, Hg⟩, Ho, ⟨%d0, H0⟩, ⟨%d1, H1⟩, H2⟩
      iapply (run_first0 c Set.univ (grid0.coords t) _ _ _ _ _ _ _ _ ((first0_iff t).mpr hf) (fun h => hl ((last0_iff t).mp h))
        (feat0 V c t) (ids0 V c t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS0_later V c _ _ hf, acc0_later V c t hf]
      iintro ⟨⟨HS, HR, Hg⟩, Ho, ⟨%d0, H0⟩, ⟨%d1, H1⟩, H2⟩
      iapply (run_mid0 c Set.univ (grid0.coords t) _ _ _ _ _ _ _ _ (fun h => hf ((first0_iff t).mp h)) (fun h => hl ((last0_iff t).mp h))
        (feat0 V c t) (ids0 V c t) (acc0 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_first V c 0 _ rfl]

/-- After the last point the invariant gives the class's back: the scratch's named contents are forgotten. -/
theorem hout0 (c : Dev nD) : (dat0 V c).Φ (Fin.last cfg0.N) ⊢ Pipeline.ΦA spec0 c := by
  rw [show (dat0 V c).Φ (Fin.last cfg0.N) = PhiS0 V c cfg0.N (Nat.le_refl _) from rfl,
    PhiS0_later V c _ _ (by rw [show cfg0.N = 13 from N_0]; decide), PhiA0_split]
  iintro ⟨HS, HR, Hg⟩
  isplitl [HS HR]
  · isplitl [HS]; · iexists _; iexact HS
    iexact HR
  iexact Hg

end Cert.KernelIdeal.H

end
-- ==== Proof.KI.R1.lean ====
/-
  Region 1: the segment sum over 196 grid points, as the pipeline's proof data.
  The accumulator lives in a scratch buffer the kernel keeps between points, so the region's invariant carries it:
  before the first point the scratch holds anything; after point `n` it holds `acc1 n`. The output block is
  stored at the last point only (and written back there); at the other points the output window is idle.
-/
import proofs.«414828_j70153995813297_1_alg».proof.Proof.KI.Blocks
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, and where the output window is idle -/

/-- The accumulator is reset where the grid coordinate is zero. -/
abbrev first1 (i : grid1.Coords) : Prop :=
  (Scalar.cmpi .ne (Scalar.extui (Scalar.cmpi .eq (BitVec.ofNat 32 (i 0).val) 0#32)) 0#32) = 1#1
/-- The accumulator is copied to the output block where the grid coordinate is the last. -/
abbrev last1 (i : grid1.Coords) : Prop := k1_cond2 i = 1#1

/-- The reset condition holds at point 0 and nowhere else. -/
theorem first1_iff : ∀ t : Fin cfg1.N, first1 (grid1.coords t) ↔ t.val = 0 :=
  (by decide +kernel : ∀ t : Fin grid1.N, first1 (grid1.coords t) ↔ t.val = 0)
/-- The copy-out condition holds at point 195 and nowhere else. -/
theorem last1_iff : ∀ t : Fin cfg1.N, last1 (grid1.coords t) ↔ t.val = 195 :=
  (by decide +kernel : ∀ t : Fin grid1.N, last1 (grid1.coords t) ↔ t.val = 195)
/-- The two input windows are live at every point. -/
theorem live1_0 : ∀ i, cfg1.idle 0 i = false := fun _ => rfl
theorem live1_1 : ∀ i, cfg1.idle 1 i = false := fun _ => rfl
/-- The output window is idle, and not written back, at every point but the last; at the last it is live. -/
theorem idle1_2 : ∀ t : Fin cfg1.N, t.val ≠ 195 → cfg1.idle 2 (grid1.coords t) = true :=
  (by decide +kernel : ∀ t : Fin grid1.N, t.val ≠ 195 → cfg1.idle 2 (grid1.coords t) = true)
theorem noflush1_2 : ∀ t : Fin cfg1.N, t.val ≠ 195 → (cfg1.win 2).flush t = false :=
  (by decide +kernel : ∀ t : Fin grid1.N, t.val ≠ 195 → win1_2.flush t = false)
theorem live1_2 : ∀ t : Fin cfg1.N, t.val = 195 → cfg1.idle 2 (grid1.coords t) = false :=
  (by decide +kernel : ∀ t : Fin grid1.N, t.val = 195 → cfg1.idle 2 (grid1.coords t) = false)

/-- The offsets of every load and store of the body: the origin. -/
theorem hz1 : (![0, 0] : Fin 2 → Nat) = fun _ => 0 := funext fun a => by fin_cases a <;> rfl

/-- What a buffer of the accumulator's shape reads after stores the last of which is of the whole buffer: that store's payload,
    whatever the earlier stores and the contents before them. -/
theorem read_last1 {sp : Space} (v : View sig .tc sp S256x32 .f32) (f : v.ty.Contents (Elt F)) (w : S256x32.Idx → Elt F .f32)
    (L : List (View.Piece (Elt F) S256x32 .f32)) :
    v.read (Elt F) (v.writes (Elt F) f
      ((⟨Rect.unit (s := S256x32) ![0, 0] S256x32.size inb_S256x32_S256x32_0_0, w⟩ : View.Piece (Elt F) S256x32 .f32) :: L)) = w := by
  rw [View.read_writes_eq_canon _ _ _ (fun y => ⟨_, List.mem_cons_self, View.mem_set_unit_zero hz1 inb_S256x32_S256x32_0_0 y⟩),
    View.canon_cons_unit_zero hz1]

/-! ## The body on any whole memrefs, case by case

Every load and store of the body is of a whole buffer, so a buffer reads back the last payload stored into it and a
load reads the buffer's contents. The output buffer is touched at the last point only. -/

set_option maxHeartbeats 1000000 in
/-- At the first point: the accumulator, holding anything, is set to zero and then to the body's sum over zero. -/
theorem run_first1 (c : Dev nD) (E : Set ℕ) (i : grid1.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : first1 i) (h2 : ¬ last1 i)
    (x : Vec F S8192x32 .f32) (ids : Vec F S1x8192 .i32) (K : PUnit → sProp 𝕄) :
    iprop(owns (c : Thread nD τ) arg1 fullShare x ∗ owns (c : Thread nD τ) arg2 fullShare ids ∗ (∃ d, owns (c : Thread nD τ) arg4 fullShare d)
        ∗ (iprop(owns (c : Thread nD τ) arg1 fullShare x ∗ owns (c : Thread nD τ) arg2 fullShare ids
            ∗ owns (c : Thread nD τ) arg4 fullShare (k1_pay2 ids x (k1_pay1 (F := F)))) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f1, %hf1, H1⟩, ⟨%f2, %hf2, H2⟩, ⟨%d4, %f4, -, H4⟩, Hk⟩
  subst hf1; subst hf2
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [read_last1]
  simp only [View.readAt_eq_ld, View.ld_unit_zero (S := S1x8192) hz1, View.ld_unit_zero (S := S8192x32) hz1,
    View.readCov_unit_zero (S := S256x32) _ hz1]

set_option maxHeartbeats 1000000 in
/-- At a point neither first nor last: the accumulator, holding `s`, is set to the body's sum over `s`. -/
theorem run_mid1 (c : Dev nD) (E : Set ℕ) (i : grid1.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : ¬ first1 i) (h2 : ¬ last1 i)
    (x : Vec F S8192x32 .f32) (ids : Vec F S1x8192 .i32) (s : Vec F S256x32 .f32) (K : PUnit → sProp 𝕄) :
    iprop(owns (c : Thread nD τ) arg1 fullShare x ∗ owns (c : Thread nD τ) arg2 fullShare ids ∗ owns (c : Thread nD τ) arg4 fullShare s
        ∗ (iprop(owns (c : Thread nD τ) arg1 fullShare x ∗ owns (c : Thread nD τ) arg2 fullShare ids
            ∗ owns (c : Thread nD τ) arg4 fullShare (k1_pay2 ids x s)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f1, %hf1, H1⟩, ⟨%f2, %hf2, H2⟩, ⟨%f4, %hf4, H4⟩, Hk⟩
  subst hf1; subst hf2; subst hf4
  sl_exec (disch := first | exact h1 | exact h2)
  sl_step
  iapply Hk
  isplitl [H1]
  · iexists f1; isplitr; · ipureintro; rfl
    iexact H1
  isplitl [H2]
  · iexists f2; isplitr; · ipureintro; rfl
    iexact H2
  iexists _; isplitr
  swap; · iexact H4
  ipureintro
  sl_unfold_words
  rw [read_last1]
  simp only [View.readAt_eq_ld, View.ld_unit_zero (S := S1x8192) hz1, View.ld_unit_zero (S := S8192x32) hz1,
    View.ld_unit_zero (S := S256x32) hz1]

set_option maxHeartbeats 1000000 in
/-- At the last point: the accumulator, holding `s`, is set to the body's sum over `s`, and the output buffer, holding
    anything, to the same. -/
theorem run_last1 (c : Dev nD) (E : Set ℕ) (i : grid1.Coords)
    (arg1 : Memref sig .tc .vmem S8192x32 .f32) (harg1 : arg1.IsWhole) (arg2 : Memref sig .tc .vmem S1x8192 .i32) (harg2 : arg2.IsWhole)
    (arg3 : Memref sig .tc .vmem S256x32 .f32) (harg3 : arg3.IsWhole) (arg4 : Memref sig .tc .vmem S256x32 .f32) (harg4 : arg4.IsWhole)
    (h1 : ¬ first1 i) (h2 : last1 i)
    (x : Vec F S8192x32 .f32) (ids : Vec F S1x8192 .i32) (s : Vec F S256x32 .f32) (K : PUnit → sProp 𝕄) :
    iprop(owns (c : Thread nD τ) arg1 fullShare x ∗ owns (c : Thread nD τ) arg2 fullShare ids ∗ (∃ d, owns (c : Thread nD τ) arg3 fullShare d)
        ∗ owns (c : Thread nD τ) arg4 fullShare s
        ∗ (iprop(owns (c : Thread nD τ) arg1 fullShare x ∗ owns (c : Thread nD τ) arg2 fullShare ids
            ∗ owns (c : Thread nD τ) arg3 fullShare (k1_pay2 ids x s) ∗ owns (c : Thread nD τ) arg4 fullShare (k1_pay2 ids x s)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f1, %hf1, H1⟩, ⟨%f2, %hf2, H2⟩, ⟨%d3, %f3, -, H3⟩, ⟨%f4, %hf4, H4⟩, Hk⟩
  subst hf1; subst hf2; subst hf4
  sl_exec (disch := first | exact h1 | exact h2)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [read_last1]
    simp only [View.readAt_eq_ld, View.ld_unit_zero (S := S1x8192) hz1, View.ld_unit_zero (S := S8192x32) hz1,
      View.ld_unit_zero (S := S256x32) hz1, View.readCov_unit_zero (S := S256x32) _ hz1]
  iexists _; isplitr
  swap; · iexact H4
  ipureintro
  sl_unfold_words
  rw [read_last1]
  simp only [View.readAt_eq_ld, View.ld_unit_zero (S := S1x8192) hz1, View.ld_unit_zero (S := S8192x32) hz1,
    View.ld_unit_zero (S := S256x32) hz1]

variable (V : (c : Dev nD) → (b : Ref sig .tc) → Buf (Elt F) ((c : Thread nD τ).loc b))

/-- The scratch operand: a whole scoped buffer of the kernel's own. -/
abbrev scM1 : Memref sig .tc .vmem S256x32 .f32 := Memref.whole cc1_scratch0

/-- The region invariant before position `n`: before the first point the class's (every scoped buffer no window stages at
    anything, the generator register at some state); afterwards the same with the scratch at what point `n - 1` left. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ ∃ r, prngReg c r)

/-- The proof data of pipeline 0 on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-! ## The accumulator and the invariant, point by point -/

/-- At the first point the accumulator is the body's sum over zero; -/
theorem acc1_first (c : Dev nD) (t : Fin cfg1.N) (h : t.val = 0) :
    acc1 V c t.val t.isLt = k1_pay2 (ids1 V c t) (feat1 V c t) (k1_pay1 (F := F)) := by
  obtain ⟨n, hn⟩ := t
  cases n with
  | zero => rfl
  | succ n => exact absurd h (Nat.succ_ne_zero n)

/-- at a later point, the body's sum over the accumulator of the point before. -/
theorem acc1_later (c : Dev nD) (t : Fin cfg1.N) (h : t.val ≠ 0) :
    acc1 V c t.val t.isLt
      = k1_pay2 (ids1 V c t) (feat1 V c t) (acc1 V c (t.val - 1) (Nat.lt_of_le_of_lt (Nat.sub_le _ _) t.isLt)) := by
  obtain ⟨n, hn⟩ := t
  cases n with
  | zero => exact absurd rfl h
  | succ n => rfl

/-- Before the first point the invariant is the class's, -/
theorem PhiS1_first (c : Dev nD) (n : ℕ) (h : n ≤ cfg1.N) (hz : n = 0) : PhiS1 V c n h = Pipeline.ΦA spec1 c := by
  subst hz; rfl

/-- before a later one, the scratch at the accumulator of the point before beside the unopened rest. -/
theorem PhiS1_later (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ ∃ r, prngReg c r) := by
  cases n with
  | zero => exact absurd rfl hz
  | succ n => rfl

theorem Phi1_castSucc (c : Dev nD) (t : Fin cfg1.N) :
    (dat1 V c).Φ t.castSucc = PhiS1 V c t.val (Nat.le_of_lt t.isLt) := rfl

theorem Phi1_succ (c : Dev nD) (t : Fin cfg1.N) :
    (dat1 V c).Φ t.succ = iprop(owns (c : Thread nD τ) scM1 fullShare (acc1 V c t.val t.isLt)
      ∗ Pipeline.scopedRestBut (Ix := Unit) (Name := ℕ) (U := UR sig nD τ) (Lvl := ℕ) (Val := Elt F) spec1 c [cc1_scratch0]
      ∗ ∃ r, prngReg c r) := rfl

/-- The class's invariant with the scratch taken out of the scoped rest, as a memref owned at some contents. -/
theorem PhiA1_split (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
        ∗ ∃ r, prngReg c r) := by
  unfold Pipeline.ΦA
  rw [Pipeline.scopedRest_split_of_list spec1 c [cc1_scratch0] (by decide) (by decide)]
  simp only [bigSepL_singleton, scM1, owns_whole]
  try rfl

/-! ## What the windows' buffers hold around the body -/

/-- An input's buffer holds its block at every point, fetched there or not. -/
theorem before1_0 (c : Dev nD) (t : Fin cfg1.N) (d) : (dat1 V c).before 0 t d = iblk1 V c 0 t :=
  ((dat1 V c).before_in_eq_fetched 0 rfl live1_0 (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl live1_1 (fun _ _ _ => rfl)
    (fun t => by rw [after1_1]; unfold Dat.blockOf iblk1; rw [A_eq1]; try rfl) t d).trans
    (by unfold Dat.fetched Dat.blockOf iblk1; rw [A_eq1]; try rfl)

/-- The body leaves each input's buffer at its block; -/
theorem leaves1_0 (c : Dev nD) (t : Fin cfg1.N) :
    (dat1 V c).leavesExact 0 t = owns (c : Thread nD τ) (st1_0 t) fullShare (iblk1 V c 0 t) := by
  unfold Dat.leavesExact; rw [live1_0, after1_0]
theorem leaves1_1 (c : Dev nD) (t : Fin cfg1.N) :
    (dat1 V c).leavesExact 1 t = owns (c : Thread nD τ) (st1_1 t) fullShare (iblk1 V c 1 t) := by
  unfold Dat.leavesExact; rw [live1_1, after1_1]
/-- the output's, at the last point, at the accumulator. -/
theorem leaves1_2 (c : Dev nD) (t : Fin cfg1.N) (h : t.val = 195) :
    (dat1 V c).leavesExact 2 t = owns (c : Thread nD τ) (st1_2 t) fullShare (acc1 V c t.val t.isLt) := by
  unfold Dat.leavesExact; rw [live1_2 t h, after1_2]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 1600000 in
/-- The body at any point. The inputs' buffers hold their blocks. At the last point the scratch holds the accumulator of
    the point before, and the body leaves the scratch and the output's buffer at this point's; at an earlier point the
    output's buffer is handed back as found, and the scratch — holding anything at the first point, the accumulator of
    the point before at the others — is left at this point's accumulator. The rest of the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl,
    Phi1_succ, Phi1_castSucc, leaves1_0, leaves1_1]
  by_cases hl : t.val = 195
  · have hf : t.val ≠ 0 := by omega
    rw [leaves1_2 V c t hl, PhiS1_later V c _ _ hf, acc1_later V c t hf]
    iintro ⟨⟨HS, HR, Hg⟩, Ho, ⟨%d0, H0⟩, ⟨%d1, H1⟩, ⟨%d2, H2⟩⟩
    iapply (run_last1 c Set.univ (grid1.coords t) _ _ _ _ _ _ _ _ (fun h => hf ((first1_iff t).mp h)) ((last1_iff t).mpr hl)
      (feat1 V c t) (ids1 V c t) (acc1 V c (t.val - 1) (Nat.lt_of_le_of_lt (Nat.sub_le _ _) t.isLt)) _)
    isplitl [H0]; · iexact H0
    isplitl [H1]; · iexact H1
    isplitl [H2]; · iexists _; iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · rw [Dat.leavesExact_idle (dat1 V c) 2 t (idle1_2 t hl) (noflush1_2 t hl)]
    by_cases hf : t.val = 0
    · rw [PhiS1_first V c _ _ hf, PhiA1_split, acc1_first V c t hf]
      iintro ⟨⟨⟨HS, HR⟩, Hg⟩, Ho, ⟨%d0, H0⟩, ⟨%d1, H1⟩, H2⟩
      iapply (run_first1 c Set.univ (grid1.coords t) _ _ _ _ _ _ _ _ ((first1_iff t).mpr hf) (fun h => hl ((last1_iff t).mp h))
        (feat1 V c t) (ids1 V c t) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · rw [PhiS1_later V c _ _ hf, acc1_later V c t hf]
      iintro ⟨⟨HS, HR, Hg⟩, Ho, ⟨%d0, H0⟩, ⟨%d1, H1⟩, H2⟩
      iapply (run_mid1 c Set.univ (grid1.coords t) _ _ _ _ _ _ _ _ (fun h => hf ((first1_iff t).mp h)) (fun h => hl ((last1_iff t).mp h))
        (feat1 V c t) (ids1 V c t) (acc1 V c (t.val - 1) (Nat.lt_of_le_of_lt (Nat.sub_le _ _) t.isLt)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_first V c 0 _ rfl]

/-- After the last point the invariant gives the class's back: the scratch's named contents are forgotten. -/
theorem hout1 (c : Dev nD) : (dat1 V c).Φ (Fin.last cfg1.N) ⊢ Pipeline.ΦA spec1 c := by
  rw [show (dat1 V c).Φ (Fin.last cfg1.N) = PhiS1 V c cfg1.N (Nat.le_refl _) from rfl,
    PhiS1_later V c _ _ (by rw [show cfg1.N = 196 from N_1]; decide), PhiA1_split]
  iintro ⟨HS, HR, Hg⟩
  isplitl [HS HR]
  · isplitl [HS]; · iexists _; iexact HS
    iexact HR
  iexact Hg

end Cert.KernelIdeal.H

end
-- ==== Proof.KI.R2.lean ====
/-
  Region 2: one grid point; the body reads the two segment sums, the globals, the three 32-row bands of the
  weights and the bias, and stores `out2` of them into the output block, which is the whole result array.
-/
import proofs.«414828_j70153995813297_1_alg».proof.Proof.KI.Blocks
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three 32-row bands of the 96-row weight block, and the whole blocks of the other operands. -/
abbrev rW0 : Rect S96x32 := Rect.unit (s := S96x32) ![0, 0] S32x32.size inb_S96x32_S32x32_0_0
abbrev rW1 : Rect S96x32 := Rect.unit (s := S96x32) ![32, 0] S32x32.size inb_S96x32_S32x32_32_0
abbrev rW2 : Rect S96x32 := Rect.unit (s := S96x32) ![64, 0] S32x32.size inb_S96x32_S32x32_64_0

/-- What the body stores into the output block, from the five operand blocks. -/
def out2 (node edge glob : Vec F S256x32 .f32) (w : Vec F S96x32 .f32) (b : Vec F S1x32 .f32) : Vec F S256x32 .f32 :=
  k2_pay1 (View.ld w rW0) (View.ld w rW1) (View.ld w rW2) node edge glob b

/-- The proof data of pipeline 2 on core `c`, at the entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (node2 V c t) (edge2 V c t) (glob2 V c t) (wts2 V c t) (bias2 V c t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_5 (c : Dev nD) (t : Fin cfg2.N) :
    (dat2 V c).after 5 t = out2 (node2 V c t) (edge2 V c t) (glob2 V c t) (wts2 V c t) (bias2 V c t) := by dsimp only [dat2]

/-! ## What the body leaves in each input window: its block -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

/-! ## What the body finds in each input window: its block, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body's accesses to whole buffers -/

abbrev rN : Rect S256x32 := Rect.unit (s := S256x32) ![0, 0] S256x32.size inb_S256x32_S256x32_0_0
abbrev rB : Rect S1x32 := Rect.unit (s := S1x32) ![0, 0] S1x32.size inb_S1x32_S1x32_0_0

/-- A load through the whole-buffer rectangle reads the contents. -/
theorem ld_rN (X : Vec F S256x32 .f32) : View.ld X rN = X :=
  View.ld_unit_zero (by funext a; fin_cases a <;> rfl) _ X
theorem ld_rB (X : Vec F S1x32 .f32) : View.ld X rB = X :=
  View.ld_unit_zero (by funext a; fin_cases a <;> rfl) _ X

/-- The one store through the whole-buffer rectangle covers the buffer. -/
theorem cover2_5 (p0 : Vec F S256x32 .f32) (y : S256x32.Idx) :
    ∃ pc ∈ ([⟨rN, p0⟩] : List (View.Piece (Elt F) S256x32 .f32)), y ∈ pc.1.set :=
  View.cover_of_tiled [⟨rN, p0⟩] S256x32.size (by rfl) y

/-- What the one whole-buffer store of the payload of the loads leaves is `out2`. -/
theorem canon2_5 (node edge glob : Vec F S256x32 .f32) (w : Vec F S96x32 .f32) (b : Vec F S1x32 .f32) :
    View.canon [(⟨rN, k2_pay1 (View.ld w rW0) (View.ld w rW1) (View.ld w rW2) (View.ld node rN) (View.ld edge rN) (View.ld glob rN) (View.ld b rB)⟩ :
      View.Piece (Elt F) S256x32 .f32)] = out2 node edge glob w b := by
  rw [View.canon_unit_zero (by funext a; fin_cases a <;> rfl), ld_rN, ld_rN, ld_rN, ld_rB]; rfl

/-! ## The body's triple -/

set_option maxHeartbeats 1000000 in
/-- The body on whole staging memrefs, the five operands' at read contents and the output's at anything, runs to the
    continuation holding the operands' as they were and the output's at `out2` of them: the value loaded from the
    output is not used, and the one store covers the output. -/
theorem sound_kernel2 (c : Dev nD) (E : Set ℕ) (i : grid2.Coords)
    (arg1 : Memref sig .tc .vmem S256x32 .f32) (harg1 : arg1.IsWhole) (arg2 : Memref sig .tc .vmem S256x32 .f32) (harg2 : arg2.IsWhole)
    (arg3 : Memref sig .tc .vmem S256x32 .f32) (harg3 : arg3.IsWhole) (arg4 : Memref sig .tc .vmem S96x32 .f32) (harg4 : arg4.IsWhole)
    (arg5 : Memref sig .tc .vmem S1x32 .f32) (harg5 : arg5.IsWhole) (arg6 : Memref sig .tc .vmem S256x32 .f32) (harg6 : arg6.IsWhole)
    (node edge glob : Vec F S256x32 .f32) (w : Vec F S96x32 .f32) (b : Vec F S1x32 .f32) (K : PUnit → sProp 𝕄) :
    iprop(owns (c : Thread nD τ) arg1 fullShare node ∗ owns (c : Thread nD τ) arg2 fullShare edge
        ∗ owns (c : Thread nD τ) arg3 fullShare glob ∗ owns (c : Thread nD τ) arg4 fullShare w
        ∗ owns (c : Thread nD τ) arg5 fullShare b ∗ (∃ d, owns (c : Thread nD τ) arg6 fullShare d)
        ∗ (iprop(owns (c : Thread nD τ) arg1 fullShare node ∗ owns (c : Thread nD τ) arg2 fullShare edge
            ∗ owns (c : Thread nD τ) arg3 fullShare glob ∗ owns (c : Thread nD τ) arg4 fullShare w
            ∗ owns (c : Thread nD τ) arg5 fullShare b ∗ owns (c : Thread nD τ) arg6 fullShare (out2 node edge glob w b)) -∗ K ⟨⟩))
      ⊢ wp frame (wpE (defs₀ (F := F)) Variants.none c none) E
          (cc2_kernel i arg1 harg1 arg2 harg2 arg3 harg3 arg4 harg4 arg5 harg5 arg6 harg6) K := by
  simp only [cc2_kernel_eq_skeleton]; unfold cc2_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact (View.read_writes_eq_canon _ _ _ (cover2_5 _)).trans
    (canon2_5 (View.read (Elt F) arg1.view f1) (View.read (Elt F) arg2.view f2) (View.read (Elt F) arg3.view f3)
      (View.read (Elt F) arg4.view f4) (View.read (Elt F) arg5.view f5))

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at the point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation at the one point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Fold.lean ====
/-
  What the TensorCore's unscoped buffers hold between the items of the kernel program's @main, from the launch
  memory `m`: a stretch of host operations applies them (`StableHlo.after`); a kernel region leaves its operands'
  arrays at what its pipeline's write-backs leave (the inputs as entered, the output at the last write-back) and
  every other buffer as entered. `V7`, `V13`, `V15` are the contents the three regions are entered with.
-/
import proofs.«414828_j70153995813297_1_alg».proof.Proof.KI.R0
import proofs.«414828_j70153995813297_1_alg».proof.Proof.KI.R1
import proofs.«414828_j70153995813297_1_alg».proof.Proof.KI.R2

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-- At launch. -/
abbrev W0 : Dev nD → Valuation τ sig (Elt F) := fun c b => m (c, b)
/-- After the slice and reshape of the edge list's first row. -/
abbrev W1 : Dev nD → Valuation τ sig (Elt F) := fun c => StableHlo.after hostOps0 (W0 m c)
/-- After the take of `batch` at the source nodes. -/
abbrev W2 : Dev nD → Valuation τ sig (Elt F) := fun c => StableHlo.after hostOps0_1 (W1 m c)
abbrev W3 : Dev nD → Valuation τ sig (Elt F) := fun c => StableHlo.after hostOps0_2 (W2 m c)
/-- After the zero padding of `x`. -/
abbrev W4 : Dev nD → Valuation τ sig (Elt F) := fun c => StableHlo.after hostOps0_3 (W3 m c)
abbrev W5 : Dev nD → Valuation τ sig (Elt F) := fun c => StableHlo.after hostOps0_4 (W4 m c)
/-- After the padding of `batch` with -1. -/
abbrev W6 : Dev nD → Valuation τ sig (Elt F) := fun c => StableHlo.after hostOps0_5 (W5 m c)
/-- After its reshape to one row: region 0's entry. -/
abbrev W7 : Dev nD → Valuation τ sig (Elt F) := fun c => StableHlo.after hostOps0_6 (W6 m c)
abbrev V7 : (c : Dev nD) → (b : Ref sig .tc) → Buf (Elt F) ((c : Thread nD τ).loc b) := atTc (W7 m)

/-- At region 0's exit. -/
def W8 (c : Dev nD) : Valuation τ sig (Elt F) :=
  Pipeline.withArrays spec0 c (W7 m c) fun w => (dat0 (V7 m) c).arrAt w cfg0.N
theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
abbrev V8 : (c : Dev nD) → (b : Ref sig .tc) → Buf (Elt F) ((c : Thread nD τ).loc b) := atTc (W8 m)
theorem hF0 (c : Dev nD) (w : Fin cfg0.W) : (dat0 (V7 m) c).arrAt w cfg0.N = V8 m c (Pipeline.arrRef spec0 w) :=
  (W8_arr m c w).symm
theorem hrest0 (c : Dev nD) : ∀ b, b ∉ Finset.univ.image (Pipeline.arrRef spec0) → V8 m c b = V7 m c b :=
  fun b hb => W8_of_ne m c b fun w e => hb (Finset.mem_image.mpr ⟨w, Finset.mem_univ _, e⟩)

abbrev W9 : Dev nD → Valuation τ sig (Elt F) := fun c => StableHlo.after hostOps1 (W8 m c)
/-- After the zero padding of `edge_attr`. -/
abbrev W10 : Dev nD → Valuation τ sig (Elt F) := fun c => StableHlo.after hostOps1_1 (W9 m c)
abbrev W11 : Dev nD → Valuation τ sig (Elt F) := fun c => StableHlo.after hostOps1_2 (W10 m c)
/-- After the padding of the source nodes' graph ids with -1. -/
abbrev W12 : Dev nD → Valuation τ sig (Elt F) := fun c => StableHlo.after hostOps1_3 (W11 m c)
/-- After its reshape to one row: region 1's entry. -/
abbrev W13 : Dev nD → Valuation τ sig (Elt F) := fun c => StableHlo.after hostOps1_4 (W12 m c)
abbrev V13 : (c : Dev nD) → (b : Ref sig .tc) → Buf (Elt F) ((c : Thread nD τ).loc b) := atTc (W13 m)

/-- At region 1's exit. -/
def W14 (c : Dev nD) : Valuation τ sig (Elt F) :=
  Pipeline.withArrays spec1 c (W13 m c) fun w => (dat1 (V13 m) c).arrAt w cfg1.N
theorem W14_arr (c : Dev nD) (w : Fin cfg1.W) :
    W14 m c (Proc.devRef .tc (Pipeline.arrRef spec1 w)) = (dat1 (V13 m) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m c (Proc.devRef .tc b) = W13 m c (Proc.devRef .tc b) := by
  unfold W14; exact Pipeline.withArrays_of_ne spec1 c _ _ b hb
abbrev V14 : (c : Dev nD) → (b : Ref sig .tc) → Buf (Elt F) ((c : Thread nD τ).loc b) := atTc (W14 m)
theorem hF1 (c : Dev nD) (w : Fin cfg1.W) : (dat1 (V13 m) c).arrAt w cfg1.N = V14 m c (Pipeline.arrRef spec1 w) :=
  (W14_arr m c w).symm
theorem hrest1 (c : Dev nD) : ∀ b, b ∉ Finset.univ.image (Pipeline.arrRef spec1) → V14 m c b = V13 m c b :=
  fun b hb => W14_of_ne m c b fun w e => hb (Finset.mem_image.mpr ⟨w, Finset.mem_univ _, e⟩)

/-- After the reshape of the bias to one row: region 2's entry. -/
abbrev W15 : Dev nD → Valuation τ sig (Elt F) := fun c => StableHlo.after hostOps2 (W14 m c)
abbrev V15 : (c : Dev nD) → (b : Ref sig .tc) → Buf (Elt F) ((c : Thread nD τ).loc b) := atTc (W15 m)

/-- At region 2's exit: the end of @main. -/
def W16 (c : Dev nD) : Valuation τ sig (Elt F) :=
  Pipeline.withArrays spec2 c (W15 m c) fun w => (dat2 (V15 m) c).arrAt w cfg2.N
theorem W16_arr (c : Dev nD) (w : Fin cfg2.W) :
    W16 m c (Proc.devRef .tc (Pipeline.arrRef spec2 w)) = (dat2 (V15 m) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m c (Proc.devRef .tc b) = W15 m c (Proc.devRef .tc b) := by
  unfold W16; exact Pipeline.withArrays_of_ne spec2 c _ _ b hb
abbrev V16 : (c : Dev nD) → (b : Ref sig .tc) → Buf (Elt F) ((c : Thread nD τ).loc b) := atTc (W16 m)
theorem hF2 (c : Dev nD) (w : Fin cfg2.W) : (dat2 (V15 m) c).arrAt w cfg2.N = V16 m c (Pipeline.arrRef spec2 w) :=
  (W16_arr m c w).symm
theorem hrest2 (c : Dev nD) : ∀ b, b ∉ Finset.univ.image (Pipeline.arrRef spec2) → V16 m c b = V15 m c b :=
  fun b hb => W16_of_ne m c b fun w e => hb (Finset.mem_image.mpr ⟨w, Finset.mem_univ _, e⟩)

end Cert.KernelIdeal.H

end
-- ==== Proof.KI.Launch.lean ====
/-
  The launch of the kernel program. Its main function is sixteen items run one after another on each core:
  thirteen stretches of host operations and three kernel regions. Between two items a core holds every
  unscoped buffer whole at the contents the fold names (`W0 … W16`), its generator register at some state, and
  owes nothing. A stretch of host operations moves the buffers from one boundary's contents to the next by applying
  its operations; a region takes its operands' arrays out of the unscoped buffers, runs its pipeline from its
  invariant's first point to its last, and puts the arrays back at what the write-backs left. The several-regions
  launch theorem composes the sixteen: every weakly fair execution from the launch memory terminates, and the
  final memory holds every unscoped buffer at `W16`. Read at the seven argument arrays, `W16` is the launch
  memory: no host operation writes an argument, and a region either does not touch it or reads it through an
  input window, which its write-backs leave as entered.
-/
import proofs.«414828_j70153995813297_1_alg».proof.Proof.KI.Fold
import proofs.«414828_j70153995813297_1_alg».proof.Proof.Gen.KernelIdeal.Regions

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A buffer an item does not write is carried through it

A stretch of host operations changes only the buffers its operations write; a region changes only its operands'
arrays. The three lemmas walk a reference that none of them writes back from a region's entry to the previous
region's exit (or to the launch). -/

/-- From region 0's entry back to the launch, through the seven stretches before it. -/
theorem W7_back (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) :
    W7 m c (Proc.devRef .tc r) = m ((c : Thread nD τ).loc r) :=
  (StableHlo.after_of_writes_sub hostOps0_6 _ hostOps0_6_writes h6).trans <|
  (StableHlo.after_of_writes_sub hostOps0_5 _ hostOps0_5_writes h5).trans <|
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

/-- From region 1's entry back to region 0's exit, through the five stretches between them. -/
theorem W13_back (c : Dev nD) (r : Ref sig .tc) (h0 : r ∉ hostOps1_W) (h1 : r ∉ hostOps1_1_W) (h2 : r ∉ hostOps1_2_W)
    (h3 : r ∉ hostOps1_3_W) (h4 : r ∉ hostOps1_4_W) :
    W13 m c (Proc.devRef .tc r) = W8 m c (Proc.devRef .tc r) :=
  (StableHlo.after_of_writes_sub hostOps1_4 _ hostOps1_4_writes h4).trans <|
  (StableHlo.after_of_writes_sub hostOps1_3 _ hostOps1_3_writes h3).trans <|
  (StableHlo.after_of_writes_sub hostOps1_2 _ hostOps1_2_writes h2).trans <|
  (StableHlo.after_of_writes_sub hostOps1_1 _ hostOps1_1_writes h1).trans <|
  (StableHlo.after_of_writes_sub hostOps1 _ hostOps1_writes h0)

/-- From region 2's entry back to the launch, for a reference that no stretch writes and that is no operand of
    region 0 or region 1. -/
theorem W15_back (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W)
    (hr0 : ∀ w, Pipeline.arrRef spec0 w ≠ r)
    (h8 : r ∉ hostOps1_W) (h9 : r ∉ hostOps1_1_W) (h10 : r ∉ hostOps1_2_W) (h11 : r ∉ hostOps1_3_W) (h12 : r ∉ hostOps1_4_W)
    (hr1 : ∀ w, Pipeline.arrRef spec1 w ≠ r) (h14 : r ∉ hostOps2_W) :
    W15 m c (Proc.devRef .tc r) = m ((c : Thread nD τ).loc r) :=
  (StableHlo.after_of_writes_sub hostOps2 _ hostOps2_writes h14).trans <|
  (W14_of_ne m c r hr1).trans <|
  (W13_back m c r h8 h9 h10 h11 h12).trans <|
  (W8_of_ne m c r hr0).trans <|
  W7_back m c r h0 h1 h2 h3 h4 h5 h6

/-! ## The arguments end as launched -/

/-- An argument no region has as an operand: region 2 leaves it as entered, and the walk back reaches the launch. -/
theorem W16_main_arg0 (c : Dev nD) : W16 m c (Proc.devRef .tc main_arg0) = m ((c : Thread nD τ).loc main_arg0) :=
  (W16_of_ne m c main_arg0 (by decide)).trans
    (W15_back m c main_arg0 (by decide) (by decide) (by decide) (by decide) (by decide) (by decide) (by decide) (by decide)
      (by decide) (by decide) (by decide) (by decide) (by decide) (by decide) (by decide))
theorem W16_main_arg1 (c : Dev nD) : W16 m c (Proc.devRef .tc main_arg1) = m ((c : Thread nD τ).loc main_arg1) :=
  (W16_of_ne m c main_arg1 (by decide)).trans
    (W15_back m c main_arg1 (by decide) (by decide) (by decide) (by decide) (by decide) (by decide) (by decide) (by decide)
      (by decide) (by decide) (by decide) (by decide) (by decide) (by decide) (by decide))
theorem W16_main_arg2 (c : Dev nD) : W16 m c (Proc.devRef .tc main_arg2) = m ((c : Thread nD τ).loc main_arg2) :=
  (W16_of_ne m c main_arg2 (by decide)).trans
    (W15_back m c main_arg2 (by decide) (by decide) (by decide) (by decide) (by decide) (by decide) (by decide) (by decide)
      (by decide) (by decide) (by decide) (by decide) (by decide) (by decide) (by decide))
/-- The globals are region 2's third input: its array after the write-backs is the array as entered. -/
theorem W16_main_arg3 (c : Dev nD) : W16 m c (Proc.devRef .tc main_arg3) = m ((c : Thread nD τ).loc main_arg3) :=
  ((W16_arr m c 2).trans (((dat2 (V15 m) c).arrAt_in 2 rfl _).trans (A_eq2 (V15 m) c 2))).trans
    (W15_back m c main_arg3 (by decide) (by decide) (by decide) (by decide) (by decide) (by decide) (by decide) (by decide)
      (by decide) (by decide) (by decide) (by decide) (by decide) (by decide) (by decide))
theorem W16_main_arg4 (c : Dev nD) : W16 m c (Proc.devRef .tc main_arg4) = m ((c : Thread nD τ).loc main_arg4) :=
  (W16_of_ne m c main_arg4 (by decide)).trans
    (W15_back m c main_arg4 (by decide) (by decide) (by decide) (by decide) (by decide) (by decide) (by decide) (by decide)
      (by decide) (by decide) (by decide) (by decide) (by decide) (by decide) (by decide))
/-- The weights are region 2's fourth input. -/
theorem W16_main_arg5 (c : Dev nD) : W16 m c (Proc.devRef .tc main_arg5) = m ((c : Thread nD τ).loc main_arg5) :=
  ((W16_arr m c 3).trans (((dat2 (V15 m) c).arrAt_in 3 rfl _).trans (A_eq2 (V15 m) c 3))).trans
    (W15_back m c main_arg5 (by decide) (by decide) (by decide) (by decide) (by decide) (by decide) (by decide) (by decide)
      (by decide) (by decide) (by decide) (by decide) (by decide) (by decide) (by decide))
/-- The bias is read by the last stretch (its reshape to one row) and written by none. -/
theorem W16_main_arg6 (c : Dev nD) : W16 m c (Proc.devRef .tc main_arg6) = m ((c : Thread nD τ).loc main_arg6) :=
  (W16_of_ne m c main_arg6 (by decide)).trans
    (W15_back m c main_arg6 (by decide) (by decide) (by decide) (by decide) (by decide) (by decide) (by decide) (by decide)
      (by decide) (by decide) (by decide) (by decide) (by decide) (by decide) (by decide))

/-! ## The proof data of the three pipelines and the thread state -/

/-- Every pipeline's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (V7 m) c
  | ⟨1, _⟩ => fun c => dat1 (V13 m) c
  | ⟨2, _⟩ => fun c => dat2 (V15 m) c

/-- No core owes another anything: no level is assigned. -/
abbrev L : GSem nD τ sig → Finset Unit := fun _ => ∅
abbrev lv : GSem nD τ sig → Unit → ℕ := fun _ _ => 0

/-- Every unscoped buffer of core `c`, whole, at the valuation `W c`. -/
abbrev bufsAt (W : Dev nD → Valuation τ sig (Elt F)) (c : Dev nD) : sProp 𝕄 :=
  StableHlo.held (c : Thread nD τ) (Pipeline.ucRefs τ sig) (W c)
/-- The core's generator register at some state. -/
abbrev prng (c : Dev nD) : sProp 𝕄 := iprop(∃ r, prngReg c r)
/-- The core owes nothing. -/
abbrev owesNothing (c : Dev nD) : sProp 𝕄 := iprop(∃ W, owes (c : Thread nD τ) (0 : CellTallies nD τ sig Unit) W)
/-- What rides beside the buffers through every item: the generator register (a region's invariant takes it in and
    gives it back) and the core owing nothing. -/
abbrev R (c : Dev nD) : sProp 𝕄 := iprop(prng c ∗ owesNothing c)

/-- A stretch of host operations as a segment: over the unscoped references, from the contents `W` to the contents
    after the operations, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without what the core owes: every unscoped buffer at `W16`, the generator register. -/
abbrev Tₙ (c : Dev nD) : sProp 𝕄 := iprop(bufsAt (W16 m) c ∗ prng c)

/-! ## What a region's four entailments are made of -/

/-- Owing nothing is holding the proof data's tallies at a point where they are zero and no recorded pair is
    excluded. -/
theorem owesAt_of_nothing {cfg : Cfg sig Λ₀} {c : Dev nD} (dat : Dat τ (Elt F) Unit ℕ (UR sig nD τ) ℕ cfg c) (t : Fin (cfg.N + 1))
    (ho : dat.owed t = 0) (hr : dat.recorded t = Set.univ) : (owesNothing c : sProp 𝕄) ⊢ dat.owesAt () t := by
  unfold Pipeline.Dat.owesAt Pipeline.owesWithin
  rw [ho]
  iintro ⟨%W, HO⟩
  iexists W
  isplitr
  · ipureintro
    intro x _
    exact Or.inl (hr ▸ Set.mem_univ x)
  iexact HO

/-- And back: the tallies at a point where they are zero, whatever was recorded, are the core owing nothing. -/
theorem nothing_of_owesAt {cfg : Cfg sig Λ₀} {c : Dev nD} (dat : Dat τ (Elt F) Unit ℕ (UR sig nD τ) ℕ cfg c) (t : Fin (cfg.N + 1))
    (ho : dat.owed t = 0) : dat.owesAt () t ⊢ (owesNothing c : sProp 𝕄) := by
  unfold Pipeline.Dat.owesAt Pipeline.owesWithin
  rw [ho]
  iintro ⟨%W, -, HO⟩
  iexists W
  iexact HO

/-- A kernel with no prefetched table holds its tables for nothing. -/
theorem prefHeld_of_none (pre : Pipeline.Prefetch sig) (h : pre.K = 0) (c : Dev nD) (q : Fin pre.K → PosShare TreeShare)
    (v : pre.Contents (Elt F)) : (BI.emp : sProp 𝕄) ⊢ Pipeline.prefHeld pre c q v := by
  haveI : IsEmpty (Fin pre.K) := by rw [h]; infer_instance
  unfold Pipeline.prefHeld
  rw [Finset.univ_eq_empty, BI.bigSep_empty]

/-- The class's invariant is the scoped buffers no window stages beside the generator register: assembled from the
    register, anything at all (dropped), and those buffers. -/
theorem classInv_in {gr W : ℕ} (win : Fin W → Pipeline.WinSpec sig gr) (c : Dev nD) (T : sProp 𝕄) :
    iprop(prng c ∗ T ∗ Pipeline.scopedRest win c) ⊢ (Pipeline.ΦA win c : sProp 𝕄) := by
  unfold Pipeline.ΦA
  iintro ⟨Hprng, -, Hsc⟩
  isplitl [Hsc]; · iexact Hsc
  iexact Hprng

/-- And taken apart again. -/
theorem classInv_out {gr W : ℕ} (win : Fin W → Pipeline.WinSpec sig gr) (c : Dev nD) :
    (Pipeline.ΦA win c : sProp 𝕄) ⊢ iprop(prng c ∗ BI.emp ∗ Pipeline.scopedRest win c) := by
  unfold Pipeline.ΦA
  iintro ⟨Hsc, Hprng⟩
  isplitl [Hprng]; · iexact Hprng
  isplitr; · iempintro
  iexact Hsc

set_option backward.isDefEq.respectTransparency.types false in
/-- Region 0's entry: every unscoped buffer at `W7` is its operands' arrays as entered beside the other buffers. -/
theorem enter0 (c : Dev nD) :
    (bufsAt (W7 m) c : sProp 𝕄)
      ⊢ iprop((pdats m 0 c).arrays ((pdats m 0 c).arrAt · 0)
          ∗ Pipeline.unscopedRest (Ix := Unit) (Name := ℕ) (U := UR sig nD τ) (Lvl := ℕ) spec0 c (V7 m c)) := by
  have h := Pipeline.arrays_of_unscopedBufs (p := 0) (pcfgs (F := F)) adm (pdats m) launch0.win launch0.arr_whole c
    ((pdats m 0 c).share_full fun _ => rfl) (V7 m c) fun _ => rfl
  rw [Pipeline.unscopedBufs_held] at h
  exact h

set_option backward.isDefEq.respectTransparency.types false in
/-- Region 0's exit: its operands' arrays at what the write-backs left, beside the other buffers as entered, are
    every unscoped buffer at `W8`. -/
theorem leave0 (c : Dev nD) :
    iprop((pdats m 0 c).arrays ((pdats m 0 c).arrAt · cfg0.N)
        ∗ Pipeline.unscopedRest (Ix := Unit) (Name := ℕ) (U := UR sig nD τ) (Lvl := ℕ) spec0 c (V7 m c))
      ⊢ (bufsAt (W8 m) c : sProp 𝕄) := by
  have h := Pipeline.unscopedBufs_of_arrays (p := 0) (pcfgs (F := F)) adm (Ix := Unit) (Name := ℕ) (U := UR sig nD τ) (Lvl := ℕ)
    launch0.win launch0.arr_whole c (pdats m) ((pdats m 0 c).share_full fun _ => rfl)
    (V7 m c) (V8 m c) ((pdats m 0 c).arrAt · cfg0.N) (hF0 m c) (hrest0 m c)
  rw [Pipeline.unscopedBufs_held] at h
  exact h

set_option backward.isDefEq.respectTransparency.types false in
/-- Region 1's entry: every unscoped buffer at `W13` is its operands' arrays as entered beside the other buffers. -/
theorem enter1 (c : Dev nD) :
    (bufsAt (W13 m) c : sProp 𝕄)
      ⊢ iprop((pdats m 1 c).arrays ((pdats m 1 c).arrAt · 0)
          ∗ Pipeline.unscopedRest (Ix := Unit) (Name := ℕ) (U := UR sig nD τ) (Lvl := ℕ) spec1 c (V13 m c)) := by
  have h := Pipeline.arrays_of_unscopedBufs (p := 1) (pcfgs (F := F)) adm (pdats m) launch1.win launch1.arr_whole c
    ((pdats m 1 c).share_full fun _ => rfl) (V13 m c) fun _ => rfl
  rw [Pipeline.unscopedBufs_held] at h
  exact h

set_option backward.isDefEq.respectTransparency.types false in
/-- Region 1's exit: its operands' arrays at what the write-backs left, beside the other buffers as entered, are
    every unscoped buffer at `W14`. -/
theorem leave1 (c : Dev nD) :
    iprop((pdats m 1 c).arrays ((pdats m 1 c).arrAt · cfg1.N)
        ∗ Pipeline.unscopedRest (Ix := Unit) (Name := ℕ) (U := UR sig nD τ) (Lvl := ℕ) spec1 c (V13 m c))
      ⊢ (bufsAt (W14 m) c : sProp 𝕄) := by
  have h := Pipeline.unscopedBufs_of_arrays (p := 1) (pcfgs (F := F)) adm (Ix := Unit) (Name := ℕ) (U := UR sig nD τ) (Lvl := ℕ)
    launch1.win launch1.arr_whole c (pdats m) ((pdats m 1 c).share_full fun _ => rfl)
    (V13 m c) (V14 m c) ((pdats m 1 c).arrAt · cfg1.N) (hF1 m c) (hrest1 m c)
  rw [Pipeline.unscopedBufs_held] at h
  exact h

set_option backward.isDefEq.respectTransparency.types false in
/-- Region 2's entry: every unscoped buffer at `W15` is its operands' arrays as entered beside the other buffers. -/
theorem enter2 (c : Dev nD) :
    (bufsAt (W15 m) c : sProp 𝕄)
      ⊢ iprop((pdats m 2 c).arrays ((pdats m 2 c).arrAt · 0)
          ∗ Pipeline.unscopedRest (Ix := Unit) (Name := ℕ) (U := UR sig nD τ) (Lvl := ℕ) spec2 c (V15 m c)) := by
  have h := Pipeline.arrays_of_unscopedBufs (p := 2) (pcfgs (F := F)) adm (pdats m) launch2.win launch2.arr_whole c
    ((pdats m 2 c).share_full fun _ => rfl) (V15 m c) fun _ => rfl
  rw [Pipeline.unscopedBufs_held] at h
  exact h

set_option backward.isDefEq.respectTransparency.types false in
/-- Region 2's exit: its operands' arrays at what the write-backs left, beside the other buffers as entered, are
    every unscoped buffer at `W16`. -/
theorem leave2 (c : Dev nD) :
    iprop((pdats m 2 c).arrays ((pdats m 2 c).arrAt · cfg2.N)
        ∗ Pipeline.unscopedRest (Ix := Unit) (Name := ℕ) (U := UR sig nD τ) (Lvl := ℕ) spec2 c (V15 m c))
      ⊢ (bufsAt (W16 m) c : sProp 𝕄) := by
  have h := Pipeline.unscopedBufs_of_arrays (p := 2) (pcfgs (F := F)) adm (Ix := Unit) (Name := ℕ) (U := UR sig nD τ) (Lvl := ℕ)
    launch2.win launch2.arr_whole c (pdats m) ((pdats m 2 c).share_full fun _ => rfl)
    (V15 m c) (V16 m c) ((pdats m 2 c).arrAt · cfg2.N) (hF2 m c) (hrest2 m c)
  rw [Pipeline.unscopedBufs_held] at h
  exact h

/-! ## The regions as segments -/

set_option backward.isDefEq.respectTransparency.types false in
/-- Region 0 as a segment: entered from every unscoped buffer at `W7`, left at `W8`. The operands' arrays go
    through the pipeline, the other buffers around it; the generator register goes into the invariant and comes back;
    nothing is owed before or after; the kernel has no semaphore of its own and no prefetched table.
    The invariant's first point is reached from the class's invariant and its last point gives the class's back
    (the scratch accumulator's named contents are the region's own business). -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (V7 m) c).loose
  hwaits := Pipeline.hwaits_of_owed_zero _ _ _ _ L lv 0 fun _ _ => rfl
  pre c := iprop(bufsAt (W7 m) c ∗ R c)
  post c := iprop(bufsAt (W8 m) c ∗ R c)
  X c := prng c
  Y c := prng c
  Z c := Pipeline.unscopedRest (Ix := Unit) (Name := ℕ) (U := UR sig nD τ) (Lvl := ℕ) spec0 c (V7 m c)
  hentry c := by
    iintro ⟨⟨Hbufs, Hprng, Howes⟩, -, -⟩
    imodintro
    ihave Hsplit := (enter0 m c) $$ Hbufs
    icases Hsplit with ⟨Harr, Hrest⟩
    isplitl [Harr]; · iexact Harr
    isplitr; · iapply (prefHeld_of_none _ rfl c _ _); iempintro
    isplitl [Howes]; · iapply (owesAt_of_nothing (pdats m 0 c) 0 rfl rfl); iexact Howes
    isplitl [Hprng]; · iexact Hprng
    iexact Hrest
  hin c := (classInv_in spec0 c _).trans (hin0 (V7 m) c)
  hout c := by
    rw [Pipeline.ownSems0_none]
    exact (hout0 (V7 m) c).trans (classInv_out spec0 c)
  hexit c := by
    iintro ⟨Harr, Howes, Hprng, Hrest⟩
    imodintro
    isplitl [Harr Hrest]
    · iapply (leave0 m c); isplitl [Harr]; · iexact Harr
      iexact Hrest
    isplitl [Hprng]; · iexact Hprng
    iapply (nothing_of_owesAt (pdats m 0 c) (Fin.last _) rfl); iexact Howes

set_option backward.isDefEq.respectTransparency.types false in
/-- Region 1 as a segment: entered from every unscoped buffer at `W13`, left at `W14`. The operands' arrays go
    through the pipeline, the other buffers around it; the generator register goes into the invariant and comes back;
    nothing is owed before or after; the kernel has no semaphore of its own and no prefetched table.
    The invariant's first point is reached from the class's invariant and its last point gives the class's back
    (the scratch accumulator's named contents are the region's own business). -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (V13 m) c).loose
  hwaits := Pipeline.hwaits_of_owed_zero _ _ _ _ L lv 1 fun _ _ => rfl
  pre c := iprop(bufsAt (W13 m) c ∗ R c)
  post c := iprop(bufsAt (W14 m) c ∗ R c)
  X c := prng c
  Y c := prng c
  Z c := Pipeline.unscopedRest (Ix := Unit) (Name := ℕ) (U := UR sig nD τ) (Lvl := ℕ) spec1 c (V13 m c)
  hentry c := by
    iintro ⟨⟨Hbufs, Hprng, Howes⟩, -, -⟩
    imodintro
    ihave Hsplit := (enter1 m c) $$ Hbufs
    icases Hsplit with ⟨Harr, Hrest⟩
    isplitl [Harr]; · iexact Harr
    isplitr; · iapply (prefHeld_of_none _ rfl c _ _); iempintro
    isplitl [Howes]; · iapply (owesAt_of_nothing (pdats m 1 c) 0 rfl rfl); iexact Howes
    isplitl [Hprng]; · iexact Hprng
    iexact Hrest
  hin c := (classInv_in spec1 c _).trans (hin1 (V13 m) c)
  hout c := by
    rw [Pipeline.ownSems0_none]
    exact (hout1 (V13 m) c).trans (classInv_out spec1 c)
  hexit c := by
    iintro ⟨Harr, Howes, Hprng, Hrest⟩
    imodintro
    isplitl [Harr Hrest]
    · iapply (leave1 m c); isplitl [Harr]; · iexact Harr
      iexact Hrest
    isplitl [Hprng]; · iexact Hprng
    iapply (nothing_of_owesAt (pdats m 1 c) (Fin.last _) rfl); iexact Howes

set_option backward.isDefEq.respectTransparency.types false in
/-- Region 2 as a segment: entered from every unscoped buffer at `W15`, left at `W16`. The operands' arrays go
    through the pipeline, the other buffers around it; the generator register goes into the invariant and comes back;
    nothing is owed before or after; the kernel has no semaphore of its own and no prefetched table.
    The invariant is the class's at its one point. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (V15 m) c).loose
  hwaits := Pipeline.hwaits_of_owed_zero _ _ _ _ L lv 2 fun _ _ => rfl
  pre c := iprop(bufsAt (W15 m) c ∗ R c)
  post c := iprop(Tₙ m c ∗ owesNothing c)
  X c := prng c
  Y c := prng c
  Z c := Pipeline.unscopedRest (Ix := Unit) (Name := ℕ) (U := UR sig nD τ) (Lvl := ℕ) spec2 c (V15 m c)
  hentry c := by
    iintro ⟨⟨Hbufs, Hprng, Howes⟩, -, -⟩
    imodintro
    ihave Hsplit := (enter2 m c) $$ Hbufs
    icases Hsplit with ⟨Harr, Hrest⟩
    isplitl [Harr]; · iexact Harr
    isplitr; · iapply (prefHeld_of_none _ rfl c _ _); iempintro
    isplitl [Howes]; · iapply (owesAt_of_nothing (pdats m 2 c) 0 rfl rfl); iexact Howes
    isplitl [Hprng]; · iexact Hprng
    iexact Hrest
  hin c := classInv_in spec2 c _
  hout c := by
    rw [Pipeline.ownSems0_none]
    exact classInv_out spec2 c
  hexit c := by
    iintro ⟨Harr, Howes, Hprng, Hrest⟩
    imodintro
    isplitr [Howes]
    · isplitl [Harr Hrest]
      · iapply (leave2 m c); isplitl [Harr]; · iexact Harr
        iexact Hrest
      iexact Hprng
    iapply (nothing_of_owesAt (pdats m 2 c) (Fin.last _) rfl); iexact Howes

/-! ## The main function as segments, and the launch -/

/-- The sixteen items in order: a host segment per stretch, from its boundary's contents; a region per kernel call. -/
abbrev segs : List (Pipeline.Seg (pcfgs (F := F)) adm (pdats m) () defs₀ Variants.none L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .host (hseg hostOps1 hostOps1_sub hostOps1_fresh (W8 m)),
    .host (hseg hostOps1_1 hostOps1_1_sub hostOps1_1_fresh (W9 m)),
    .host (hseg hostOps1_2 hostOps1_2_sub hostOps1_2_fresh (W10 m)),
    .host (hseg hostOps1_3 hostOps1_3_sub hostOps1_3_fresh (W11 m)),
    .host (hseg hostOps1_4 hostOps1_4_sub hostOps1_4_fresh (W12 m)),
    .region (reg1 m),
    .host (hseg hostOps2 hostOps2_sub hostOps2_fresh (W14 m)),
    .region (reg2 m) ]

/-- The main function is the run of the segments: it is the chain of its sixteen items, and the segments' run is
    the chain of their programs, which are those items. -/
theorem main_run (c : Dev nD) : main (F := F) c = Pipeline.Seg.run (segs m) := by
  rw [main_chain c, Pipeline.Seg.run_eq_chain]
  rfl

set_option backward.isDefEq.respectTransparency.types false in
/-- THE RUN. From any memory with zero counters, every weakly fair execution of the main function on the TensorCores
    terminates, nothing faulting, and the final memory holds every unscoped buffer at `W16`: the launch makes the
    first thread state on each core, the sixteen segments chain from it to the last, and the last is read against
    the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W16 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [BI.bigSep_emp_const]
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(bufsAt (W0 m) c ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl⟩)
    (hinit := by
      refine Pipeline.initEach L lv fun c => ?_
      rw [show unscopedBufs c (fun b => m ((c : Thread nD τ).loc b)) = bufsAt (W0 m) c
        from Pipeline.unscopedBufs_held c (W0 m c)]
      iintro ⟨⟨Hbufs, -, Howes, -, Hprng, -⟩, -⟩
      imodintro
      isplitl [Hbufs]; · iexact Hbufs
      isplitl [Hprng]; · iexists _; iexact Hprng
      iexists ∅; iexact Howes)
    (QY := fun c s => ∀ b ∈ Pipeline.ucRefs τ sig, s.mem ((c : Thread nD τ).1, b) = W16 m c b)
    (hfin := fun c s' => by
      iintro ⟨⟨Hbufs, -⟩, HSI⟩
      unfold bufsAt StableHlo.held
      imodintro
      iapply (pointsTo_read_all (Pipeline.ucRefs τ sig) (fun b => ((c : Thread nD τ).1, b)) (W16 m c) s')
      isplitl [Hbufs] <;> iassumption)
    (hQ := fun _ h => h)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W16_main_arg0 m c),
      (h c _ (mem_uc main_arg1 (by decide))).trans (W16_main_arg1 m c),
      (h c _ (mem_uc main_arg2 (by decide))).trans (W16_main_arg2 m c),
      (h c _ (mem_uc main_arg3 (by decide))).trans (W16_main_arg3 m c),
      (h c _ (mem_uc main_arg4 (by decide))).trans (W16_main_arg4 m c),
      (h c _ (mem_uc main_arg5 (by decide))).trans (W16_main_arg5 m c),
      (h c _ (mem_uc main_arg6 (by decide))).trans (W16_main_arg6 m c)⟩) (run_all m ρ)

/-- The run's result beside the frame: the output array ends at what region 2's write-back left, and every argument
    array at its launch contents. -/
theorem run_result : θ_run defs (onTc (τ := τ) (main (F := F))) ⟨m, fun _ => 0, ρ⟩ (fun r => ∀ c : Dev nD,
      r.2.mem ((c.tc : Thread nD τ).loc main_v12) = W16 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v12 (by decide)),
      (h c _ (mem_uc main_arg0 (by decide))).trans (W16_main_arg0 m c),
      (h c _ (mem_uc main_arg1 (by decide))).trans (W16_main_arg1 m c),
      (h c _ (mem_uc main_arg2 (by decide))).trans (W16_main_arg2 m c),
      (h c _ (mem_uc main_arg3 (by decide))).trans (W16_main_arg3 m c),
      (h c _ (mem_uc main_arg4 (by decide))).trans (W16_main_arg4 m c),
      (h c _ (mem_uc main_arg5 (by decide))).trans (W16_main_arg5 m c),
      (h c _ (mem_uc main_arg6 (by decide))).trans (W16_main_arg6 m c)⟩) (run_all m ρ)

end Cert.KernelIdeal.H

end
-- ==== Proof.Spec.lean ====
/-
  The function both programs compute, index by index on the extended reals.

  `segSum ids feat` adds up, for each of the 256 segment numbers `g`, the rows `r` of `feat` whose id is `g`
  (an id that is no segment number is met by no `g` and its row is dropped). The node sum takes the rows of `x`
  with the ids `batch`; the edge sum takes the rows of `edge_attr` with, for edge `e`, the id of its source node,
  `batch[edge_index[0, e]]`. The result is `max (node·W[0:32] + edge·W[32:64] + u·W[64:96] + b) 0`, the three
  products being the three row bands of one 96-row weight matrix.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr2 (a b : ℕ) : Type := (⟨2, ![a, b]⟩ : Shape).Idx → EReal
/-- A rank-1 array of extended reals. -/
abbrev Arr1 (a : ℕ) : Type := (⟨1, ![a]⟩ : Shape).Idx → EReal

/-- For each segment number `g < 256` and feature `d`: the sum over the rows `r` whose id is `g` of `feat r d`. -/
def segSum {n : ℕ} (ids : Fin n → BitVec 32) (feat : Arr2 n 32) : Arr2 256 32 :=
  fun j => ∑ r : Fin n, if (ids r).toInt = ((j 0).val : ℤ) then feat (ix2 r (j 1)) else 0

/-- The graph id of edge `e`'s source node: `batch` read at the node number `edge_index[0, e]` (a node number below
    100000 is read as it is). -/
def srcId (batch : (⟨1, ![100000]⟩ : Shape).Idx → BitVec 32) (ei : (⟨2, ![2, 1600000]⟩ : Shape).Idx → BitVec 32) :
    Fin 1600000 → BitVec 32 :=
  fun e => batch (ix1 ⟨(ei (ix2 0 e)).toNat % 100000, Nat.mod_lt _ (by decide)⟩)

/-- The projection: three 32-term products against the three row bands of `W`, the bias, the positive part. -/
def proj (node edge u : Arr2 256 32) (W : Arr2 96 32) (b : Arr1 32) : Arr2 256 32 :=
  fun j =>
    max ((((∑ k : Fin 32, node (ix2 (j 0) k) * W (ix2 (⟨k.val, by omega⟩ : Fin 96) (j 1)))
          + (∑ k : Fin 32, edge (ix2 (j 0) k) * W (ix2 (⟨32 + k.val, by omega⟩ : Fin 96) (j 1))))
          + (∑ k : Fin 32, u (ix2 (j 0) k) * W (ix2 (⟨64 + k.val, by omega⟩ : Fin 96) (j 1))))
          + b (ix1 (j 1))) 0

/-- The whole function of the seven inputs. -/
def G (x : Arr2 100000 32) (ei : (⟨2, ![2, 1600000]⟩ : Shape).Idx → BitVec 32) (ea : Arr2 1600000 32) (u : Arr2 256 32)
    (batch : (⟨1, ![100000]⟩ : Shape).Idx → BitVec 32) (W : Arr2 96 32) (b : Arr1 32) : Arr2 256 32 :=
  proj (segSum (fun r => batch (ix1 r)) x) (segSum (srcId batch ei) ea) u W b

end Cert.Spec

end
-- ==== Proof.KI.Arrays.lean ====
/-
  The arrays the value statements speak of, each named once at its literal type (extended reals for floats, 32-bit
  words for integers): the seven arguments read off the launch memory, and the operands of the two segment-sum
  regions and the bias row read off a region's entry contents.
-/
import proofs.«414828_j70153995813297_1_alg».proof.Proof.KI.Blocks
import proofs.«414828_j70153995813297_1_alg».proof.Proof.Spec

noncomputable section

namespace Cert.KernelIdeal.H

open Idealize.ShloMosaic Idealize.ShloMosaic.TcCoe
open Idealize.SL Idealize.SL.Sem
open Cert.KernelIdeal Cert.KernelIdeal.Gen

section Args
variable (m : (ℓ : Loc nD τ sig) → Buf (Elt Ideal) ℓ)

/-- `x`: the node features. -/
abbrev ax (c : Dev nD) : Cert.Spec.Arr2 100000 32 := m ((c.tc : Thread nD τ).loc main_arg0)
/-- `edge_index`. -/
abbrev aei (c : Dev nD) : (⟨2, ![2, 1600000]⟩ : Shape).Idx → BitVec 32 := m ((c.tc : Thread nD τ).loc main_arg1)
/-- `edge_attr`: the edge features. -/
abbrev aea (c : Dev nD) : Cert.Spec.Arr2 1600000 32 := m ((c.tc : Thread nD τ).loc main_arg2)
/-- `u`: the globals. -/
abbrev au (c : Dev nD) : Cert.Spec.Arr2 256 32 := m ((c.tc : Thread nD τ).loc main_arg3)
/-- `batch`: each node's graph id. -/
abbrev abatch (c : Dev nD) : (⟨1, ![100000]⟩ : Shape).Idx → BitVec 32 := m ((c.tc : Thread nD τ).loc main_arg4)
/-- `W`: the weights. -/
abbrev aW (c : Dev nD) : Cert.Spec.Arr2 96 32 := m ((c.tc : Thread nD τ).loc main_arg5)
/-- `b`: the bias. -/
abbrev ab (c : Dev nD) : Cert.Spec.Arr1 32 := m ((c.tc : Thread nD τ).loc main_arg6)
end Args

section Operands
variable (V : (c : Dev nD) → (b : Ref sig .tc) → Buf (Elt Ideal) ((c : Thread nD τ).loc b))

/-- Region 0's padded features (106496 × 32) and padded ids (1 × 106496). -/
abbrev featArr0 (c : Dev nD) : Cert.Spec.Arr2 106496 32 := V c main_v3
abbrev idsArr0 (c : Dev nD) : (⟨2, ![1, 106496]⟩ : Shape).Idx → BitVec 32 := V c main_v5
/-- Region 1's padded features (1605632 × 32) and padded ids (1 × 1605632). -/
abbrev featArr1 (c : Dev nD) : Cert.Spec.Arr2 1605632 32 := V c main_v7
abbrev idsArr1 (c : Dev nD) : (⟨2, ![1, 1605632]⟩ : Shape).Idx → BitVec 32 := V c main_v9
/-- Region 2's operands: the two segment sums, the globals, the weights, the bias as one row. -/
abbrev nodeArr (c : Dev nD) : Cert.Spec.Arr2 256 32 := V c main_v6
abbrev edgeArr (c : Dev nD) : Cert.Spec.Arr2 256 32 := V c main_v10
abbrev globArr (c : Dev nD) : Cert.Spec.Arr2 256 32 := V c main_arg3
abbrev wtsArr (c : Dev nD) : Cert.Spec.Arr2 96 32 := V c main_arg5
abbrev biasArr (c : Dev nD) : Cert.Spec.Arr2 1 32 := V c main_v11
end Operands

end Cert.KernelIdeal.H

end
-- ==== Proof.KI.ArrOut.lean ====
/-
  The arrays the three regions leave. Regions 0 and 1: the output window's block is the whole (256, 32) array at
  every point, and it is written back at the last point only, so the array ends at the accumulator after the last
  point. Region 2: one point, every window's block is its whole array, so each operand block is the operand's
  array and the result array ends at `out2` of the five operand arrays.
-/
import proofs.«414828_j70153995813297_1_alg».proof.Proof.KI.R0
import proofs.«414828_j70153995813297_1_alg».proof.Proof.KI.R1
import proofs.«414828_j70153995813297_1_alg».proof.Proof.KI.R2
import Idealize.ShloMosaic.Lib.Pipeline.Value

set_option maxRecDepth 16384

noncomputable section

namespace Cert.KernelIdeal.H

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-! ## Region 0 -/

/-- The last point of region 0. -/
abbrev tL0 : Fin cfg0.N := ⟨12, by decide⟩

/-- The one write-back, at the last point, writes the accumulator after it: the block at index (0, 0) of the
    (256, 32) array, read through zero offsets, is the array. -/
theorem flushed0_eq (c : Dev nD) (t : Fin cfg0.N) (hf : (cfg0.win 2).flush t = true) :
    (dat0 V c).flushed 2 t = ((cfg0.win 2).blk t).view.read (Elt F) (acc0 V c 12 (by decide)) := by
  have hN : cfg0.N = 13 := N_0
  have h1 : t.val = 12 := by have := (flush0_2 t).mp hf; have := t.isLt; omega
  obtain rfl : t = tL0 := Fin.ext h1
  show (cfg0.win 2).cut (grid0.coords tL0) ((dat0 V c).after 2 tL0) = _
  rw [after0_2]
  have hz' : (fun a => win0_2.index tL0 a * main_v6.ty.shape.size a) = fun _ => 0 := funext fun a => by fin_cases a <;> decide
  exact (Memref.read_access_unit_zero (Elt F) main_v6 hz' (fun a => by rw [congrFun hz' a]; simp) (acc0 V c 12 (by decide))).symm

theorem arrAt0_out (c : Dev nD) : (dat0 V c).arrAt 2 cfg0.N = acc0 V c 12 (by decide) :=
  (dat0 V c).arrAt_eq_of_cover 2 (acc0 V c 12 (by decide)) (flushed0_eq V c) fun i =>
    ⟨tL0, (flush0_2 tL0).mpr rfl, by
      show i ∈ ((View.whole main_v6).slice (win0_2.rect tL0)).set
      rw [View.set_slice_whole, Rect.mem_set_unit]
      intro a
      have h0 : (i 0 : Nat) < 256 := (i 0).isLt
      have h1 : (i 1 : Nat) < 32 := (i 1).isLt
      match a with
      | ⟨0, _⟩ => show win0_2.index tL0 0 * win0_2.size 0 ≤ (i 0 : Nat) ∧ (i 0 : Nat) < win0_2.index tL0 0 * win0_2.size 0 + win0_2.xsize (grid0.coords tL0) 0
                  rw [show win0_2.index tL0 0 * win0_2.size 0 = 0 from by decide +kernel, show win0_2.xsize (grid0.coords tL0) 0 = 256 from by decide +kernel]; omega
      | ⟨1, _⟩ => show win0_2.index tL0 1 * win0_2.size 1 ≤ (i 1 : Nat) ∧ (i 1 : Nat) < win0_2.index tL0 1 * win0_2.size 1 + win0_2.xsize (grid0.coords tL0) 1
                  rw [show win0_2.index tL0 1 * win0_2.size 1 = 0 from by decide +kernel, show win0_2.xsize (grid0.coords tL0) 1 = 32 from by decide +kernel]; omega⟩

/-! ## Region 1 -/

/-- The last point of region 1. -/
abbrev tL1 : Fin cfg1.N := ⟨195, by decide⟩

/-- The one write-back, at the last point, writes the accumulator after it. -/
theorem flushed1_eq (c : Dev nD) (t : Fin cfg1.N) (hf : (cfg1.win 2).flush t = true) :
    (dat1 V c).flushed 2 t = ((cfg1.win 2).blk t).view.read (Elt F) (acc1 V c 195 (by decide)) := by
  have hN : cfg1.N = 196 := N_1
  have h1 : t.val = 195 := by have := (flush1_2 t).mp hf; have := t.isLt; omega
  obtain rfl : t = tL1 := Fin.ext h1
  show (cfg1.win 2).cut (grid1.coords tL1) ((dat1 V c).after 2 tL1) = _
  rw [after1_2]
  have hz' : (fun a => win1_2.index tL1 a * main_v10.ty.shape.size a) = fun _ => 0 := funext fun a => by fin_cases a <;> decide +kernel
  exact (Memref.read_access_unit_zero (Elt F) main_v10 hz' (fun a => by rw [congrFun hz' a]; simp) (acc1 V c 195 (by decide))).symm

theorem arrAt1_out (c : Dev nD) : (dat1 V c).arrAt 2 cfg1.N = acc1 V c 195 (by decide) :=
  (dat1 V c).arrAt_eq_of_cover 2 (acc1 V c 195 (by decide)) (flushed1_eq V c) fun i =>
    ⟨tL1, (flush1_2 tL1).mpr rfl, by
      show i ∈ ((View.whole main_v10).slice (win1_2.rect tL1)).set
      rw [View.set_slice_whole, Rect.mem_set_unit]
      intro a
      have h0 : (i 0 : Nat) < 256 := (i 0).isLt
      have h1 : (i 1 : Nat) < 32 := (i 1).isLt
      match a with
      | ⟨0, _⟩ => show win1_2.index tL1 0 * win1_2.size 0 ≤ (i 0 : Nat) ∧ (i 0 : Nat) < win1_2.index tL1 0 * win1_2.size 0 + win1_2.xsize (grid1.coords tL1) 0
                  rw [show win1_2.index tL1 0 * win1_2.size 0 = 0 from by decide +kernel, show win1_2.xsize (grid1.coords tL1) 0 = 256 from by decide +kernel]; omega
      | ⟨1, _⟩ => show win1_2.index tL1 1 * win1_2.size 1 ≤ (i 1 : Nat) ∧ (i 1 : Nat) < win1_2.index tL1 1 * win1_2.size 1 + win1_2.xsize (grid1.coords tL1) 1
                  rw [show win1_2.index tL1 1 * win1_2.size 1 = 0 from by decide +kernel, show win1_2.xsize (grid1.coords tL1) 1 = 32 from by decide +kernel]; omega⟩

/-! ## Region 2 -/

/-- Each operand's block at the one point is the operand's array: the block at index (0, 0), of the array's own
    sizes, read through zero offsets. -/
theorem iblk2_whole_0 (c : Dev nD) (t : Fin cfg2.N) : iblk2 V c 0 t = V c main_v6 := by
  obtain rfl := fin_N2 t
  have hz' : (fun a => win2_0.index t2_0 a * main_v6.ty.shape.size a) = fun _ => 0 := funext fun a => by fin_cases a <;> decide
  exact Memref.read_access_unit_zero (Elt F) main_v6 hz' (fun a => by rw [congrFun hz' a]; simp) (V c main_v6)
theorem iblk2_whole_1 (c : Dev nD) (t : Fin cfg2.N) : iblk2 V c 1 t = V c main_v10 := by
  obtain rfl := fin_N2 t
  have hz' : (fun a => win2_1.index t2_0 a * main_v10.ty.shape.size a) = fun _ => 0 := funext fun a => by fin_cases a <;> decide
  exact Memref.read_access_unit_zero (Elt F) main_v10 hz' (fun a => by rw [congrFun hz' a]; simp) (V c main_v10)
theorem iblk2_whole_2 (c : Dev nD) (t : Fin cfg2.N) : iblk2 V c 2 t = V c main_arg3 := by
  obtain rfl := fin_N2 t
  have hz' : (fun a => win2_2.index t2_0 a * main_arg3.ty.shape.size a) = fun _ => 0 := funext fun a => by fin_cases a <;> decide
  exact Memref.read_access_unit_zero (Elt F) main_arg3 hz' (fun a => by rw [congrFun hz' a]; simp) (V c main_arg3)
theorem iblk2_whole_3 (c : Dev nD) (t : Fin cfg2.N) : iblk2 V c 3 t = V c main_arg5 := by
  obtain rfl := fin_N2 t
  have hz' : (fun a => win2_3.index t2_0 a * main_arg5.ty.shape.size a) = fun _ => 0 := funext fun a => by fin_cases a <;> decide
  exact Memref.read_access_unit_zero (Elt F) main_arg5 hz' (fun a => by rw [congrFun hz' a]; simp) (V c main_arg5)
theorem iblk2_whole_4 (c : Dev nD) (t : Fin cfg2.N) : iblk2 V c 4 t = V c main_v11 := by
  obtain rfl := fin_N2 t
  have hz' : (fun a => win2_4.index t2_0 a * main_v11.ty.shape.size a) = fun _ => 0 := funext fun a => by fin_cases a <;> decide
  exact Memref.read_access_unit_zero (Elt F) main_v11 hz' (fun a => by rw [congrFun hz' a]; simp) (V c main_v11)

/-- The one write-back writes `out2` of the five operand arrays. -/
theorem flushed2_eq (c : Dev nD) (t : Fin cfg2.N) (hf : (cfg2.win 5).flush t = true) :
    (dat2 V c).flushed 5 t = ((cfg2.win 5).blk t).view.read (Elt F)
      (out2 (V c main_v6) (V c main_v10) (V c main_arg3) (V c main_arg5) (V c main_v11)) := by
  obtain rfl := fin_N2 t
  show (cfg2.win 5).cut (grid2.coords t2_0) ((dat2 V c).after 5 t2_0) = _
  rw [after2_5, show node2 V c t2_0 = V c main_v6 from iblk2_whole_0 V c t2_0,
    show edge2 V c t2_0 = V c main_v10 from iblk2_whole_1 V c t2_0,
    show glob2 V c t2_0 = V c main_arg3 from iblk2_whole_2 V c t2_0,
    show wts2 V c t2_0 = V c main_arg5 from iblk2_whole_3 V c t2_0,
    show bias2 V c t2_0 = V c main_v11 from iblk2_whole_4 V c t2_0]
  have hz' : (fun a => win2_5.index t2_0 a * main_v12.ty.shape.size a) = fun _ => 0 := funext fun a => by fin_cases a <;> decide
  exact (Memref.read_access_unit_zero (Elt F) main_v12 hz' (fun a => by rw [congrFun hz' a]; simp)
    (out2 (V c main_v6) (V c main_v10) (V c main_arg3) (V c main_arg5) (V c main_v11))).symm

theorem arrAt2_out (c : Dev nD) :
    (dat2 V c).arrAt 5 cfg2.N = out2 (V c main_v6) (V c main_v10) (V c main_arg3) (V c main_arg5) (V c main_v11) :=
  (dat2 V c).arrAt_eq_of_cover 5 (out2 (V c main_v6) (V c main_v10) (V c main_arg3) (V c main_arg5) (V c main_v11))
    (flushed2_eq V c) fun i =>
    ⟨t2_0, flush2_5 t2_0, by
      show i ∈ ((View.whole main_v12).slice (win2_5.rect t2_0)).set
      rw [View.set_slice_whole, Rect.mem_set_unit]
      intro a
      have h0 : (i 0 : Nat) < 256 := (i 0).isLt
      have h1 : (i 1 : Nat) < 32 := (i 1).isLt
      match a with
      | ⟨0, _⟩ => show win2_5.index t2_0 0 * win2_5.size 0 ≤ (i 0 : Nat) ∧ (i 0 : Nat) < win2_5.index t2_0 0 * win2_5.size 0 + win2_5.xsize (grid2.coords t2_0) 0
                  rw [show win2_5.index t2_0 0 * win2_5.size 0 = 0 from by decide +kernel, show win2_5.xsize (grid2.coords t2_0) 0 = 256 from by decide +kernel]; omega
      | ⟨1, _⟩ => show win2_5.index t2_0 1 * win2_5.size 1 ≤ (i 1 : Nat) ∧ (i 1 : Nat) < win2_5.index t2_0 1 * win2_5.size 1 + win2_5.xsize (grid2.coords t2_0) 1
                  rw [show win2_5.index t2_0 1 * win2_5.size 1 = 0 from by decide +kernel, show win2_5.xsize (grid2.coords t2_0) 1 = 32 from by decide +kernel]; omega⟩

end Cert.KernelIdeal.H

end
-- ==== Proof.KI.Val01.lean ====
/-
  The value of the two segment-sum regions on the extended reals.

  A grid point's body adds to the accumulator the product of the one-hot matrix of its 8192 ids (entry (g, q) is 1
  when id q is the segment number g and 0 otherwise) with its 8192 × 32 block of features. Since 1 · x = x and
  0 · x = 0 hold for every extended real, entry (g, d) of that product is the sum of feature d over the rows of the
  block whose id is g. Point t's blocks are rows 8192·t … 8192·t + 8191 of the padded arrays and the accumulator
  starts from zero, so after point n it holds the sum over the rows of blocks 0 … n, and after the last point
  (13 · 8192 = 106496 rows in the first region, 196 · 8192 = 1605632 in the second) the sum over every row.
-/
import proofs.«414828_j70153995813297_1_alg».proof.Proof.KI.Arrays
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Idealize.ShloMosaic Idealize.ShloMosaic.TcCoe Idealize.ShloMosaic.ValueIdx
open Idealize.SL Idealize.SL.Sem
open Cert.KernelIdeal Cert.KernelIdeal.Gen

namespace Seg

/-! ## The one-hot entry on words -/

section Words

/-- For a row number below 256, the 32-bit word of that number equals a word exactly when the word, read signed, is the number. -/
theorem word_eq_iff (g : ℕ) (hg : g < 256) (w : BitVec 32) : BitVec.ofNat 32 g = w ↔ w.toInt = (g : ℤ) := by
  have h1 : (BitVec.ofNat 32 g).toInt = (g : ℤ) := by
    have e := BitVec.toInt_eq_toNat_cond (BitVec.ofNat 32 g)
    rw [BitVec.toNat_ofNat] at e
    omega
  constructor
  · rintro rfl; exact h1
  · intro h; exact BitVec.eq_of_toInt_eq (h1.trans h.symm)

/-- One entry of the one-hot matrix: the comparison bit, widened and converted, is 1 where the id is the row number and 0 elsewhere. -/
theorem onehot_entry (g : ℕ) (hg : g < 256) (w : BitVec 32) :
    (FloatOps.sitofp (F := Ideal) .f32 ((IntOp.cmpi .eq (BitVec.ofNat 32 g) w).setWidth 32) : EReal)
      = if w.toInt = (g : ℤ) then 1 else 0 := by
  by_cases h : w.toInt = (g : ℤ)
  · rw [if_pos h]
    have e : BitVec.ofNat 32 g = w := (word_eq_iff g hg w).mpr h
    have e2 : IntOp.cmpi .eq (BitVec.ofNat 32 g) w = 1#1 := by
      unfold IntOp.cmpi; rw [e]; simp
    rw [e2]
    show (((( (1#1 : BitVec 1).setWidth 32).toInt : ℝ)) : EReal) = 1
    have : ((1#1 : BitVec 1).setWidth 32).toInt = 1 := by decide
    rw [this]; simp
  · rw [if_neg h]
    have e : ¬ BitVec.ofNat 32 g = w := fun e => h ((word_eq_iff g hg w).mp e)
    have e2 : IntOp.cmpi .eq (BitVec.ofNat 32 g) w = 0#1 := by
      unfold IntOp.cmpi
      have hb : (BitVec.ofNat 32 g == w) = false := beq_eq_false_iff_ne.mpr e
      rw [hb]; rfl
    rw [e2]
    show (((( (0#1 : BitVec 1).setWidth 32).toInt : ℝ)) : EReal) = 0
    have : ((0#1 : BitVec 1).setWidth 32).toInt = 0 := by decide
    rw [this]; simp

end Words

/-! ## The block product at an entry -/

section Product

/-! The block product's operand indices: output entry (g, d) and contraction position k read the one-hot matrix at (g, k)
    and the feature block at (k, d). One statement per axis of each operand. -/
theorem lhs_onehot_0 (i : S256x32.Idx) (q : dot_S256x8192_S8192x32_S256x32_1_0_0_1_n_n.contr.Idx) :
    (dot_S256x8192_S8192x32_S256x32_1_0_0_1_n_n.lhsIdx i q 0).val = (i 0).val := by
  unfold DotDims.lhsIdx
  rw [dif_neg (show ¬(0 : Fin S256x8192.rank) ∈ dot_S256x8192_S8192x32_S256x32_1_0_0_1_n_n.lhsBatch by decide), dif_pos (show (0 : Fin S256x8192.rank) ∈ dot_S256x8192_S8192x32_S256x32_1_0_0_1_n_n.lhsNonContracting by decide)]
  rfl
theorem lhs_onehot_1 (i : S256x32.Idx) (q : dot_S256x8192_S8192x32_S256x32_1_0_0_1_n_n.contr.Idx) :
    (dot_S256x8192_S8192x32_S256x32_1_0_0_1_n_n.lhsIdx i q 1).val = (q ⟨0, by decide⟩).val :=
  dot_S256x8192_S8192x32_S256x32_1_0_0_1_n_n.lhsIdx_val_of_single rfl i q
theorem rhs_feat_0 (i : S256x32.Idx) (q : dot_S256x8192_S8192x32_S256x32_1_0_0_1_n_n.contr.Idx) :
    (dot_S256x8192_S8192x32_S256x32_1_0_0_1_n_n.rhsIdx i q 0).val = (q ⟨0, by decide⟩).val :=
  dot_S256x8192_S8192x32_S256x32_1_0_0_1_n_n.rhsIdx_val_of_single rfl i q
theorem rhs_feat_1 (i : S256x32.Idx) (q : dot_S256x8192_S8192x32_S256x32_1_0_0_1_n_n.contr.Idx) :
    (dot_S256x8192_S8192x32_S256x32_1_0_0_1_n_n.rhsIdx i q 1).val = (i 1).val := by
  unfold DotDims.rhsIdx
  rw [dif_neg (show ¬(1 : Fin S8192x32.rank) ∈ dot_S256x8192_S8192x32_S256x32_1_0_0_1_n_n.rhsBatch by decide), dif_pos (show (1 : Fin S8192x32.rank) ∈ dot_S256x8192_S8192x32_S256x32_1_0_0_1_n_n.rhsNonContracting by decide)]
  rfl

/-- The product into the zero block, entry by entry: the sum over the 8192 positions of the block. -/
theorem blockprod_apply (A : FVec Ideal S256x8192 .bf16) (B : FVec Ideal S8192x32 .bf16) (g : Fin 256) (d : Fin 32) :
    matmul (F := Ideal) dot_S256x8192_S8192x32_S256x32_1_0_0_1_n_n none A B (constant (F := Ideal) S256x32 .f32 0x00000000#32) (ix2 g d)
      = ∑ k : Fin 8192, A (ix2 g k) * B (ix2 k d) := by
  simp only [matmul]
  rw [Ideal.matmul_constant_zero_apply, ← Equiv.sum_comp (contrEquiv1 dot_S256x8192_S8192x32_S256x32_1_0_0_1_n_n 8192 rfl rfl).symm]
  refine Finset.sum_congr rfl fun k _ => ?_
  have hk := contrEquiv1_symm_val dot_S256x8192_S8192x32_S256x32_1_0_0_1_n_n 8192 rfl rfl k
  have el : dot_S256x8192_S8192x32_S256x32_1_0_0_1_n_n.lhsIdx (ix2 g d) ((contrEquiv1 dot_S256x8192_S8192x32_S256x32_1_0_0_1_n_n 8192 rfl rfl).symm k) = ix2 g k := funext fun a => Fin.ext (by
    match a with
    | ⟨0, _⟩ => exact lhs_onehot_0 _ _
    | ⟨1, _⟩ => exact (lhs_onehot_1 _ _).trans hk)
  have er : dot_S256x8192_S8192x32_S256x32_1_0_0_1_n_n.rhsIdx (ix2 g d) ((contrEquiv1 dot_S256x8192_S8192x32_S256x32_1_0_0_1_n_n 8192 rfl rfl).symm k) = ix2 k d := funext fun a => Fin.ext (by
    match a with
    | ⟨0, _⟩ => exact (rhs_feat_0 _ _).trans hk
    | ⟨1, _⟩ => exact rhs_feat_1 _ _)
  rw [el, er]

end Product

/-! ## One grid point's body at an entry -/

section Step

/-- One entry of the one-hot matrix of a block of ids: 1 where the id at position q is the row number g, else 0. -/
theorem onehot_apply (idsb : IVec S1x8192 32) (g : Fin 256) (q : Fin 8192) :
    (sitofp (F := Ideal) .f32 (extui 32 (cmpi .eq (broadcastTo S256x8192 (iota .tc S256x1 32 [0] iota_S256x1_d0_w32) broadcasts_S256x1_S256x8192)
        (broadcastTo S256x8192 idsb broadcasts_S1x8192_S256x8192)) natLt_1_32) : FVec Ideal S256x8192 .f32) (ix2 g q)
      = if (idsb (ix2 0 q)).toInt = (g.val : ℤ) then 1 else 0 := by
  show FloatOps.sitofp (F := Ideal) .f32 ((IntOp.cmpi .eq
      (broadcastTo S256x8192 (iota .tc S256x1 32 [0] iota_S256x1_d0_w32) broadcasts_S256x1_S256x8192 (ix2 g q))
      (broadcastTo S256x8192 idsb broadcasts_S1x8192_S256x8192 (ix2 g q))).setWidth 32) = _
  rw [broadcastTo_apply _ broadcasts_S256x1_S256x8192 (ix2 g q) (ix2 g 0) (fun a => by match a with | ⟨0, _⟩ => rfl | ⟨1, _⟩ => rfl),
    iota_single_apply,
    broadcastTo_apply idsb broadcasts_S1x8192_S256x8192 (ix2 g q) (ix2 0 q) (fun a => by match a with | ⟨0, _⟩ => rfl | ⟨1, _⟩ => rfl)]
  exact onehot_entry g.val g.isLt _

/-- One grid point's body at an entry: what the accumulator held plus the rows of the block whose id is the row number. -/
theorem seg_step (idsb : Vec Ideal S1x8192 .i32) (featb : Vec Ideal S8192x32 .f32) (s : Vec Ideal S256x32 .f32) (g : Fin 256) (d : Fin 32) :
    k0_pay2 (F := Ideal) idsb featb s (ix2 g d)
      = s (ix2 g d) + ∑ q : Fin 8192, if (idsb (ix2 0 q)).toInt = (g.val : ℤ) then featb (ix2 q d) else 0 := by
  unfold k0_pay2
  simp only [shapeCast_self]
  show s (ix2 g d) + matmul (F := Ideal) dot_S256x8192_S8192x32_S256x32_1_0_0_1_n_n none
      (truncf (F := Ideal) .bf16 (sitofp (F := Ideal) .f32 (extui 32 (cmpi .eq (broadcastTo S256x8192 (iota .tc S256x1 32 [0] iota_S256x1_d0_w32) broadcasts_S256x1_S256x8192)
        (broadcastTo S256x8192 idsb broadcasts_S1x8192_S256x8192)) natLt_1_32)) bitsLt_bf16_f32)
      (truncf (F := Ideal) .bf16 featb bitsLt_bf16_f32) (constant (F := Ideal) S256x32 .f32 0x00000000#32) (ix2 g d) = _
  rw [blockprod_apply]
  refine congrArg (s (ix2 g d) + ·) (Finset.sum_congr rfl fun q _ => ?_)
  refine (congrArg (· * featb (ix2 q d)) (onehot_apply idsb g q)).trans ?_
  by_cases h : (idsb (ix2 0 q)).toInt = (g.val : ℤ)
  · simp only [if_pos h]; exact one_mul _
  · simp only [if_neg h]; exact zero_mul _

/-- The second region's body is the same function. -/
theorem seg_step1 (idsb : Vec Ideal S1x8192 .i32) (featb : Vec Ideal S8192x32 .f32) (s : Vec Ideal S256x32 .f32) (g : Fin 256) (d : Fin 32) :
    k1_pay2 (F := Ideal) idsb featb s (ix2 g d)
      = s (ix2 g d) + ∑ q : Fin 8192, if (idsb (ix2 0 q)).toInt = (g.val : ℤ) then featb (ix2 q d) else 0 :=
  seg_step idsb featb s g d

/-- The accumulator's reset value is zero everywhere. -/
theorem reset_apply (j : S256x32.Idx) : k0_pay1 (F := Ideal) j = 0 := by
  unfold k0_pay1
  simp only [shapeCast_self]
  exact Ideal.ofBits_zero_f32
/-- The second region's reset value is the same. -/
theorem reset1_apply (j : S256x32.Idx) : k1_pay1 (F := Ideal) j = 0 := reset_apply j

end Step

/-! ## Rows taken block by block -/

section Sums

/-- Row `B·t + q` of `N` blocks of `B` rows is a row of the whole. -/
theorem row_lt {N B : ℕ} (t : Fin N) (q : Fin B) : B * t.val + q.val < N * B := by
  have ht := t.isLt
  have hq := q.isLt
  calc B * t.val + q.val < B * t.val + B := by omega
    _ = B * (t.val + 1) := by ring
    _ ≤ B * N := Nat.mul_le_mul_left _ ht
    _ = N * B := Nat.mul_comm _ _

/-- A sum over the rows of `N` blocks of `B` rows, taken block by block. -/
theorem sum_rows_blocks (N B R : ℕ) (h : N * B = R) (f : Fin R → EReal) :
    ∑ r : Fin R, f r = ∑ t : Fin N, ∑ q : Fin B, f ⟨B * t.val + q.val, Nat.lt_of_lt_of_eq (row_lt t q) h⟩ := by
  subst h
  rw [← Equiv.sum_comp finProdFinEquiv f, Fintype.sum_prod_type]
  refine Finset.sum_congr rfl fun t _ => Finset.sum_congr rfl fun q _ => congrArg f (Fin.ext ?_)
  show q.val + B * t.val = B * t.val + q.val
  exact Nat.add_comm _ _

end Sums

/-! ## The first region: a point's blocks as rows of the arrays -/

section Blocks0
variable {F : FTy → Type} [FloatOps F]
variable (V : (c : Dev nD) → (b : Ref sig .tc) → Buf (Elt F) ((c : Thread nD τ).loc b))

/-- Point t's feature block is block (t, 0) of the padded feature array, its id block is block (0, t) of the padded id row. -/
theorem idx0_feat : ∀ t : Fin cfg0.N, win0_0.index t 0 = t.val ∧ win0_0.index t 1 = 0 :=
  (by decide +kernel : ∀ t : Fin grid0.N, win0_0.index t 0 = t.val ∧ win0_0.index t 1 = 0)
theorem idx0_ids : ∀ t : Fin cfg0.N, win0_1.index t 0 = 0 ∧ win0_1.index t 1 = t.val :=
  (by decide +kernel : ∀ t : Fin grid0.N, win0_1.index t 0 = 0 ∧ win0_1.index t 1 = t.val)

/-- An entry of point t's feature block is the array's entry 8192·t rows further down, in the same column. -/
theorem feat0_apply (c : Dev nD) (t : Fin cfg0.N) (x : S8192x32.Idx) (k : S106496x32.Idx)
    (hk0 : (k 0).val = 8192 * t.val + (x 0).val) (hk1 : (k 1).val = (x 1).val) :
    feat0 V c t x = (V c main_v3 : S106496x32.Idx → Elt F .f32) k := by
  unfold feat0 iblk0
  rw [View.read_apply]
  show V c main_v3 _ = V c main_v3 _
  congr 1
  funext a
  apply Fin.ext
  match a with
  | ⟨0, _⟩ => show win0_0.index t 0 * 8192 + 1 * (x 0).val = (k 0).val; rw [(idx0_feat t).1, hk0]; omega
  | ⟨1, _⟩ => show win0_0.index t 1 * 32 + 1 * (x 1).val = (k 1).val; rw [(idx0_feat t).2, hk1]; omega

/-- An entry of point t's id block is the id row's entry 8192·t positions further along. -/
theorem ids0_apply (c : Dev nD) (t : Fin cfg0.N) (x : S1x8192.Idx) (k : S1x106496.Idx)
    (hk0 : (k 0).val = (x 0).val) (hk1 : (k 1).val = 8192 * t.val + (x 1).val) :
    ids0 V c t x = (V c main_v5 : S1x106496.Idx → Elt F .i32) k := by
  unfold ids0 iblk0
  rw [View.read_apply]
  show V c main_v5 _ = V c main_v5 _
  congr 1
  funext a
  apply Fin.ext
  match a with
  | ⟨0, _⟩ => show win0_1.index t 0 * 1 + 1 * (x 0).val = (k 0).val; rw [(idx0_ids t).1, hk0]; omega
  | ⟨1, _⟩ => show win0_1.index t 1 * 8192 + 1 * (x 1).val = (k 1).val; rw [(idx0_ids t).2, hk1]; omega

end Blocks0

/-! ## The first region: the accumulator as a sum over rows -/

section Region0
variable (V : (c : Dev nD) → (b : Ref sig .tc) → Buf (Elt Ideal) ((c : Thread nD τ).loc b))

/-- The same two reads at named coordinates: position q of point t's blocks is row 8192·t + q. -/
theorem feat0_row (c : Dev nD) (t : Fin cfg0.N) (q : Fin 8192) (d : Fin 32) (h : 8192 * t.val + q.val < 106496) :
    feat0 V c t (ix2 q d) = featArr0 V c (ix2 ⟨8192 * t.val + q.val, h⟩ d) :=
  feat0_apply V c t (ix2 q d) (ix2 ⟨8192 * t.val + q.val, h⟩ d) rfl rfl
theorem ids0_row (c : Dev nD) (t : Fin cfg0.N) (q : Fin 8192) (h : 8192 * t.val + q.val < 106496) :
    ids0 V c t (ix2 0 q) = idsArr0 V c (ix2 0 ⟨8192 * t.val + q.val, h⟩) :=
  ids0_apply V c t (ix2 0 q) (ix2 0 ⟨8192 * t.val + q.val, h⟩) rfl rfl

/-- Row r's share of entry (g, d): the row's feature d when the row's id is g, else nothing. -/
def term0 (c : Dev nD) (g : Fin 256) (d : Fin 32) (r : Fin 106496) : EReal :=
  if (idsArr0 V c (ix2 0 r)).toInt = (g.val : ℤ) then featArr0 V c (ix2 r d) else 0

/-- A row of one of the blocks 0 … n is a row of the padded array. -/
theorem pt_lt0 {n : ℕ} (hn : n < cfg0.N) (t : Fin (n + 1)) (q : Fin 8192) : 8192 * t.val + q.val < 106496 := by
  have hN : cfg0.N = 13 := N_0
  have := t.isLt
  have := q.isLt
  omega

/-- After point n the accumulator's entry (g, d) is the sum of the shares of the rows of blocks 0 … n. -/
theorem acc0_partial (c : Dev nD) (g : Fin 256) (d : Fin 32) : ∀ (n : ℕ) (hn : n < cfg0.N),
    acc0 V c n hn (ix2 g d) = ∑ t : Fin (n + 1), ∑ q : Fin 8192, term0 V c g d ⟨8192 * t.val + q.val, pt_lt0 hn t q⟩
  | 0, hn => by
    refine (seg_step (ids0 V c ⟨0, hn⟩) (feat0 V c ⟨0, hn⟩) (k0_pay1 (F := Ideal)) g d).trans ?_
    rw [reset_apply, zero_add, Fin.sum_univ_one]
    refine Finset.sum_congr rfl fun q _ => ?_
    unfold term0
    rw [ids0_row V c ⟨0, hn⟩ q (pt_lt0 hn 0 q), feat0_row V c ⟨0, hn⟩ q d (pt_lt0 hn 0 q)]
    rfl
  | n + 1, hn => by
    have ih := acc0_partial c g d n (Nat.lt_of_succ_lt hn)
    refine (seg_step (ids0 V c ⟨n + 1, hn⟩) (feat0 V c ⟨n + 1, hn⟩) (acc0 V c n (Nat.lt_of_succ_lt hn)) g d).trans ?_
    rw [ih, Fin.sum_univ_castSucc (n := n + 1)]
    refine congrArg₂ (· + ·) (Finset.sum_congr rfl fun t _ => Finset.sum_congr rfl fun q _ => rfl) (Finset.sum_congr rfl fun q _ => ?_)
    unfold term0
    rw [ids0_row V c ⟨n + 1, hn⟩ q (pt_lt0 hn (Fin.last (n + 1)) q), feat0_row V c ⟨n + 1, hn⟩ q d (pt_lt0 hn (Fin.last (n + 1)) q)]
    rfl

end Region0

/-! ## The second region: a point's blocks as rows of the arrays -/

section Blocks1
variable {F : FTy → Type} [FloatOps F]
variable (V : (c : Dev nD) → (b : Ref sig .tc) → Buf (Elt F) ((c : Thread nD τ).loc b))

/-- Point t's feature block is block (t, 0) of the padded feature array, its id block is block (0, t) of the padded id row. -/
theorem idx1_feat : ∀ t : Fin cfg1.N, win1_0.index t 0 = t.val ∧ win1_0.index t 1 = 0 :=
  (by decide +kernel : ∀ t : Fin grid1.N, win1_0.index t 0 = t.val ∧ win1_0.index t 1 = 0)
theorem idx1_ids : ∀ t : Fin cfg1.N, win1_1.index t 0 = 0 ∧ win1_1.index t 1 = t.val :=
  (by decide +kernel : ∀ t : Fin grid1.N, win1_1.index t 0 = 0 ∧ win1_1.index t 1 = t.val)

/-- An entry of point t's feature block is the array's entry 8192·t rows further down, in the same column. -/
theorem feat1_apply (c : Dev nD) (t : Fin cfg1.N) (x : S8192x32.Idx) (k : S1605632x32.Idx)
    (hk0 : (k 0).val = 8192 * t.val + (x 0).val) (hk1 : (k 1).val = (x 1).val) :
    feat1 V c t x = (V c main_v7 : S1605632x32.Idx → Elt F .f32) k := by
  unfold feat1 iblk1
  rw [View.read_apply]
  show V c main_v7 _ = V c main_v7 _
  congr 1
  funext a
  apply Fin.ext
  match a with
  | ⟨0, _⟩ => show win1_0.index t 0 * 8192 + 1 * (x 0).val = (k 0).val; rw [(idx1_feat t).1, hk0]; omega
  | ⟨1, _⟩ => show win1_0.index t 1 * 32 + 1 * (x 1).val = (k 1).val; rw [(idx1_feat t).2, hk1]; omega

/-- An entry of point t's id block is the id row's entry 8192·t positions further along. -/
theorem ids1_apply (c : Dev nD) (t : Fin cfg1.N) (x : S1x8192.Idx) (k : S1x1605632.Idx)
    (hk0 : (k 0).val = (x 0).val) (hk1 : (k 1).val = 8192 * t.val + (x 1).val) :
    ids1 V c t x = (V c main_v9 : S1x1605632.Idx → Elt F .i32) k := by
  unfold ids1 iblk1
  rw [View.read_apply]
  show V c main_v9 _ = V c main_v9 _
  congr 1
  funext a
  apply Fin.ext
  match a with
  | ⟨0, _⟩ => show win1_1.index t 0 * 1 + 1 * (x 0).val = (k 0).val; rw [(idx1_ids t).1, hk0]; omega
  | ⟨1, _⟩ => show win1_1.index t 1 * 8192 + 1 * (x 1).val = (k 1).val; rw [(idx1_ids t).2, hk1]; omega

end Blocks1

/-! ## The second region: the accumulator as a sum over rows -/

section Region1
variable (V : (c : Dev nD) → (b : Ref sig .tc) → Buf (Elt Ideal) ((c : Thread nD τ).loc b))

/-- The same two reads at named coordinates: position q of point t's blocks is row 8192·t + q. -/
theorem feat1_row (c : Dev nD) (t : Fin cfg1.N) (q : Fin 8192) (d : Fin 32) (h : 8192 * t.val + q.val < 1605632) :
    feat1 V c t (ix2 q d) = featArr1 V c (ix2 ⟨8192 * t.val + q.val, h⟩ d) :=
  feat1_apply V c t (ix2 q d) (ix2 ⟨8192 * t.val + q.val, h⟩ d) rfl rfl
theorem ids1_row (c : Dev nD) (t : Fin cfg1.N) (q : Fin 8192) (h : 8192 * t.val + q.val < 1605632) :
    ids1 V c t (ix2 0 q) = idsArr1 V c (ix2 0 ⟨8192 * t.val + q.val, h⟩) :=
  ids1_apply V c t (ix2 0 q) (ix2 0 ⟨8192 * t.val + q.val, h⟩) rfl rfl

/-- Row r's share of entry (g, d): the row's feature d when the row's id is g, else nothing. -/
def term1 (c : Dev nD) (g : Fin 256) (d : Fin 32) (r : Fin 1605632) : EReal :=
  if (idsArr1 V c (ix2 0 r)).toInt = (g.val : ℤ) then featArr1 V c (ix2 r d) else 0

/-- A row of one of the blocks 0 … n is a row of the padded array. -/
theorem pt_lt1 {n : ℕ} (hn : n < cfg1.N) (t : Fin (n + 1)) (q : Fin 8192) : 8192 * t.val + q.val < 1605632 := by
  have hN : cfg1.N = 196 := N_1
  have := t.isLt
  have := q.isLt
  omega

/-- After point n the accumulator's entry (g, d) is the sum of the shares of the rows of blocks 0 … n of the second region. -/
theorem acc1_partial (c : Dev nD) (g : Fin 256) (d : Fin 32) : ∀ (n : ℕ) (hn : n < cfg1.N),
    acc1 V c n hn (ix2 g d) = ∑ t : Fin (n + 1), ∑ q : Fin 8192, term1 V c g d ⟨8192 * t.val + q.val, pt_lt1 hn t q⟩
  | 0, hn => by
    refine (seg_step1 (ids1 V c ⟨0, hn⟩) (feat1 V c ⟨0, hn⟩) (k1_pay1 (F := Ideal)) g d).trans ?_
    rw [reset1_apply, zero_add, Fin.sum_univ_one]
    refine Finset.sum_congr rfl fun q _ => ?_
    unfold term1
    rw [ids1_row V c ⟨0, hn⟩ q (pt_lt1 hn 0 q), feat1_row V c ⟨0, hn⟩ q d (pt_lt1 hn 0 q)]
    rfl
  | n + 1, hn => by
    have ih := acc1_partial c g d n (Nat.lt_of_succ_lt hn)
    refine (seg_step1 (ids1 V c ⟨n + 1, hn⟩) (feat1 V c ⟨n + 1, hn⟩) (acc1 V c n (Nat.lt_of_succ_lt hn)) g d).trans ?_
    rw [ih, Fin.sum_univ_castSucc (n := n + 1)]
    refine congrArg₂ (· + ·) (Finset.sum_congr rfl fun t _ => Finset.sum_congr rfl fun q _ => rfl) (Finset.sum_congr rfl fun q _ => ?_)
    unfold term1
    rw [ids1_row V c ⟨n + 1, hn⟩ q (pt_lt1 hn (Fin.last (n + 1)) q), feat1_row V c ⟨n + 1, hn⟩ q d (pt_lt1 hn (Fin.last (n + 1)) q)]
    rfl

end Region1

end Seg

/-! ## The two accumulators after their last points -/

section Results
variable (V : (c : Dev nD) → (b : Ref sig .tc) → Buf (Elt Ideal) ((c : Thread nD τ).loc b))

/-- The first region's accumulator after its last point: each entry (g, d) is the sum, over all 106496 rows, of the rows whose id is g. -/
theorem acc0_ideal (c : Dev nD) (g : Fin 256) (d : Fin 32) :
    acc0 V c 12 (by decide) (ix2 g d)
      = ∑ r : Fin 106496, if (idsArr0 V c (ix2 0 r)).toInt = (g.val : ℤ) then featArr0 V c (ix2 r d) else 0 := by
  rw [Seg.acc0_partial V c g d 12 (by decide)]
  exact (Seg.sum_rows_blocks 13 8192 106496 (by norm_num) (Seg.term0 V c g d)).symm

/-- The second region's accumulator after its last point: each entry (g, d) is the sum, over all 1605632 rows, of the rows whose id is g. -/
theorem acc1_ideal (c : Dev nD) (g : Fin 256) (d : Fin 32) :
    acc1 V c 195 (by decide) (ix2 g d)
      = ∑ r : Fin 1605632, if (idsArr1 V c (ix2 0 r)).toInt = (g.val : ℤ) then featArr1 V c (ix2 r d) else 0 := by
  rw [Seg.acc1_partial V c g d 195 (by decide)]
  exact (Seg.sum_rows_blocks 196 8192 1605632 (by norm_num) (Seg.term1 V c g d)).symm

end Results

end Cert.KernelIdeal.H

end
-- ==== Proof.KI.Val2.lean ====
/-
  The value of region 2 on the extended reals: what the body stores, index by index, is the projection of the
  specification — three 32-term products of the row blocks against the three 32-row bands of the weights, added
  in the kernel's own order, plus the bias row, then the positive part.
-/
import proofs.«414828_j70153995813297_1_alg».proof.Proof.KI.R2
import proofs.«414828_j70153995813297_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.H

open Idealize.ShloMosaic Idealize.ShloMosaic.TcCoe Idealize.ShloMosaic.ValueIdx
open Cert.KernelIdeal Cert.KernelIdeal.Gen

/-! ## The 256×32 by 32×32 product: which operand entries an output entry multiplies -/

theorem lhs_prod_0 (i : S256x32.Idx) (q : dot_S256x32_S32x32_S256x32_1_0_0_1_n_n.contr.Idx) :
    (dot_S256x32_S32x32_S256x32_1_0_0_1_n_n.lhsIdx i q 0).val = (i 0).val := by
  unfold DotDims.lhsIdx
  rw [dif_neg (show ¬(0 : Fin S256x32.rank) ∈ dot_S256x32_S32x32_S256x32_1_0_0_1_n_n.lhsBatch by decide), dif_pos (show (0 : Fin S256x32.rank) ∈ dot_S256x32_S32x32_S256x32_1_0_0_1_n_n.lhsNonContracting by decide)]
  rfl
theorem lhs_prod_1 (i : S256x32.Idx) (q : dot_S256x32_S32x32_S256x32_1_0_0_1_n_n.contr.Idx) :
    (dot_S256x32_S32x32_S256x32_1_0_0_1_n_n.lhsIdx i q 1).val = (q ⟨0, by decide⟩).val :=
  dot_S256x32_S32x32_S256x32_1_0_0_1_n_n.lhsIdx_val_of_single rfl i q
theorem rhs_prod_0 (i : S256x32.Idx) (q : dot_S256x32_S32x32_S256x32_1_0_0_1_n_n.contr.Idx) :
    (dot_S256x32_S32x32_S256x32_1_0_0_1_n_n.rhsIdx i q 0).val = (q ⟨0, by decide⟩).val :=
  dot_S256x32_S32x32_S256x32_1_0_0_1_n_n.rhsIdx_val_of_single rfl i q
theorem rhs_prod_1 (i : S256x32.Idx) (q : dot_S256x32_S32x32_S256x32_1_0_0_1_n_n.contr.Idx) :
    (dot_S256x32_S32x32_S256x32_1_0_0_1_n_n.rhsIdx i q 1).val = (i 1).val := by
  unfold DotDims.rhsIdx
  rw [dif_neg (show ¬(1 : Fin S32x32.rank) ∈ dot_S256x32_S32x32_S256x32_1_0_0_1_n_n.rhsBatch by decide), dif_pos (show (1 : Fin S32x32.rank) ∈ dot_S256x32_S32x32_S256x32_1_0_0_1_n_n.rhsNonContracting by decide)]
  rfl

/-- The product into the zero accumulator, at row `g` and column `d`: the 32-term sum of row `g` of the left factor
    against column `d` of the right one. -/
theorem prod_apply (x : FVec Ideal S256x32 .bf16) (y : FVec Ideal S32x32 .bf16) (g : Fin 256) (d : Fin 32) :
    matmul dot_S256x32_S32x32_S256x32_1_0_0_1_n_n none x y (constant (F := Ideal) S256x32 .f32 0x00000000#32) (ix2 g d)
      = ∑ k : Fin 32, x (ix2 g k) * y (ix2 k d) := by
  simp only [matmul]
  rw [Ideal.matmul_constant_zero_apply, ← Equiv.sum_comp (contrEquiv1 dot_S256x32_S32x32_S256x32_1_0_0_1_n_n 32 rfl rfl).symm]
  refine Finset.sum_congr rfl fun k _ => ?_
  have hk := contrEquiv1_symm_val dot_S256x32_S32x32_S256x32_1_0_0_1_n_n 32 rfl rfl k
  have el : dot_S256x32_S32x32_S256x32_1_0_0_1_n_n.lhsIdx (ix2 g d) ((contrEquiv1 dot_S256x32_S32x32_S256x32_1_0_0_1_n_n 32 rfl rfl).symm k) = ix2 g k := funext fun a => Fin.ext (by
    match a with
    | ⟨0, _⟩ => exact lhs_prod_0 _ _
    | ⟨1, _⟩ => exact (lhs_prod_1 _ _).trans hk)
  have er : dot_S256x32_S32x32_S256x32_1_0_0_1_n_n.rhsIdx (ix2 g d) ((contrEquiv1 dot_S256x32_S32x32_S256x32_1_0_0_1_n_n 32 rfl rfl).symm k) = ix2 k d := funext fun a => Fin.ext (by
    match a with
    | ⟨0, _⟩ => exact (rhs_prod_0 _ _).trans hk
    | ⟨1, _⟩ => exact rhs_prod_1 _ _)
  rw [el, er]

/-! ## The three row bands of the weights -/

/-- Row `k` of the band that starts at row `o` is row `o + k` of the weights. -/
theorem band_apply (w : Vec Ideal S96x32 .f32) (o : ℕ) (inb : ∀ a, (![o, 0] : Fin 2 → ℕ) a + S32x32.size a ≤ S96x32.size a)
    (k : Fin 32) (d : Fin 32) (r : Fin 96) (hr : r.val = o + k.val) :
    View.ld w (Rect.unit (s := S96x32) ![o, 0] S32x32.size inb) (ix2 k d) = w (ix2 r d) := by
  show w _ = w _
  congr 1
  funext a
  apply Fin.ext
  match a with
  | ⟨0, _⟩ => show o + 1 * k.val = r.val; omega
  | ⟨1, _⟩ => show 0 + 1 * d.val = d.val; omega

/-! ## What the body stores, index by index -/

/-- At row `g` and column `d`: the three 32-term products (segment sums of the nodes, of the edges, the globals, each
    against its band of the weights) added left to right, plus the bias at `d` (the one bias row read on every row), and the
    larger of that and zero — the specification's projection, term for term; the format changes are the identity on the
    extended reals and the zero word is the extended real zero. -/
theorem out2_ideal (node edge glob : Vec Ideal S256x32 .f32) (w : Vec Ideal S96x32 .f32) (b : Vec Ideal S1x32 .f32) :
    out2 node edge glob w b = Cert.Spec.proj node edge glob w (fun i => b (ix2 0 (i 0))) := by
  funext j
  obtain ⟨g, d, rfl⟩ : ∃ (g : Fin 256) (d : Fin 32), j = ix2 g d := ⟨j 0, j 1, eq_ix2 j⟩
  unfold out2 k2_pay1
  rw [maximumf_apply, addf_apply, addf_apply, addf_apply, broadcast_apply, prod_apply, prod_apply, prod_apply]
  have e0 : ∀ k : Fin 32, View.ld w rW0 (ix2 k d) = w (ix2 (⟨k.val, by omega⟩ : Fin 96) d) :=
    fun k => band_apply w 0 _ k d _ (Nat.zero_add _).symm
  have e1 : ∀ k : Fin 32, View.ld w rW1 (ix2 k d) = w (ix2 (⟨32 + k.val, by omega⟩ : Fin 96) d) :=
    fun k => band_apply w 32 _ k d _ rfl
  have e2 : ∀ k : Fin 32, View.ld w rW2 (ix2 k d) = w (ix2 (⟨64 + k.val, by omega⟩ : Fin 96) d) :=
    fun k => band_apply w 64 _ k d _ rfl
  simp only [truncf_apply, shapeCast_self, e0, e1, e2]
  rw [broadcastTo_1b_ab_apply, show (FloatOps.ofBits FTy.f32 0x00000000#32 : Ideal .f32) = 0 from Ideal.ofBits_zero_f32]
  rfl

end Cert.KernelIdeal.H

end
-- ==== Proof.KI.HostVal.lean ====
/-
  What the host operations of the kernel program compute, at the extended reals, from the launch memory `m`.

  Before region 0: `x` is padded behind its 100000 rows with zero rows to 106496 rows, and `batch` with the word -1 to
  106496 entries, laid as one row. Before region 1: `edge_attr` is padded behind its 1600000 rows with zero rows to 1605632
  rows; the graph id of every edge's source node is taken out of `batch` at the first row of `edge_index`, padded with the
  word -1 to 1605632 entries and laid as one row. The take moves a negative position up by the table's length, reads the
  table at the position clamped into [0, 99999] and keeps the entry read when the position was in that range: for a
  position in [0, 100000) it is the table's entry at the position.
-/
import proofs.«414828_j70153995813297_1_alg».proof.Proof.KI.Fold
import proofs.«414828_j70153995813297_1_alg».proof.Proof.Gen.KernelIdeal.Regions
import proofs.«414828_j70153995813297_1_alg».proof.Proof.Gen.Pre_finite_inputs
import proofs.«414828_j70153995813297_1_alg».proof.Pre_finite_inputs
import proofs.«414828_j70153995813297_1_alg».proof.Proof.Spec
import proofs.«414828_j70153995813297_1_alg».proof.Proof.KI.Arrays
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.ReduceAll
import Idealize.ShloMosaic.Lib.KernelVsHost

set_option maxRecDepth 16384

noncomputable section

namespace Cert.KernelIdeal.H

open Idealize.ShloMosaic Idealize.ShloMosaic.TcCoe Idealize.ShloMosaic.ValueIdx
open Idealize.SL Idealize.SL.Sem
open Cert.KernelIdeal Cert.KernelIdeal.Gen

namespace Host

/-! ## What each host stretch leaves in the buffer it is read for, over any contents before it -/

section Stretch
variable (V : Valuation τ sig (Elt Ideal))

theorem after0_v1 :
    (StableHlo.after hostOps0 V (Proc.devRef .tc main_v1) : IVec S1600000 32)
      = shapeCast S1600000 (extractStridedSlice S1x1600000 ![0, 0] (V (Proc.devRef .tc main_arg1) : IVec S2x1600000 32)
          slices_S2x1600000_S1x1600000_0_0) shapeCasts_S1x1600000_S1600000 := by
  after_results
  rfl

theorem after0_2_c : (StableHlo.after hostOps0_2 V (Proc.devRef .tc main_c) : IVec S_ 32) = constantI S_ 32 0#32 := by
  after_results

theorem after0_3_v3 :
    (StableHlo.after hostOps0_3 V (Proc.devRef .tc main_v3) : Vec Ideal S106496x32 .f32)
      = pad S106496x32 ![0, 0] ![6496, 0] ![0, 0] (V (Proc.devRef .tc main_arg0) : Vec Ideal S100000x32 .f32)
          (sitofp (F := Ideal) .f32 (V (Proc.devRef .tc main_c) : IVec S_ 32)) pads_S100000x32_S106496x32_064960_000 h_S_ := by
  after_results
  rfl

theorem after0_4_c0 : (StableHlo.after hostOps0_4 V (Proc.devRef .tc main_c_0) : IVec S_ 32) = constantI S_ 32 4294967295#32 := by
  after_results

theorem after0_5_v4 :
    (StableHlo.after hostOps0_5 V (Proc.devRef .tc main_v4) : IVec S106496 32)
      = pad S106496 ![0] ![6496] ![0] (V (Proc.devRef .tc main_arg4) : IVec S100000 32)
          (V (Proc.devRef .tc main_c_0) : IVec S_ 32) pads_S100000_S106496_064960 h_S_ := by
  after_results
  rfl

theorem after0_6_v5 :
    (StableHlo.after hostOps0_6 V (Proc.devRef .tc main_v5) : IVec S1x106496 32)
      = shapeCast S1x106496 (V (Proc.devRef .tc main_v4) : IVec S106496 32) shapeCasts_S106496_S1x106496 := by
  after_results
  rfl

theorem after1_c1 : (StableHlo.after hostOps1 V (Proc.devRef .tc main_c_1) : IVec S_ 32) = constantI S_ 32 0#32 := by
  after_results

theorem after1_1_v7 :
    (StableHlo.after hostOps1_1 V (Proc.devRef .tc main_v7) : Vec Ideal S1605632x32 .f32)
      = pad S1605632x32 ![0, 0] ![5632, 0] ![0, 0] (V (Proc.devRef .tc main_arg2) : Vec Ideal S1600000x32 .f32)
          (sitofp (F := Ideal) .f32 (V (Proc.devRef .tc main_c_1) : IVec S_ 32)) pads_S1600000x32_S1605632x32_056320_000 h_S_ := by
  after_results
  rfl

theorem after1_2_c2 : (StableHlo.after hostOps1_2 V (Proc.devRef .tc main_c_2) : IVec S_ 32) = constantI S_ 32 4294967295#32 := by
  after_results

theorem after1_3_v8 :
    (StableHlo.after hostOps1_3 V (Proc.devRef .tc main_v8) : IVec S1605632 32)
      = pad S1605632 ![0] ![5632] ![0] (V (Proc.devRef .tc main_v2) : IVec S1600000 32)
          (V (Proc.devRef .tc main_c_2) : IVec S_ 32) pads_S1600000_S1605632_056320 h_S_ := by
  after_results
  rfl

theorem after1_4_v9 :
    (StableHlo.after hostOps1_4 V (Proc.devRef .tc main_v9) : IVec S1x1605632 32)
      = shapeCast S1x1605632 (V (Proc.devRef .tc main_v8) : IVec S1605632 32) shapeCasts_S1605632_S1x1605632 := by
  after_results
  rfl

theorem after2_v11 :
    (StableHlo.after hostOps2 V (Proc.devRef .tc main_v11) : Vec Ideal S1x32 .f32)
      = shapeCast S1x32 (V (Proc.devRef .tc main_arg6) : Vec Ideal S32 .f32) shapeCasts_S32_S1x32 := by
  after_results
  rfl

end Stretch

/-! ## Words in the table's range -/

section Words

theorem toInt_zero32 : (0#32 : BitVec 32).toInt = 0 := by decide
theorem toInt_top32 : (99999#32 : BitVec 32).toInt = 99999 := by decide

/-- A word whose signed value is in [0, 100000) has that value unsigned too. -/
theorem toNat_of_range (w : BitVec 32) (h0 : 0 ≤ w.toInt) (h1 : w.toInt < 100000) :
    w.toNat < 100000 ∧ w.toInt = (w.toNat : ℤ) := by
  have hlt := w.isLt
  rw [BitVec.toInt_eq_toNat_cond] at h0 h1 ⊢
  split_ifs at h0 h1 ⊢ <;> omega

/-- A position that is not negative is not moved up by the table's length. -/
theorem select_nonneg (w : BitVec 32) (h0 : 0 ≤ w.toInt) :
    Scalar.select (IntOp.cmpi .slt w 0#32) (IntOp.addi w 100000#32) w = w := by
  have hc : IntOp.cmpi .slt w 0#32 = 0#1 := by
    unfold IntOp.cmpi
    show BitVec.ofBool (w.slt 0#32) = 0#1
    rw [show w.slt 0#32 = false from by simp only [BitVec.slt, toInt_zero32, decide_eq_false_iff_not]; omega]
    rfl
  rw [hc]
  exact select_zero _ _

/-- A position in the table's range passes both bounds checks. -/
theorem inRange_bit (w : BitVec 32) (h0 : 0 ≤ w.toInt) (h1 : w.toInt < 100000) :
    IntOp.andi (IntOp.cmpi .sge w 0#32) (IntOp.cmpi .sle w 99999#32) = 1#1 := by
  have ha : IntOp.cmpi .sge w 0#32 = 1#1 := by
    unfold IntOp.cmpi
    show BitVec.ofBool ((0#32 : BitVec 32).sle w) = 1#1
    rw [show (0#32 : BitVec 32).sle w = true from by simp only [BitVec.sle, toInt_zero32, decide_eq_true_eq]; omega]
    rfl
  have hb : IntOp.cmpi .sle w 99999#32 = 1#1 := by
    unfold IntOp.cmpi
    show BitVec.ofBool (w.sle 99999#32) = 1#1
    rw [show w.sle 99999#32 = true from by simp only [BitVec.sle, toInt_top32, decide_eq_true_eq]; omega]
    rfl
  rw [ha, hb]; rfl

/-- Clamping a position in range into the table leaves it. -/
theorem clamp_inRange (w : BitVec 32) (h0 : 0 ≤ w.toInt) (h1 : w.toInt < 100000) :
    min w.toInt.toNat (100000 - 1) = w.toNat % 100000 := by
  obtain ⟨hn, hi⟩ := toNat_of_range w h0 h1
  rw [hi, Int.toNat_natCast, Nat.mod_eq_of_lt hn]
  omega

/-- A left fold by `and` from 1 over 1s is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from rfl]
    exact foldl_andi_ones f l fun n hn => h n (List.mem_cons_of_mem _ hn)

end Words

/-! ## The take of `batch` at the source nodes -/

section Take

/-- The position read: a negative one is moved up by the table's length. -/
def takePos (S : IVec S1600000 32) : IVec S1600000 32 :=
  select (cmpi .slt S (broadcastInDim S1600000 ![] bcast_S_S1600000 (constantI S_ 32 0#32)))
    (addi S (broadcastInDim S1600000 ![] bcast_S_S1600000 (constantI S_ 32 100000#32))) S

/-- The positions as one column. -/
def takeCol (S : IVec S1600000 32) : IVec S1600000x1 32 :=
  broadcastInDim S1600000x1 ![0] bcast_S1600000_S1600000x1_0 (takePos S)

/-- Whether each entry of a column of positions lies in the table: both bounds checks, over the column's one entry per
    row. -/
def maskOf (C : IVec S1600000x1 32) : IVec S1600000 1 :=
  Host.reduce IntOp.andi
    (andi (cmpi .sge C (broadcastInDim S1600000x1 ![] bcast_S_S1600000x1 (constantI S_ 32 0#32)))
      (cmpi .sle C (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Whether a position lies in the table. -/
def takeMask (S : IVec S1600000 32) : IVec S1600000 1 := maskOf (takeCol S)

/-- The take: the table `A` read at the positions clamped into range, and the least word where a position was not
    in the table. -/
def takeTerm (A : IVec S100000 32) (S : IVec S1600000 32) : IVec S1600000 32 :=
  select (takeMask S) (Host.gather gather_S100000_S1600000x1_S1600000_n_0_n_n_0_1_1 A (takeCol S))
    (broadcastInDim S1600000 ![] bcast_S_S1600000 (constantI S_ 32 2147483648#32))

theorem ofFin_eq_ix1 {n : Nat} (p : Fin n) : (Shape.Idx.ofFin p : (⟨1, ![n]⟩ : Shape).Idx) = ix1 p := by
  funext d; match d with | ⟨0, _⟩ => rfl
theorem ixP_eq_ix2 {n : Nat} (p : Fin n) : StableHlo.Predicate.ixP p = ix2 p (0 : Fin 1) := by
  funext d; match d with | ⟨0, _⟩ => rfl | ⟨1, _⟩ => rfl

variable (S : IVec S1600000 32) (e : Fin 1600000)

theorem takePos_apply (h0 : 0 ≤ (S (ix1 e)).toInt) : takePos S (ix1 e) = S (ix1 e) := by
  show Scalar.select (IntOp.cmpi .slt (S (ix1 e)) 0#32) (IntOp.addi (S (ix1 e)) 100000#32) (S (ix1 e)) = S (ix1 e)
  exact select_nonneg _ h0

theorem takeCol_apply : takeCol S (ix2 e (0 : Fin 1)) = takePos S (ix1 e) := by
  have h := StableHlo.Predicate.bcast_col1 bcast_S1600000_S1600000x1_0 (takePos S) e
  rw [ixP_eq_ix2, ofFin_eq_ix1] at h
  exact h

/-- Every index of the one-column array that reduces into row `e` is `(e, 0)`. -/
theorem col_idx (i : S1600000x1.Idx) (hi : reducesTo_S1600000x1_S1600000_d1.drop i = ix1 e) : i = ix2 e (0 : Fin 1) := by
  have hv : ((reducesTo_S1600000x1_S1600000_d1.drop i) 0 : Nat) = i 0 :=
    Shape.ReducesTo.drop_apply_val reducesTo_S1600000x1_S1600000_d1 i 0
  rw [hi] at hv
  funext a
  match a with
  | ⟨0, _⟩ => exact Fin.ext hv.symm
  | ⟨1, h1⟩ =>
    apply Fin.ext
    have hlt : (i ⟨1, h1⟩).val < 1 := (i ⟨1, h1⟩).isLt
    show (i ⟨1, h1⟩).val = 0
    omega

theorem takeMask_apply (h0 : 0 ≤ (S (ix1 e)).toInt) (h1 : (S (ix1 e)).toInt < 100000) : takeMask S (ix1 e) = 1#1 := by
  unfold takeMask maskOf
  rw [Host.reduce_eq_foldl]
  refine foldl_andi_ones _ _ fun i hi => ?_
  have hd : reducesTo_S1600000x1_S1600000_d1.drop i = ix1 e := by simpa using (List.mem_filter.mp hi).2
  rw [col_idx e i hd]
  show IntOp.andi (IntOp.cmpi .sge (takeCol S (ix2 e (0 : Fin 1))) 0#32) (IntOp.cmpi .sle (takeCol S (ix2 e (0 : Fin 1))) 99999#32) = 1#1
  rw [takeCol_apply, takePos_apply S e h0]
  exact inRange_bit _ h0 h1

theorem takeTerm_apply (A : IVec S100000 32) (h0 : 0 ≤ (S (ix1 e)).toInt) (h1 : (S (ix1 e)).toInt < 100000) :
    takeTerm A S (ix1 e) = A (ix1 ⟨(S (ix1 e)).toNat % 100000, Nat.mod_lt _ (by decide)⟩) := by
  unfold takeTerm
  rw [select_apply, takeMask_apply S e h0 h1, select_one]
  have hg := StableHlo.Predicate.gather_take gather_S100000_S1600000x1_S1600000_n_0_n_n_0_1_1 rfl rfl rfl rfl A (takeCol S) e (by decide)
  rw [ofFin_eq_ix1] at hg
  refine hg.trans ?_
  rw [ofFin_eq_ix1]
  refine congrArg A (congrArg ix1 (Fin.ext ?_))
  show min (takeCol S (StableHlo.Predicate.ixP e)).toInt.toNat (100000 - 1) = (S (ix1 e)).toNat % 100000
  rw [ixP_eq_ix2, takeCol_apply, takePos_apply S e h0]
  exact clamp_inRange _ h0 h1

end Take

/-! ## The take's operations, group by group -/

section TakeOps
attribute [local irreducible] Host.reduce

/-- The position read: the positions compared with zero, moved up by the table's length, and the choice between the two. -/
abbrev takeA : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1600000, .i32⟩) (broadcastInDim S1600000 ![] bcast_S_S1600000),
    StableHlo.TRef.binary (.of main_v1 : StableHlo.TRef sig ⟨S1600000, .i32⟩) (.of main_call0_v0 : StableHlo.TRef sig ⟨S1600000, .i32⟩) (.of main_call0_v1 : StableHlo.TRef sig ⟨S1600000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S1600000, .i32⟩) (broadcastInDim S1600000 ![] bcast_S_S1600000),
    StableHlo.TRef.binary (.of main_v1 : StableHlo.TRef sig ⟨S1600000, .i32⟩) (.of main_call0_v2 : StableHlo.TRef sig ⟨S1600000, .i32⟩) (.of main_call0_v3 : StableHlo.TRef sig ⟨S1600000, .i32⟩) addi,
    StableHlo.TRef.ternary (.of main_call0_v1 : StableHlo.TRef sig ⟨S1600000, .i1⟩) (.of main_call0_v3 : StableHlo.TRef sig ⟨S1600000, .i32⟩) (.of main_v1 : StableHlo.TRef sig ⟨S1600000, .i32⟩) (.of main_call0_v4 : StableHlo.TRef sig ⟨S1600000, .i32⟩) select ]

/-- The positions as one column. -/
abbrev takeB : List (HloOp τ sig (Elt Ideal)) :=
  [ StableHlo.TRef.unary main_call0_call0.v0 (.of main_call0_v5 : StableHlo.TRef sig ⟨S1600000x1, .i32⟩) (broadcastInDim S1600000x1 ![0] bcast_S1600000_S1600000x1_0) ]

/-- The bounds checks of the column and their conjunction along each row. -/
abbrev takeC : List (HloOp τ sig (Elt Ideal)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1600000x1, .i32⟩) (broadcastInDim S1600000x1 ![] bcast_S_S1600000x1),
    StableHlo.TRef.binary (.of main_call0_v5 : StableHlo.TRef sig ⟨S1600000x1, .i32⟩) (.of main_call0_v6 : StableHlo.TRef sig ⟨S1600000x1, .i32⟩) (.of main_call0_v7 : StableHlo.TRef sig ⟨S1600000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1600000x1, .i32⟩) (broadcastInDim S1600000x1 ![0, 1] bcast_S1x1_S1600000x1_0_1),
    StableHlo.TRef.binary (.of main_call0_v5 : StableHlo.TRef sig ⟨S1600000x1, .i32⟩) (.of main_call0_v9 : StableHlo.TRef sig ⟨S1600000x1, .i32⟩) (.of main_call0_v10 : StableHlo.TRef sig ⟨S1600000x1, .i1⟩) (cmpi .sle),
    StableHlo.TRef.binary (.of main_call0_v7 : StableHlo.TRef sig ⟨S1600000x1, .i1⟩) (.of main_call0_v10 : StableHlo.TRef sig ⟨S1600000x1, .i1⟩) (.of main_call0_v11 : StableHlo.TRef sig ⟨S1600000x1, .i1⟩) andi,
    StableHlo.TRef.nullary (.of main_call0_c_3 : StableHlo.TRef sig ⟨S_, .i1⟩) (constantI S_ 1 1#1),
    StableHlo.TRef.binary (.of main_call0_v11 : StableHlo.TRef sig ⟨S1600000x1, .i1⟩) (.of main_call0_c_3 : StableHlo.TRef sig ⟨S_, .i1⟩) (.of main_call0_v12 : StableHlo.TRef sig ⟨S1600000, .i1⟩) (fun x v => Host.reduce IntOp.andi x v reducesTo_S1600000x1_S1600000_d1 h_S_) ]

/-- The table read at the column. -/
abbrev takeD : List (HloOp τ sig (Elt Ideal)) :=
  [ StableHlo.TRef.binary (.of main_arg4 : StableHlo.TRef sig ⟨S100000, .i32⟩) (.of main_call0_v5 : StableHlo.TRef sig ⟨S1600000x1, .i32⟩) (.of main_call0_v13 : StableHlo.TRef sig ⟨S1600000, .i32⟩) (fun x i => Host.gather gather_S100000_S1600000x1_S1600000_n_0_n_n_0_1_1 x i) ]

/-- The choice between the entry read and the least word. -/
abbrev takeE : List (HloOp τ sig (Elt Ideal)) :=
  [ StableHlo.TRef.nullary (.of main_call0_c_4 : StableHlo.TRef sig ⟨S_, .i32⟩) (constantI S_ 32 2147483648#32),
    StableHlo.TRef.unary (.of main_call0_c_4 : StableHlo.TRef sig ⟨S_, .i32⟩) (.of main_call0_v14 : StableHlo.TRef sig ⟨S1600000, .i32⟩) (broadcastInDim S1600000 ![] bcast_S_S1600000),
    StableHlo.TRef.ternary (.of main_call0_v12 : StableHlo.TRef sig ⟨S1600000, .i1⟩) (.of main_call0_v13 : StableHlo.TRef sig ⟨S1600000, .i32⟩) (.of main_call0_v14 : StableHlo.TRef sig ⟨S1600000, .i32⟩) (.of main_v2 : StableHlo.TRef sig ⟨S1600000, .i32⟩) select ]

/-- Two lines of operations run one after the other. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

variable (V : Valuation τ sig (Elt Ideal))

theorem takeA_v4 :
    (StableHlo.after takeA V (Proc.devRef .tc main_call0_v4) : IVec S1600000 32) = takePos (V (Proc.devRef .tc main_v1) : IVec S1600000 32) := by
  after_results
  rfl
theorem takeA_arg4 : StableHlo.after takeA V (Proc.devRef .tc main_arg4) = V (Proc.devRef .tc main_arg4) := by
  after_results

theorem takeB_v5 :
    (StableHlo.after takeB V (Proc.devRef .tc main_call0_v5) : IVec S1600000x1 32)
      = broadcastInDim S1600000x1 ![0] bcast_S1600000_S1600000x1_0 (V (Proc.devRef .tc main_call0_v4) : IVec S1600000 32) := by
  after_results
  rfl
theorem takeB_arg4 : StableHlo.after takeB V (Proc.devRef .tc main_arg4) = V (Proc.devRef .tc main_arg4) := by
  after_results

theorem takeC_v12 :
    (StableHlo.after takeC V (Proc.devRef .tc main_call0_v12) : IVec S1600000 1) = maskOf (V (Proc.devRef .tc main_call0_v5) : IVec S1600000x1 32) := by
  after_results
  rfl
theorem takeC_arg4 : StableHlo.after takeC V (Proc.devRef .tc main_arg4) = V (Proc.devRef .tc main_arg4) := by
  after_results
theorem takeC_v5 : StableHlo.after takeC V (Proc.devRef .tc main_call0_v5) = V (Proc.devRef .tc main_call0_v5) := by
  after_results

theorem takeD_v13 :
    (StableHlo.after takeD V (Proc.devRef .tc main_call0_v13) : IVec S1600000 32)
      = Host.gather gather_S100000_S1600000x1_S1600000_n_0_n_n_0_1_1 (V (Proc.devRef .tc main_arg4) : IVec S100000 32)
          (V (Proc.devRef .tc main_call0_v5) : IVec S1600000x1 32) := by
  after_results
  rfl
theorem takeD_v12 : StableHlo.after takeD V (Proc.devRef .tc main_call0_v12) = V (Proc.devRef .tc main_call0_v12) := by
  after_results

theorem takeE_v2 :
    (StableHlo.after takeE V (Proc.devRef .tc main_v2) : IVec S1600000 32)
      = select (V (Proc.devRef .tc main_call0_v12) : IVec S1600000 1) (V (Proc.devRef .tc main_call0_v13) : IVec S1600000 32)
          (broadcastInDim S1600000 ![] bcast_S_S1600000 (constantI S_ 32 2147483648#32)) := by
  after_results
  rfl

theorem after0_1_v2 :
    (StableHlo.after hostOps0_1 V (Proc.devRef .tc main_v2) : IVec S1600000 32)
      = takeTerm (V (Proc.devRef .tc main_arg4) : IVec S100000 32) (V (Proc.devRef .tc main_v1) : IVec S1600000 32) := by
  have e : StableHlo.after hostOps0_1 V
      = StableHlo.after takeE (StableHlo.after takeD (StableHlo.after takeC (StableHlo.after takeB (StableHlo.after takeA V)))) := by
    show StableHlo.after (takeA ++ (takeB ++ (takeC ++ (takeD ++ takeE)))) V = _
    rw [after_append, after_append, after_append, after_append]
  refine (congrFun e (Proc.devRef .tc main_v2)).trans ?_
  have hcol : (StableHlo.after takeB (StableHlo.after takeA V) (Proc.devRef .tc main_call0_v5) : IVec S1600000x1 32)
      = takeCol (V (Proc.devRef .tc main_v1) : IVec S1600000 32) := by
    unfold takeCol
    rw [takeB_v5, takeA_v4]
  have harg : (StableHlo.after takeB (StableHlo.after takeA V) (Proc.devRef .tc main_arg4) : IVec S100000 32)
      = V (Proc.devRef .tc main_arg4) := (takeB_arg4 (StableHlo.after takeA V)).trans (takeA_arg4 V)
  refine (takeE_v2 _).trans ?_
  unfold takeTerm takeMask
  rw [takeD_v12, takeC_v12, hcol, takeD_v13, takeC_arg4, harg, takeC_v5, hcol]

end TakeOps

/-! ## A buffer a stretch does not write keeps its contents -/

section Keep
variable (V : Valuation τ sig (Elt Ideal)) (r : Ref sig .tc)
theorem keep0 (h : r ∉ hostOps0_W) : StableHlo.after hostOps0 V (Proc.devRef .tc r) = V (Proc.devRef .tc r) :=
  StableHlo.after_of_writes_sub hostOps0 V hostOps0_writes h
theorem keep0_1 (h : r ∉ hostOps0_1_W) : StableHlo.after hostOps0_1 V (Proc.devRef .tc r) = V (Proc.devRef .tc r) :=
  StableHlo.after_of_writes_sub hostOps0_1 V hostOps0_1_writes h
theorem keep0_2 (h : r ∉ hostOps0_2_W) : StableHlo.after hostOps0_2 V (Proc.devRef .tc r) = V (Proc.devRef .tc r) :=
  StableHlo.after_of_writes_sub hostOps0_2 V hostOps0_2_writes h
theorem keep0_3 (h : r ∉ hostOps0_3_W) : StableHlo.after hostOps0_3 V (Proc.devRef .tc r) = V (Proc.devRef .tc r) :=
  StableHlo.after_of_writes_sub hostOps0_3 V hostOps0_3_writes h
theorem keep0_4 (h : r ∉ hostOps0_4_W) : StableHlo.after hostOps0_4 V (Proc.devRef .tc r) = V (Proc.devRef .tc r) :=
  StableHlo.after_of_writes_sub hostOps0_4 V hostOps0_4_writes h
theorem keep0_5 (h : r ∉ hostOps0_5_W) : StableHlo.after hostOps0_5 V (Proc.devRef .tc r) = V (Proc.devRef .tc r) :=
  StableHlo.after_of_writes_sub hostOps0_5 V hostOps0_5_writes h
theorem keep0_6 (h : r ∉ hostOps0_6_W) : StableHlo.after hostOps0_6 V (Proc.devRef .tc r) = V (Proc.devRef .tc r) :=
  StableHlo.after_of_writes_sub hostOps0_6 V hostOps0_6_writes h
theorem keep1 (h : r ∉ hostOps1_W) : StableHlo.after hostOps1 V (Proc.devRef .tc r) = V (Proc.devRef .tc r) :=
  StableHlo.after_of_writes_sub hostOps1 V hostOps1_writes h
theorem keep1_1 (h : r ∉ hostOps1_1_W) : StableHlo.after hostOps1_1 V (Proc.devRef .tc r) = V (Proc.devRef .tc r) :=
  StableHlo.after_of_writes_sub hostOps1_1 V hostOps1_1_writes h
theorem keep1_2 (h : r ∉ hostOps1_2_W) : StableHlo.after hostOps1_2 V (Proc.devRef .tc r) = V (Proc.devRef .tc r) :=
  StableHlo.after_of_writes_sub hostOps1_2 V hostOps1_2_writes h
theorem keep1_3 (h : r ∉ hostOps1_3_W) : StableHlo.after hostOps1_3 V (Proc.devRef .tc r) = V (Proc.devRef .tc r) :=
  StableHlo.after_of_writes_sub hostOps1_3 V hostOps1_3_writes h
theorem keep1_4 (h : r ∉ hostOps1_4_W) : StableHlo.after hostOps1_4 V (Proc.devRef .tc r) = V (Proc.devRef .tc r) :=
  StableHlo.after_of_writes_sub hostOps1_4 V hostOps1_4_writes h
end Keep

/-! ## The contents between the items, walked back to the launch memory -/

variable (m : (ℓ : Loc nD τ sig) → Buf (Elt Ideal) ℓ) (c : Dev nD)

/-- A buffer none of the first three stretches writes holds its launch contents before the padding of `x`. -/
theorem W3_launch (r : Ref sig .tc) (h0 : r ∉ hostOps0_W) (h1 : r ∉ hostOps0_1_W) (h2 : r ∉ hostOps0_2_W) :
    W3 m c (Proc.devRef .tc r) = W0 m c (Proc.devRef .tc r) :=
  (keep0_2 (W2 m c) r h2).trans <| (keep0_1 (W1 m c) r h1).trans (keep0 (W0 m c) r h0)

/-- A buffer none of the seven stretches before region 0 writes holds its launch contents at region 0's entry. -/
theorem W7_launch (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) :
    W7 m c (Proc.devRef .tc r) = W0 m c (Proc.devRef .tc r) :=
  (keep0_6 (W6 m c) r h6).trans <| (keep0_5 (W5 m c) r h5).trans <| (keep0_4 (W4 m c) r h4).trans <|
    (keep0_3 (W3 m c) r h3).trans (W3_launch m c r h0 h1 h2)

/-! ## A padding behind the rows, and a vector laid as one row, read at an index -/

section ReadAt
variable {α : Type}

theorem pad_rows_apply {n N k : Nat} (X : (⟨2, ![n, k]⟩ : Shape).Idx → α) {u : Shape} (z : u.Idx → α) (hi : Fin 2 → Nat)
    (h : (⟨2, ![n, k]⟩ : Shape).Pads ![0, 0] hi ![0, 0] ⟨2, ![N, k]⟩) (hu : 0 < u.numel) (r : Fin N) (d : Fin k) :
    pad ⟨2, ![N, k]⟩ ![0, 0] hi ![0, 0] X z h hu (ix2 r d)
      = if hr : r.val < n then X (ix2 ⟨r.val, hr⟩ d) else z (Shape.Idx.first hu) := by
  by_cases hr : r.val < n
  · rw [dif_pos hr]
    refine pad_apply_of_inside _ _ _ X z h hu (ix2 r d) (ix2 ⟨r.val, hr⟩ d) (fun a => ?_)
    match a with
    | ⟨0, _⟩ => show r.val = 0 + r.val * (0 + 1); omega
    | ⟨1, _⟩ => show d.val = 0 + d.val * (0 + 1); omega
  · rw [dif_neg hr]
    refine pad_apply_of_not_inside _ _ _ X z h hu (ix2 r d) (0 : Fin 2) (fun hin => hr ?_)
    have h3 : (r.val - 0) / (0 + 1) < n := hin.2.2
    simpa using h3

theorem pad_vec_apply {n N : Nat} (X : (⟨1, ![n]⟩ : Shape).Idx → α) {u : Shape} (z : u.Idx → α) (hi : Fin 1 → Nat)
    (h : (⟨1, ![n]⟩ : Shape).Pads ![0] hi ![0] ⟨1, ![N]⟩) (hu : 0 < u.numel) (r : Fin N) :
    pad ⟨1, ![N]⟩ ![0] hi ![0] X z h hu (ix1 r)
      = if hr : r.val < n then X (ix1 ⟨r.val, hr⟩) else z (Shape.Idx.first hu) := by
  by_cases hr : r.val < n
  · rw [dif_pos hr]
    refine pad_apply_of_inside _ _ _ X z h hu (ix1 r) (ix1 ⟨r.val, hr⟩) (fun a => ?_)
    match a with
    | ⟨0, _⟩ => show r.val = 0 + r.val * (0 + 1); omega
  · rw [dif_neg hr]
    refine pad_apply_of_not_inside _ _ _ X z h hu (ix1 r) (0 : Fin 1) (fun hin => hr ?_)
    have h3 : (r.val - 0) / (0 + 1) < n := hin.2.2
    simpa using h3

theorem row_of_vec_apply {N : Nat} (Y : (⟨1, ![N]⟩ : Shape).Idx → α) (h : (⟨1, ![N]⟩ : Shape).ShapeCasts ⟨2, ![1, N]⟩) (r : Fin N) :
    shapeCast ⟨2, ![1, N]⟩ Y h (ix2 (0 : Fin 1) r) = Y (ix1 r) := by
  refine shapeCast_apply Y h (ix2 (0 : Fin 1) r) (ix1 r) ?_
  rw [Shape.rowMajor_val_one, Shape.rowMajor_val_two]
  show r.val = 0 * N + r.val
  omega

end ReadAt

/-! ## Region 0's operands -/

theorem W3_c : (W3 m c (Proc.devRef .tc main_c) : IVec S_ 32) = constantI S_ 32 0#32 := after0_2_c (W2 m c)

/-- The padding value of the features: the integer zero converted. -/
theorem zero_pad (j : S_.Idx) : (sitofp (F := Ideal) .f32 (constantI S_ 32 0#32) : Vec Ideal S_ .f32) j = 0 :=
  sitofp_zero

theorem featArr0_eq :
    featArr0 (V7 m) c = pad S106496x32 ![0, 0] ![6496, 0] ![0, 0] (ax m c)
      (sitofp (F := Ideal) .f32 (constantI S_ 32 0#32) : Vec Ideal S_ .f32) pads_S100000x32_S106496x32_064960_000 h_S_ := by
  have e4 : featArr0 (V7 m) c = W4 m c (Proc.devRef .tc main_v3) :=
    (keep0_6 (W6 m c) main_v3 (by decide)).trans <| (keep0_5 (W5 m c) main_v3 (by decide)).trans (keep0_4 (W4 m c) main_v3 (by decide))
  have ex : (W3 m c (Proc.devRef .tc main_arg0) : Vec Ideal S100000x32 .f32) = ax m c :=
    W3_launch m c main_arg0 (by decide) (by decide) (by decide)
  rw [e4]
  refine (after0_3_v3 (W3 m c)).trans ?_
  rw [ex, W3_c]

theorem featArr0_apply (r : Fin 106496) (d : Fin 32) :
    featArr0 (V7 m) c (ix2 r d) = if h : r.val < 100000 then ax m c (ix2 ⟨r.val, h⟩ d) else 0 := by
  rw [featArr0_eq]
  refine (pad_rows_apply (ax m c) _ _ pads_S100000x32_S106496x32_064960_000 h_S_ r d).trans ?_
  by_cases h : r.val < 100000
  · rw [dif_pos h, dif_pos h]
  · rw [dif_neg h, dif_neg h]; exact zero_pad _

theorem W5_c0 : (W5 m c (Proc.devRef .tc main_c_0) : IVec S_ 32) = constantI S_ 32 4294967295#32 := after0_4_c0 (W4 m c)

theorem idsArr0_eq :
    idsArr0 (V7 m) c = shapeCast S1x106496
      (pad S106496 ![0] ![6496] ![0] (abatch m c) (constantI S_ 32 4294967295#32 : IVec S_ 32) pads_S100000_S106496_064960 h_S_)
      shapeCasts_S106496_S1x106496 := by
  have eb : (W5 m c (Proc.devRef .tc main_arg4) : IVec S100000 32) = abatch m c :=
    (keep0_4 (W4 m c) main_arg4 (by decide)).trans <| (keep0_3 (W3 m c) main_arg4 (by decide)).trans
      (W3_launch m c main_arg4 (by decide) (by decide) (by decide))
  refine (after0_6_v5 (W6 m c)).trans (congrArg (fun Y => shapeCast S1x106496 Y shapeCasts_S106496_S1x106496) ?_)
  refine (after0_5_v4 (W5 m c)).trans ?_
  rw [eb, W5_c0]

theorem idsArr0_apply (r : Fin 106496) :
    idsArr0 (V7 m) c (ix2 (0 : Fin 1) r) = if h : r.val < 100000 then abatch m c (ix1 ⟨r.val, h⟩) else 4294967295#32 := by
  rw [idsArr0_eq]
  refine (row_of_vec_apply _ shapeCasts_S106496_S1x106496 r).trans ?_
  exact pad_vec_apply (abatch m c) _ _ pads_S100000_S106496_064960 h_S_ r

/-! ## Region 1's operands -/

/-- A buffer that is no array of region 0 and that no stretch before region 0 writes holds its launch contents at
    region 0's exit. -/
theorem W8_launch (r : Ref sig .tc) (hb : ∀ w, Pipeline.arrRef spec0 w ≠ r) (h0 : r ∉ hostOps0_W) (h1 : r ∉ hostOps0_1_W)
    (h2 : r ∉ hostOps0_2_W) (h3 : r ∉ hostOps0_3_W) (h4 : r ∉ hostOps0_4_W) (h5 : r ∉ hostOps0_5_W) (h6 : r ∉ hostOps0_6_W) :
    W8 m c (Proc.devRef .tc r) = W0 m c (Proc.devRef .tc r) :=
  (W8_of_ne m c r hb).trans (W7_launch m c r h0 h1 h2 h3 h4 h5 h6)

theorem W9_c1 : (W9 m c (Proc.devRef .tc main_c_1) : IVec S_ 32) = constantI S_ 32 0#32 := after1_c1 (W8 m c)

theorem featArr1_eq :
    featArr1 (V13 m) c = pad S1605632x32 ![0, 0] ![5632, 0] ![0, 0] (aea m c)
      (sitofp (F := Ideal) .f32 (constantI S_ 32 0#32) : Vec Ideal S_ .f32) pads_S1600000x32_S1605632x32_056320_000 h_S_ := by
  have e10 : featArr1 (V13 m) c = W10 m c (Proc.devRef .tc main_v7) :=
    (keep1_4 (W12 m c) main_v7 (by decide)).trans <| (keep1_3 (W11 m c) main_v7 (by decide)).trans (keep1_2 (W10 m c) main_v7 (by decide))
  have ex : (W9 m c (Proc.devRef .tc main_arg2) : Vec Ideal S1600000x32 .f32) = aea m c :=
    (keep1 (W8 m c) main_arg2 (by decide)).trans
      (W8_launch m c main_arg2 (by decide) (by decide) (by decide) (by decide) (by decide) (by decide) (by decide) (by decide))
  rw [e10]
  refine (after1_1_v7 (W9 m c)).trans ?_
  rw [ex, W9_c1]

theorem featArr1_apply (r : Fin 1605632) (d : Fin 32) :
    featArr1 (V13 m) c (ix2 r d) = if h : r.val < 1600000 then aea m c (ix2 ⟨r.val, h⟩ d) else 0 := by
  rw [featArr1_eq]
  refine (pad_rows_apply (aea m c) _ _ pads_S1600000x32_S1605632x32_056320_000 h_S_ r d).trans ?_
  by_cases h : r.val < 1600000
  · rw [dif_pos h, dif_pos h]
  · rw [dif_neg h, dif_neg h]; exact zero_pad _

/-- The first row of the edge list as a vector: the edges' source nodes. -/
def srcRow (ei : IVec S2x1600000 32) : IVec S1600000 32 :=
  shapeCast S1600000 (extractStridedSlice S1x1600000 ![0, 0] ei slices_S2x1600000_S1x1600000_0_0) shapeCasts_S1x1600000_S1600000

theorem srcRow_apply (ei : IVec S2x1600000 32) (e : Fin 1600000) : srcRow ei (ix1 e) = ei (ix2 (0 : Fin 2) e) := by
  unfold srcRow
  refine (shapeCast_apply _ shapeCasts_S1x1600000_S1600000 (ix1 e) (ix2 (0 : Fin 1) e) ?_).trans ?_
  · rw [Shape.rowMajor_val_one, Shape.rowMajor_val_two]
    show 0 * 1600000 + e.val = e.val
    omega
  · refine extractStridedSlice_apply ![0, 0] ei slices_S2x1600000_S1x1600000_0_0 (ix2 (0 : Fin 1) e) (ix2 (0 : Fin 2) e) (fun a => ?_)
    match a with
    | ⟨0, _⟩ => rfl
    | ⟨1, _⟩ => show e.val = 0 + e.val; omega

theorem W11_c2 : (W11 m c (Proc.devRef .tc main_c_2) : IVec S_ 32) = constantI S_ 32 4294967295#32 := after1_2_c2 (W10 m c)

/-- The source nodes' graph ids, as the take leaves them, reach the padding before region 1 unchanged. -/
theorem W11_v2 : (W11 m c (Proc.devRef .tc main_v2) : IVec S1600000 32) = takeTerm (abatch m c) (srcRow (aei m c)) := by
  have e2 : W11 m c (Proc.devRef .tc main_v2) = W2 m c (Proc.devRef .tc main_v2) :=
    (keep1_2 (W10 m c) main_v2 (by decide)).trans <| (keep1_1 (W9 m c) main_v2 (by decide)).trans <|
      (keep1 (W8 m c) main_v2 (by decide)).trans <| (W8_of_ne m c main_v2 (by decide)).trans <|
      (keep0_6 (W6 m c) main_v2 (by decide)).trans <| (keep0_5 (W5 m c) main_v2 (by decide)).trans <|
      (keep0_4 (W4 m c) main_v2 (by decide)).trans <| (keep0_3 (W3 m c) main_v2 (by decide)).trans
      (keep0_2 (W2 m c) main_v2 (by decide))
  have eb : (W1 m c (Proc.devRef .tc main_arg4) : IVec S100000 32) = abatch m c := keep0 (W0 m c) main_arg4 (by decide)
  have es : (W1 m c (Proc.devRef .tc main_v1) : IVec S1600000 32) = srcRow (aei m c) := after0_v1 (W0 m c)
  rw [e2]
  refine (after0_1_v2 (W1 m c)).trans ?_
  rw [eb, es]

theorem idsArr1_eq :
    idsArr1 (V13 m) c = shapeCast S1x1605632
      (pad S1605632 ![0] ![5632] ![0] (takeTerm (abatch m c) (srcRow (aei m c))) (constantI S_ 32 4294967295#32 : IVec S_ 32)
        pads_S1600000_S1605632_056320 h_S_)
      shapeCasts_S1605632_S1x1605632 := by
  refine (after1_4_v9 (W12 m c)).trans (congrArg (fun Y => shapeCast S1x1605632 Y shapeCasts_S1605632_S1x1605632) ?_)
  refine (after1_3_v8 (W11 m c)).trans ?_
  rw [W11_v2, W11_c2]

theorem idsArr1_apply (hsrc : ∀ e : Fin 1600000, 0 ≤ (aei m c (ix2 (0 : Fin 2) e)).toInt ∧ (aei m c (ix2 (0 : Fin 2) e)).toInt < 100000)
    (r : Fin 1605632) :
    idsArr1 (V13 m) c (ix2 (0 : Fin 1) r)
      = if h : r.val < 1600000 then Cert.Spec.srcId (abatch m c) (aei m c) ⟨r.val, h⟩ else 4294967295#32 := by
  rw [idsArr1_eq]
  refine (row_of_vec_apply _ shapeCasts_S1605632_S1x1605632 r).trans ?_
  refine (pad_vec_apply (takeTerm (abatch m c) (srcRow (aei m c))) _ _ pads_S1600000_S1605632_056320 h_S_ r).trans ?_
  by_cases h : r.val < 1600000
  · rw [dif_pos h, dif_pos h]
    have hs := srcRow_apply (aei m c) ⟨r.val, h⟩
    have h0 : 0 ≤ (srcRow (aei m c) (ix1 ⟨r.val, h⟩)).toInt := by rw [hs]; exact (hsrc ⟨r.val, h⟩).1
    have h1 : (srcRow (aei m c) (ix1 ⟨r.val, h⟩)).toInt < 100000 := by rw [hs]; exact (hsrc ⟨r.val, h⟩).2
    refine (takeTerm_apply (srcRow (aei m c)) ⟨r.val, h⟩ (abatch m c) h0 h1).trans ?_
    unfold Cert.Spec.srcId
    exact congrArg (abatch m c) (congrArg ix1 (Fin.ext (by rw [hs])))
  · rw [dif_neg h, dif_neg h]; rfl

end Host

variable (m : (ℓ : Loc nD τ sig) → Buf (Elt Ideal) ℓ)

/-- Region 0's features: the rows of `x`, then zero rows. -/
theorem V7_v3 (c : Dev nD) (r : Fin 106496) (d : Fin 32) :
    featArr0 (V7 m) c (ix2 r d) = if h : r.val < 100000 then ax m c (ix2 ⟨r.val, h⟩ d) else 0 :=
  Host.featArr0_apply m c r d

/-- Region 0's segment ids: the entries of `batch`, then the word -1. -/
theorem V7_v5 (c : Dev nD) (r : Fin 106496) :
    idsArr0 (V7 m) c (ix2 0 r) = if h : r.val < 100000 then abatch m c (ix1 ⟨r.val, h⟩) else 4294967295#32 :=
  Host.idsArr0_apply m c r

/-- Region 1's features: the rows of `edge_attr`, then zero rows. -/
theorem V13_v7 (c : Dev nD) (r : Fin 1605632) (d : Fin 32) :
    featArr1 (V13 m) c (ix2 r d) = if h : r.val < 1600000 then aea m c (ix2 ⟨r.val, h⟩ d) else 0 :=
  Host.featArr1_apply m c r d

/-- Region 1's segment ids, when every source node is a node number: the graph id of each edge's source node, then the
    word -1. -/
theorem V13_v9 (c : Dev nD) (hsrc : ∀ e : Fin 1600000, 0 ≤ (aei m c (ix2 0 e)).toInt ∧ (aei m c (ix2 0 e)).toInt < 100000)
    (r : Fin 1605632) :
    idsArr1 (V13 m) c (ix2 0 r) = if h : r.val < 1600000 then Cert.Spec.srcId (abatch m c) (aei m c) ⟨r.val, h⟩ else 4294967295#32 :=
  Host.idsArr1_apply m c hsrc r

end Cert.KernelIdeal.H
end
-- ==== Proof.KI.HostVal2.lean ====
/-
  Region 2's operands as functions of the launch memory: the two segment-sum arrays are what regions 0 and 1 left
  in their output arrays (nothing between writes them again), the globals and the weights are the arguments as
  launched (no item writes an argument), and the bias row is the one reshape of the bias argument to one row.
-/
import proofs.«414828_j70153995813297_1_alg».proof.Proof.KI.Fold
import proofs.«414828_j70153995813297_1_alg».proof.Proof.KI.Arrays
import proofs.«414828_j70153995813297_1_alg».proof.Proof.Gen.KernelIdeal.Regions
import Idealize.ShloMosaic.Lib.StableHlo.Run
import Idealize.ShloMosaic.Lib.ValueIdx
import Idealize.ShloMosaic.Lib.ValueLayout

set_option maxRecDepth 16384

noncomputable section

namespace Cert.KernelIdeal.H

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## A reference no item from the launch to region 0's entry writes -/

/-- Region 0 is entered with such a reference as launched: the seven host stretches before it write other buffers. -/
theorem W7_of (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc))) (h4 : r ∉ (hostOps0_4_W : List (Ref sig .tc)))
    (h5 : r ∉ (hostOps0_5_W : List (Ref sig .tc))) (h6 : r ∉ (hostOps0_6_W : List (Ref sig .tc))) :
    W7 m c (Proc.devRef .tc r) = m ((c : Thread nD τ).loc r) :=
  calc W7 m c (Proc.devRef .tc r)
    _ = W6 m c (Proc.devRef .tc r) := StableHlo.after_of_writes_sub hostOps0_6 _ hostOps0_6_writes h6
    _ = W5 m c (Proc.devRef .tc r) := StableHlo.after_of_writes_sub hostOps0_5 _ hostOps0_5_writes h5
    _ = W4 m c (Proc.devRef .tc r) := StableHlo.after_of_writes_sub hostOps0_4 _ hostOps0_4_writes h4
    _ = W3 m c (Proc.devRef .tc r) := StableHlo.after_of_writes_sub hostOps0_3 _ hostOps0_3_writes h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

/-- From region 0's exit to region 1's entry: five host stretches. -/
theorem W13_of (c : Dev nD) (r : Ref sig .tc) (h0 : r ∉ (hostOps1_W : List (Ref sig .tc))) (h1 : r ∉ (hostOps1_1_W : List (Ref sig .tc)))
    (h2 : r ∉ (hostOps1_2_W : List (Ref sig .tc))) (h3 : r ∉ (hostOps1_3_W : List (Ref sig .tc))) (h4 : r ∉ (hostOps1_4_W : List (Ref sig .tc))) :
    W13 m c (Proc.devRef .tc r) = W8 m c (Proc.devRef .tc r) :=
  calc W13 m c (Proc.devRef .tc r)
    _ = W12 m c (Proc.devRef .tc r) := StableHlo.after_of_writes_sub hostOps1_4 _ hostOps1_4_writes h4
    _ = W11 m c (Proc.devRef .tc r) := StableHlo.after_of_writes_sub hostOps1_3 _ hostOps1_3_writes h3
    _ = W10 m c (Proc.devRef .tc r) := StableHlo.after_of_writes_sub hostOps1_2 _ hostOps1_2_writes h2
    _ = W9 m c (Proc.devRef .tc r) := StableHlo.after_of_writes_sub hostOps1_1 _ hostOps1_1_writes h1
    _ = W8 m c (Proc.devRef .tc r) := StableHlo.after_of_writes_sub hostOps1 _ hostOps1_writes h0

/-- A reference that is no array of a window of region 0 or of region 1 and that none of the twelve host stretches
    before region 1's exit writes — every argument is one — holds at region 1's exit what it held at launch. -/
theorem W14_arg (c : Dev nD) (r : Ref sig .tc) (hr0 : ∀ w, Pipeline.arrRef spec0 w ≠ r) (hr1 : ∀ w, Pipeline.arrRef spec1 w ≠ r)
    (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc))) (h4 : r ∉ (hostOps0_4_W : List (Ref sig .tc)))
    (h5 : r ∉ (hostOps0_5_W : List (Ref sig .tc))) (h6 : r ∉ (hostOps0_6_W : List (Ref sig .tc)))
    (k0 : r ∉ (hostOps1_W : List (Ref sig .tc))) (k1 : r ∉ (hostOps1_1_W : List (Ref sig .tc)))
    (k2 : r ∉ (hostOps1_2_W : List (Ref sig .tc))) (k3 : r ∉ (hostOps1_3_W : List (Ref sig .tc))) (k4 : r ∉ (hostOps1_4_W : List (Ref sig .tc))) :
    W14 m c (Proc.devRef .tc r) = m ((c : Thread nD τ).loc r) :=
  calc W14 m c (Proc.devRef .tc r)
    _ = W13 m c (Proc.devRef .tc r) := W14_of_ne m c r hr1
    _ = W8 m c (Proc.devRef .tc r) := W13_of m c r k0 k1 k2 k3 k4
    _ = W7 m c (Proc.devRef .tc r) := W8_of_ne m c r hr0
    _ = m ((c : Thread nD τ).loc r) := W7_of m c r h0 h1 h2 h3 h4 h5 h6

/-! ## The five operands -/

/-- The node segment sums: what region 0's write-backs left in its output array; the later stretches and region 1 write
    other buffers. -/
theorem V15_v6 (c : Dev nD) : nodeArr (V15 m) c = (dat0 (V7 m) c).arrAt 2 cfg0.N :=
  calc W15 m c (Proc.devRef .tc main_v6)
    _ = W14 m c (Proc.devRef .tc main_v6) := StableHlo.after_of_writes_sub hostOps2 _ hostOps2_writes (by decide)
    _ = W13 m c (Proc.devRef .tc main_v6) := W14_of_ne m c main_v6 (by decide)
    _ = W8 m c (Proc.devRef .tc main_v6) := W13_of m c main_v6 (by decide) (by decide) (by decide) (by decide) (by decide)
    _ = (dat0 (V7 m) c).arrAt 2 cfg0.N := W8_arr m c 2

/-- The edge segment sums: what region 1's write-backs left in its output array. -/
theorem V15_v10 (c : Dev nD) : edgeArr (V15 m) c = (dat1 (V13 m) c).arrAt 2 cfg1.N :=
  calc W15 m c (Proc.devRef .tc main_v10)
    _ = W14 m c (Proc.devRef .tc main_v10) := StableHlo.after_of_writes_sub hostOps2 _ hostOps2_writes (by decide)
    _ = (dat1 (V13 m) c).arrAt 2 cfg1.N := W14_arr m c 2

/-- The globals: the argument as launched. -/
theorem V15_arg3 (c : Dev nD) : globArr (V15 m) c = au m c :=
  calc W15 m c (Proc.devRef .tc main_arg3)
    _ = W14 m c (Proc.devRef .tc main_arg3) := StableHlo.after_of_writes_sub hostOps2 _ hostOps2_writes (by decide)
    _ = m ((c : Thread nD τ).loc main_arg3) := W14_arg m c main_arg3 (by decide) (by decide) (by decide) (by decide) (by decide) (by decide) (by decide) (by decide) (by decide) (by decide) (by decide) (by decide) (by decide) (by decide)

/-- The weights: the argument as launched. -/
theorem V15_arg5 (c : Dev nD) : wtsArr (V15 m) c = aW m c :=
  calc W15 m c (Proc.devRef .tc main_arg5)
    _ = W14 m c (Proc.devRef .tc main_arg5) := StableHlo.after_of_writes_sub hostOps2 _ hostOps2_writes (by decide)
    _ = m ((c : Thread nD τ).loc main_arg5) := W14_arg m c main_arg5 (by decide) (by decide) (by decide) (by decide) (by decide) (by decide) (by decide) (by decide) (by decide) (by decide) (by decide) (by decide) (by decide) (by decide)

/-- The bias row: the bias argument's 32 entries laid out as one row of 32, so entry `(0, d)` is entry `d` of the
    argument as launched. -/
theorem V15_v11 (c : Dev nD) (d : Fin 32) : biasArr (V15 m) c (ix2 0 d) = ab m c (ix1 d) := by
  have e : (V15 m c main_v11 : S1x32.Idx → EReal) = shapeCast S1x32 (W14 m c (Proc.devRef .tc main_arg6) : S32.Idx → EReal) shapeCasts_S32_S1x32 := by
    show StableHlo.after hostOps2 (W14 m c) (Proc.devRef .tc main_v11) = _
    after_results
    rfl
  show (V15 m c main_v11 : S1x32.Idx → EReal) (ix2 0 d) = _
  rw [e, shapeCast_a_1a_apply]
  exact congrFun (W14_arg m c main_arg6 (by decide) (by decide) (by decide) (by decide) (by decide) (by decide) (by decide) (by decide) (by decide) (by decide) (by decide) (by decide) (by decide) (by decide)) (ix1 d)

end Cert.KernelIdeal.H

end
-- ==== Proof.PadSum.lean ====
/-
  Zero padding adds nothing to a sum: over `n + k` rows of which the last `k` contribute zero, the sum is the sum
  over the first `n`. And a padded row whose id is the word -1 is met by no segment number.
-/
import Idealize.ShloMosaic.PureOps.Ideal
import Idealize.ShloMosaic.Lib.ValueIdx

noncomputable section

namespace Cert.PadSum

/-- The sum over `n + k` rows of a summand that vanishes from row `n` on is the sum over the first `n` rows. -/
theorem sum_pad (n k : ℕ) (f : Fin n → EReal) :
    (∑ r : Fin (n + k), if h : r.val < n then f ⟨r.val, h⟩ else 0) = ∑ r : Fin n, f r := by
  rw [Fin.sum_univ_add]
  have h1 : ∀ i : Fin n, (if h : (Fin.castAdd k i).val < n then f ⟨(Fin.castAdd k i).val, h⟩ else 0) = f i := by
    intro i
    have hi : (Fin.castAdd k i).val < n := by simp
    rw [dif_pos hi]
    exact congrArg f (Fin.ext (Fin.coe_castAdd k i))
  have h2 : ∀ j : Fin k, (if h : (Fin.natAdd n j).val < n then f ⟨(Fin.natAdd n j).val, h⟩ else (0 : EReal)) = 0 := by
    intro j
    have hj : ¬ (Fin.natAdd n j).val < n := by simp
    rw [dif_neg hj]
  simp only [h1, h2, Finset.sum_const_zero, add_zero]

/-- The word all of whose bits are set reads, signed, as -1: it is no segment number. -/
theorem neg_one_toInt_ne (g : ℕ) : (4294967295#32 : BitVec 32).toInt ≠ (g : ℤ) := by
  have : (4294967295#32 : BitVec 32).toInt = -1 := by decide
  rw [this]; omega

/-- A segment sum over padded rows: rows from `n` on carry the id -1 and the feature 0; the sum is over the first `n`. -/
theorem segsum_pad (n k : ℕ) (ids : Fin n → BitVec 32) (y : Fin n → EReal) (g : ℕ) :
    (∑ r : Fin (n + k),
        if (if h : r.val < n then ids ⟨r.val, h⟩ else 4294967295#32).toInt = (g : ℤ)
        then (if h : r.val < n then y ⟨r.val, h⟩ else 0) else 0)
      = ∑ r : Fin n, if (ids r).toInt = (g : ℤ) then y r else 0 := by
  rw [← sum_pad n k (fun r => if (ids r).toInt = (g : ℤ) then y r else 0)]
  refine Finset.sum_congr rfl fun r _ => ?_
  by_cases h : r.val < n
  · simp only [dif_pos h]
  · simp only [dif_neg h, if_neg (neg_one_toInt_ne g)]

end Cert.PadSum

end
-- ==== Proof.KI.Bridge.lean ====
/-
  The kernel program's result is the specification of its arguments.

  Region 2's output array is `out2` of its five operand arrays; at Ideal that is the projection `Spec.proj`. Its first
  two operands are what regions 0 and 1 left: each the last accumulator, which at Ideal is the sum, over all padded
  rows, of the rows whose id is the segment number. The padded rows carry the id -1 and the feature 0, so the sum is
  over the real rows: the segment sum of `x` by `batch`, and of `edge_attr` by the source nodes' graph ids (on the
  reference's index domain the take reads `batch` at the source node as it is).
-/
import proofs.«414828_j70153995813297_1_alg».proof.Proof.KI.Fold
import proofs.«414828_j70153995813297_1_alg».proof.Proof.KI.Arrays
import proofs.«414828_j70153995813297_1_alg».proof.Proof.KI.ArrOut
import proofs.«414828_j70153995813297_1_alg».proof.Proof.KI.Val01
import proofs.«414828_j70153995813297_1_alg».proof.Proof.KI.Val2
import proofs.«414828_j70153995813297_1_alg».proof.Proof.KI.HostVal
import proofs.«414828_j70153995813297_1_alg».proof.Proof.KI.HostVal2
import proofs.«414828_j70153995813297_1_alg».proof.Proof.Spec
import proofs.«414828_j70153995813297_1_alg».proof.Proof.PadSum
import Idealize.ShloMosaic.Lib.ValueIdx

set_option maxRecDepth 16384

noncomputable section

namespace Cert.KernelIdeal.H

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The last point of region 1. -/
theorem lt195 : 195 < cfg1.N := by rw [show cfg1.N = 196 from N_1]; decide

/-- The node sum: region 0's accumulator after its last point is the segment sum of `x` by `batch`. -/
theorem node_eq (c : Dev nD) :
    (acc0 (V7 m) c 12 (by decide) : Cert.Spec.Arr2 256 32) = Cert.Spec.segSum (fun r => abatch m c (ix1 r)) (ax m c) := by
  funext j
  obtain ⟨g, d, rfl⟩ : ∃ (g : Fin 256) (d : Fin 32), j = ix2 g d := ⟨j 0, j 1, eq_ix2 j⟩
  rw [acc0_ideal]
  refine (Finset.sum_congr rfl fun r _ => ?_).trans
    (Cert.PadSum.segsum_pad 100000 6496 (fun r => abatch m c (ix1 r)) (fun r => ax m c (ix2 r d)) g.val)
  rw [V7_v5 m c r, V7_v3 m c r d]

/-- The edge sum: region 1's accumulator after its last point is the segment sum of `edge_attr` by the source nodes' graph ids. -/
theorem edge_eq (c : Dev nD) (hsrc : ∀ e : Fin 1600000, 0 ≤ (aei m c (ix2 0 e)).toInt ∧ (aei m c (ix2 0 e)).toInt < 100000) :
    (acc1 (V13 m) c 195 lt195 : Cert.Spec.Arr2 256 32) = Cert.Spec.segSum (Cert.Spec.srcId (abatch m c) (aei m c)) (aea m c) := by
  funext j
  obtain ⟨g, d, rfl⟩ : ∃ (g : Fin 256) (d : Fin 32), j = ix2 g d := ⟨j 0, j 1, eq_ix2 j⟩
  rw [acc1_ideal]
  refine (Finset.sum_congr rfl fun r _ => ?_).trans
    (Cert.PadSum.segsum_pad 1600000 5632 (Cert.Spec.srcId (abatch m c) (aei m c)) (fun r => aea m c (ix2 r d)) g.val)
  rw [V13_v9 m c hsrc r, V13_v7 m c r d]

/-- The result array at the end of @main, at its literal type. -/
abbrev resArr (c : Dev nD) : Cert.Spec.Arr2 256 32 := W16 m c (Proc.devRef .tc main_v12)

/-- The kernel program's result is the specification of its arguments. -/
theorem kernel_value (c : Dev nD) (hsrc : ∀ e : Fin 1600000, 0 ≤ (aei m c (ix2 0 e)).toInt ∧ (aei m c (ix2 0 e)).toInt < 100000) :
    resArr m c = Cert.Spec.G (ax m c) (aei m c) (aea m c) (au m c) (abatch m c) (aW m c) (ab m c) := by
  have h2 : resArr m c = out2 (F := Ideal) (nodeArr (V15 m) c) (edgeArr (V15 m) c) (globArr (V15 m) c) (wtsArr (V15 m) c) (biasArr (V15 m) c) := by
    have h1 : W16 m c (Proc.devRef .tc main_v12) = (dat2 (V15 m) c).arrAt 5 cfg2.N := W16_arr m c 5
    exact h1.trans (arrAt2_out (V15 m) c)
  rw [h2]
  rw [V15_v6, V15_v10, V15_arg3, V15_arg5, arrAt0_out, arrAt1_out, out2_ideal, node_eq, edge_eq m c hsrc]
  unfold Cert.Spec.G
  congr 1
  funext i
  rw [eq_ix1 i]
  exact V15_v11 m c (i 0)

end Cert.KernelIdeal.H

end
-- ==== Proof.KI.PreSrc.lean ====
/-
  The precondition read at an index. The printed predicate is a conjunction of six bits; the last is the
  conjunction, over all edges `e`, of `0 ≤ edge_index[0, e]` and `edge_index[0, e] < 100000` as signed words.
  When the predicate is all ones, so is that bit, hence every edge's source node id lies in `[0, 100000)`.
-/
import proofs.«414828_j70153995813297_1_alg».proof.Pre_finite_inputs
import proofs.«414828_j70153995813297_1_alg».proof.Proof.Gen.Pre_finite_inputs
import proofs.«414828_j70153995813297_1_alg».proof.Proof.KI.Arrays
import Idealize.ShloMosaic.Lib.StableHlo.Predicate
import Idealize.ShloMosaic.Lib.ReduceAll
import Idealize.ShloMosaic.Lib.ValueIdx
import Idealize.ShloMosaic.Lib.Pipeline.Value

noncomputable section

namespace Cert.KernelIdeal.H

open Idealize.ShloMosaic Idealize.ShloMosaic.TcCoe Idealize.ShloMosaic.ValueIdx
open Idealize.SL Idealize.SL.Sem
open Cert.KernelIdeal Cert.KernelIdeal.Gen

instance subsingleton_scalar_idx : Subsingleton Cert.Pre_finite_inputs.S_.Idx := ⟨fun a b => funext fun d => d.elim0⟩

/-- Row 0 of a (2, 1600000) array, sliced out and reshaped to a vector, reads at `e` the array at `(0, e)`. -/
theorem row0_apply {α : Type} (x : Cert.Pre_finite_inputs.S2x1600000.Idx → α) (e : Fin 1600000) :
    shapeCast Cert.Pre_finite_inputs.S1600000
      (extractStridedSlice Cert.Pre_finite_inputs.S1x1600000 ![0, 0] x Cert.Pre_finite_inputs.Facts.slices_S2x1600000_S1x1600000_0_0)
      Cert.Pre_finite_inputs.Facts.shapeCasts_S1x1600000_S1600000 (ix1 e) = x (ix2 0 e) := by
  rw [shapeCast_apply _ _ (ix1 e) (ix2 0 e) (by
    rw [Shape.rowMajor_val_two, Shape.rowMajor_val_one]; show 0 * 1600000 + e.val = e.val; omega)]
  exact extractStridedSlice_apply ![0, 0] x _ (ix2 0 e) (ix2 0 e) (fun a => match a with
    | ⟨0, _⟩ => by show (0 : ℕ) = 0 + 0; rfl
    | ⟨1, _⟩ => by show e.val = 0 + e.val; omega)

theorem pre_src (m : (ℓ : Loc nD τ sig) → Buf (Elt Ideal) ℓ) (c : Dev nD)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    ∀ e : Fin 1600000, 0 ≤ (aei m c (ix2 0 e)).toInt ∧ (aei m c (ix2 0 e)).toInt < 100000 := by
  intro e
  have h0 := congrFun h ix0
  unfold Cert.Pre_finite_inputs.fn Cert.Pre_finite_inputs.fn_part1 at h0
  dsimp only at h0
  have hl := (IntOp.andi_eq_one.1 h0).2
  have he := Host.reduce_andi_all _ _ _ _ _ hl (ix1 e)
  obtain ⟨hge, hlt⟩ := IntOp.andi_eq_one.1 he
  have hge' := IntOp.cmpi_sge.1 hge
  have hlt' := IntOp.cmpi_slt.1 hlt
  rw [row0_apply] at hge' hlt'
  change (0#32 : BitVec 32).toInt ≤ _ at hge'
  change _ < (100000#32 : BitVec 32).toInt at hlt'
  rw [show (0#32 : BitVec 32).toInt = 0 from by decide] at hge'
  rw [show (100000#32 : BitVec 32).toInt = 100000 from by decide] at hlt'
  exact ⟨hge', hlt'⟩

end Cert.KernelIdeal.H

end
-- ==== Proof.RefVal.lean ====
/-
  The reference's result, read one host operation at a time, is the specification `Cert.Spec.G` of the argument arrays.

  The reference takes row 0 of the edge list, adds 100000 to a negative node number (none is negative under the
  precondition, so the select keeps every number), reads the graph id of each edge's source node (the read clamps the
  node number into the table, and a number in `[0, 100000)` is its own clamp), and adds the node rows and the edge rows
  into two arrays of zeros, row `r` into the row its id names: element `(g, d)` of such a sum is zero plus the sum over the
  rows whose id is `g` of their column `d`, the segment sum. The two sums and the global features are laid side by side
  (columns 0–31, 32–63, 64–95) and multiplied with the weights: a 96-term sum that splits, by associativity of the
  sum alone, into the three 32-term bands of the specification. The bias is added along the rows and the positive
  part is the maximum with the zero word.
-/
import proofs.«414828_j70153995813297_1_alg».proof.Proof.Gen.ReferenceIdeal.Run
import proofs.«414828_j70153995813297_1_alg».proof.Proof.Gen.ReferenceIdeal.Read
import proofs.«414828_j70153995813297_1_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Idealize.ShloMosaic.TcCoe
open Cert.ReferenceIdeal Cert.ReferenceIdeal.Gen Cert.ReferenceIdeal.Read

/-! ## The segment scatter -/

/-- The segment scatter's dimension numbers at `n` rows: update row `r` is added into the operand row its index names. -/
abbrev segDims (n : ℕ) (wf : ScatterDims.WF ⟨2, ![256, 32]⟩ ⟨2, ![n, 1]⟩ ⟨2, ![n, 32]⟩ [1] [0] [0] 1) :
    ScatterDims ⟨2, ![256, 32]⟩ ⟨2, ![n, 1]⟩ ⟨2, ![n, 32]⟩ where
  updateWindowDims := [1]
  insertedWindowDims := [0]
  scatterDimsToOperandDims := [0]
  indexVectorDim := 1
  wf := wf

section Scatter
variable {n w : ℕ} (wf : ScatterDims.WF ⟨2, ![256, 32]⟩ ⟨2, ![n, 1]⟩ ⟨2, ![n, 32]⟩ [1] [0] [0] 1)
  (r : Fin n) (c : Fin 32) (idx : IVec ⟨2, ![n, 1]⟩ w)

theorem seg_start0 : (segDims n wf).start (ix2 r c) idx 0 = (idx (ix2 r 0)).toInt := by
  unfold ScatterDims.start
  rw [dif_pos (show (0 : Fin 2) ∈ (segDims n wf).scatterDimsToOperandDims from List.mem_singleton.mpr rfl)]
  have hsi : (segDims n wf).siIdx (ix2 r c) ⟨List.idxOf (0 : Fin 2) (segDims n wf).scatterDimsToOperandDims,
      List.idxOf_lt_length_iff.2 (List.mem_singleton.mpr rfl)⟩ = ix2 r 0 := by
    funext a; refine Fin.ext ?_
    match a with
    | ⟨0, _⟩ => rfl
    | ⟨1, _⟩ => rfl
  rw [hsi]

theorem seg_start1 : (segDims n wf).start (ix2 r c) idx 1 = 0 := by
  unfold ScatterDims.start
  rw [dif_neg (show ¬ (1 : Fin 2) ∈ ([0] : List (Fin 2)) by decide)]

theorem seg_window0 : (segDims n wf).window (ix2 r c) 0 = 0 := by
  unfold ScatterDims.window
  rw [dif_neg (show ¬ (0 : Fin 2) ∈ (⟨2, ![256, 32]⟩ : Shape).kept [0] by decide)]

theorem seg_window1 : (segDims n wf).window (ix2 r c) 1 = c.val := by
  unfold ScatterDims.window
  rw [dif_pos (show (1 : Fin 2) ∈ (⟨2, ![256, 32]⟩ : Shape).kept [0] by decide)]
  rfl

end Scatter

section Scatter2
variable {n w : ℕ} (wf : ScatterDims.WF ⟨2, ![256, 32]⟩ ⟨2, ![n, 1]⟩ ⟨2, ![n, 32]⟩ [1] [0] [0] 1)
  (r : Fin n) (c : Fin 32) (idx : IVec ⟨2, ![n, 1]⟩ w)

/-- Update element `(r, c)` lands on operand element `(g, d)` exactly when row `r`'s index, read signed, is `g`
    and the columns agree. -/
theorem seg_resultIdx_iff (g : Fin 256) (d : Fin 32) :
    (segDims n wf).resultIdx? (ix2 r c) idx = some (ix2 g d) ↔ (idx (ix2 r 0)).toInt = (g.val : ℤ) ∧ c = d := by
  have h0 := seg_start0 wf r c idx
  have h1 := seg_start1 wf r c idx
  have w0 := seg_window0 wf r c
  have w1 := seg_window1 wf r c
  have hg := g.isLt
  have hc := c.isLt
  unfold ScatterDims.resultIdx?
  constructor
  · intro h
    split at h
    · next hall =>
      have e := Option.some.inj h
      have e0 : ((segDims n wf).start (ix2 r c) idx 0 + ((segDims n wf).window (ix2 r c) 0 : ℕ)).toNat = g.val :=
        congrArg (fun f => (f 0).val) e
      have e1 : ((segDims n wf).start (ix2 r c) idx 1 + ((segDims n wf).window (ix2 r c) 1 : ℕ)).toNat = d.val :=
        congrArg (fun f => (f 1).val) e
      have a0 := (hall 0).1
      rw [h0, w0] at e0 a0
      rw [h1, w1] at e1
      exact ⟨by omega, Fin.ext (by omega)⟩
    · exact absurd h (by simp)
  · rintro ⟨ht, rfl⟩
    have hall : ∀ a, 0 ≤ (segDims n wf).start (ix2 r c) idx a + ((segDims n wf).window (ix2 r c) a : ℕ) ∧
        (segDims n wf).start (ix2 r c) idx a + ((segDims n wf).window (ix2 r c) a : ℕ) < ((⟨2, ![256, 32]⟩ : Shape).size a : ℕ) := by
      intro a
      match a with
      | ⟨0, _⟩ =>
        show 0 ≤ (segDims n wf).start (ix2 r c) idx 0 + ((segDims n wf).window (ix2 r c) 0 : ℕ) ∧
          (segDims n wf).start (ix2 r c) idx 0 + ((segDims n wf).window (ix2 r c) 0 : ℕ) < ((256 : ℕ) : ℤ)
        rw [h0, w0]; omega
      | ⟨1, _⟩ =>
        show 0 ≤ (segDims n wf).start (ix2 r c) idx 1 + ((segDims n wf).window (ix2 r c) 1 : ℕ) ∧
          (segDims n wf).start (ix2 r c) idx 1 + ((segDims n wf).window (ix2 r c) 1 : ℕ) < ((32 : ℕ) : ℤ)
        rw [h1, w1]; omega
    rw [dif_pos hall]
    congr 1
    funext a
    refine Fin.ext ?_
    match a with
    | ⟨0, _⟩ =>
      show ((segDims n wf).start (ix2 r c) idx 0 + ((segDims n wf).window (ix2 r c) 0 : ℕ)).toNat = g.val
      rw [h0, w0]; omega
    | ⟨1, _⟩ =>
      show ((segDims n wf).start (ix2 r c) idx 1 + ((segDims n wf).window (ix2 r c) 1 : ℕ)).toNat = c.val
      rw [h1, w1]; omega

end Scatter2

/-- The host's accumulating scatter with these dimension numbers, at operand element `(g, d)`: the operand's element
    plus the sum, over the rows whose index is `g`, of the update's column `d`. -/
theorem seg_scatter_apply {n : ℕ} (wf : ScatterDims.WF ⟨2, ![256, 32]⟩ ⟨2, ![n, 1]⟩ ⟨2, ![n, 32]⟩ [1] [0] [0] 1)
    (z : Cert.Spec.Arr2 256 32) (idx : IVec ⟨2, ![n, 1]⟩ 32) (upd : Cert.Spec.Arr2 n 32)
    (ids : Fin n → BitVec 32) (hids : ∀ r, idx (ix2 r 0) = ids r) (g : Fin 256) (d : Fin 32) :
    Ideal.hostScatterAdd (segDims n wf) z idx upd (ix2 g d)
      = z (ix2 g d) + Cert.Spec.segSum ids upd (ix2 g d) := by
  unfold Ideal.hostScatterAdd
  congr 1
  rw [Finset.sum_filter, sum_idx2]
  show _ = ∑ r : Fin n, if (ids r).toInt = (g.val : ℤ) then upd (ix2 r d) else 0
  refine Finset.sum_congr rfl fun r _ => ?_
  rw [← hids r]
  simp only [seg_resultIdx_iff]
  by_cases ht : (idx (ix2 r 0)).toInt = (g.val : ℤ)
  · simp only [ht, true_and, if_true]
    rw [Finset.sum_ite_eq' Finset.univ d (fun c => upd (ix2 r c)), if_pos (Finset.mem_univ d)]
  · simp only [ht, false_and, if_false]
    exact Finset.sum_const_zero

/-- The host's accumulating float scatter of these dimension numbers into an array of zeros, at `(g, d)`: the
    segment sum of the updates by the rows' indices. -/
theorem seg_scatter_zero_apply {n : ℕ} (wf : ScatterDims.WF ⟨2, ![256, 32]⟩ ⟨2, ![n, 1]⟩ ⟨2, ![n, 32]⟩ [1] [0] [0] 1)
    (D : ScatterDims ⟨2, ![256, 32]⟩ ⟨2, ![n, 1]⟩ ⟨2, ![n, 32]⟩) (hD : D = segDims n wf)
    (z : Cert.Spec.Arr2 256 32) (hz : ∀ i, z i = 0) (idx : IVec ⟨2, ![n, 1]⟩ 32) (upd : Cert.Spec.Arr2 n 32)
    (ids : Fin n → BitVec 32) (hids : ∀ r, idx (ix2 r 0) = ids r) (g : Fin 256) (d : Fin 32) :
    Host.scatterAdd (F := Ideal) (φ := .f32) D z idx upd (ix2 g d) = Cert.Spec.segSum ids upd (ix2 g d) := by
  subst hD
  show Ideal.hostScatterAdd (segDims n wf) z idx upd (ix2 g d) = _
  rw [seg_scatter_apply wf z idx upd ids hids g d, hz, zero_add]

/-! ## The row gather -/

/-- The row gather's dimension numbers: result element `e` is the operand at the start index row `e` of the
    indices names. -/
abbrev rowDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- That gather read at `e`: the operand at row `e`'s index, read signed and clamped into `[0, N − 1]`. -/
theorem row_gather_apply {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (rowDims N R wf) x idx (ix1 e) = x (ix1 ⟨min (idx (ix2 e 0)).toInt.toNat (N - 1), by omega⟩) := by
  unfold Host.gather
  congr 1
  funext a
  obtain rfl : a = 0 := Subsingleton.elim _ _
  refine Fin.ext ?_
  show (rowDims N R wf).start (ix1 e) idx 0 + (rowDims N R wf).batchCoord (ix1 e) 0 + (rowDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (rowDims N R wf).startIndexMap from List.mem_singleton.mpr rfl)]
  have hsi : (rowDims N R wf).siIdx (ix1 e) ⟨List.idxOf (0 : Fin 1) (rowDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem gather_eq : gather_S100000_S1600000x1_S1600000_n_0_n_n_0_1_1
    = rowDims 100000 1600000 gather_S100000_S1600000x1_S1600000_n_0_n_n_0_1_1_wf := rfl

theorem scatter_node_eq : scatter_S256x32_S100000x1_S100000x32_1_0_0_1
    = segDims 100000 scatter_S256x32_S100000x1_S100000x32_1_0_0_1_wf := rfl

theorem scatter_edge_eq : scatter_S256x32_S1600000x1_S1600000x32_1_0_0_1
    = segDims 1600000 scatter_S256x32_S1600000x1_S1600000x32_1_0_0_1_wf := rfl

/-! ## The segment ids -/

/-- A word that is not negative is not below zero in the signed order. -/
theorem slt_zero_of_nonneg (v : BitVec 32) (h : 0 ≤ v.toInt) : IntOp.cmpi .slt v 0#32 = 0#1 := by
  have hs : v.slt 0#32 = false := by
    unfold BitVec.slt
    rw [BitVec.toInt_zero]
    exact decide_eq_false (by omega)
  show BitVec.ofBool (v.slt 0#32) = 0#1
  rw [hs]; rfl

/-- A node number in `[0, 100000)`, read signed and clamped into the table, is itself. -/
theorem clamp_eq (v : BitVec 32) (h0 : 0 ≤ v.toInt) (h1 : v.toInt < 100000) :
    min v.toInt.toNat (100000 - 1) = v.toNat % 100000 := by
  have hv := v.isLt
  have hc := BitVec.toInt_eq_toNat_cond v
  split at hc <;> omega

section Ids
variable (ei : (⟨S2x1600000, .i32⟩ : BufTy).Contents (Elt Ideal)) (batch : (⟨S100000, .i32⟩ : BufTy).Contents (Elt Ideal))

/-- The first row of the edge list, flattened, at `e`. -/
theorem v1_apply (e : Fin 1600000) : val_main_v1 (F := Ideal) ei (ix1 e) = ei (ix2 0 e) := by
  rw [val_main_v1_apply, val_main_v0_apply]
  congr 1
  funext a
  refine Fin.ext ?_
  match a with
  | ⟨0, _⟩ => rfl
  | ⟨1, _⟩ => exact Nat.mod_eq_of_lt e.isLt

variable (hpre : ∀ e : Fin 1600000, 0 ≤ (ei (ix2 0 e)).toInt ∧ (ei (ix2 0 e)).toInt < 100000)
include hpre

/-- No source node number is negative, so the wrap-around select keeps it. -/
theorem v9_apply (e : Fin 1600000) : val_main_v9 (F := Ideal) ei (ix1 e) = ei (ix2 0 e) := by
  rw [val_main_v9_apply, val_main_v6_apply, v1_apply, val_main_v5_apply, val_main_c_apply,
    slt_zero_of_nonneg _ (hpre e).1, select_zero]

theorem v10_apply (e : Fin 1600000) : val_main_v10 (F := Ideal) ei (ix2 e 0) = ei (ix2 0 e) := by
  have hi : idx_main_v10 (ix2 e (0 : Fin 1)) = ix1 e := by
    funext a; match a with | ⟨0, _⟩ => rfl
  rw [val_main_v10_apply, hi, v9_apply ei hpre e]

/-- The gathered id of edge `e` is the graph id of its source node. -/
theorem v11_apply (e : Fin 1600000) : val_main_v11 (F := Ideal) ei batch (ix1 e) = Cert.Spec.srcId batch ei e := by
  unfold val_main_v11
  rw [gather_eq, row_gather_apply (by decide)]
  refine congrArg (fun k : Fin 100000 => batch (ix1 k)) (Fin.ext ?_)
  show min (val_main_v10 (F := Ideal) ei (ix2 e 0)).toInt.toNat (100000 - 1) = (ei (ix2 0 e)).toNat % 100000
  rw [v10_apply ei hpre e]
  exact clamp_eq _ (hpre e).1 (hpre e).2

theorem v13_apply (e : Fin 1600000) : val_main_v13 (F := Ideal) ei batch (ix2 e 0) = Cert.Spec.srcId batch ei e := by
  have hi : idx_main_v13 (ix2 e (0 : Fin 1)) = ix1 e := by
    funext a; match a with | ⟨0, _⟩ => rfl
  rw [val_main_v13_apply, hi, v11_apply ei batch hpre e]

end Ids

theorem v3_apply (batch : (⟨S100000, .i32⟩ : BufTy).Contents (Elt Ideal)) (r : Fin 100000) :
    val_main_v3 (F := Ideal) batch (ix2 r 0) = batch (ix1 r) := by
  have hi : idx_main_v3 (ix2 r (0 : Fin 1)) = ix1 r := by
    funext a; match a with | ⟨0, _⟩ => rfl
  rw [val_main_v3_apply, hi]

/-! ## The two segment sums -/

/-- The broadcast zero word reads zero at every index. -/
theorem v2_apply (i : S256x32.Idx) : val_main_v2 (F := Ideal) i = 0 := by
  rw [val_main_v2_apply, val_main_cst_apply]; exact Ideal.ofBits_zero_f32
theorem v12_apply (i : S256x32.Idx) : val_main_v12 (F := Ideal) i = 0 := by
  rw [val_main_v12_apply, val_main_cst_1_apply]; exact Ideal.ofBits_zero_f32
theorem call0_v0_apply (i : S256x32.Idx) : val_main_call0_v0 (F := Ideal) i = 0 := by
  rw [val_main_call0_v0_apply, val_main_call0_cst_apply]; exact Ideal.ofBits_zero_f32

/-- The node scatter into zeros is the segment sum of the node features by graph id. -/
theorem v4_apply (x : (⟨S100000x32, .f32⟩ : BufTy).Contents (Elt Ideal)) (batch : (⟨S100000, .i32⟩ : BufTy).Contents (Elt Ideal))
    (g : Fin 256) (d : Fin 32) :
    val_main_v4 (F := Ideal) x batch (ix2 g d) = Cert.Spec.segSum (fun r => batch (ix1 r)) x (ix2 g d) := by
  unfold val_main_v4
  exact seg_scatter_zero_apply scatter_S256x32_S100000x1_S100000x32_1_0_0_1_wf _ scatter_node_eq _ v2_apply _ _ _
    (fun r => v3_apply batch r) g d

/-- The edge scatter into zeros is the segment sum of the edge features by the source node's graph id. -/
theorem v14_apply (ei : (⟨S2x1600000, .i32⟩ : BufTy).Contents (Elt Ideal)) (ea : (⟨S1600000x32, .f32⟩ : BufTy).Contents (Elt Ideal))
    (batch : (⟨S100000, .i32⟩ : BufTy).Contents (Elt Ideal))
    (hpre : ∀ e : Fin 1600000, 0 ≤ (ei (ix2 0 e)).toInt ∧ (ei (ix2 0 e)).toInt < 100000)
    (g : Fin 256) (d : Fin 32) :
    val_main_v14 (F := Ideal) ei ea batch (ix2 g d) = Cert.Spec.segSum (Cert.Spec.srcId batch ei) ea (ix2 g d) := by
  unfold val_main_v14
  exact seg_scatter_zero_apply scatter_S256x32_S1600000x1_S1600000x32_1_0_0_1_wf _ scatter_edge_eq _ v12_apply _ _ _
    (fun e => v13_apply ei batch hpre e) g d

/-! ## The joined array and the product's three bands -/

section Concat
variable (x : (⟨S100000x32, .f32⟩ : BufTy).Contents (Elt Ideal)) (ei : (⟨S2x1600000, .i32⟩ : BufTy).Contents (Elt Ideal))
  (ea : (⟨S1600000x32, .f32⟩ : BufTy).Contents (Elt Ideal)) (u : (⟨S256x32, .f32⟩ : BufTy).Contents (Elt Ideal))
  (batch : (⟨S100000, .i32⟩ : BufTy).Contents (Elt Ideal)) (g : Fin 256) (k : Fin 32)

/-- Columns 0 … 31 of the joined array are the node sums. -/
theorem v15_apply_node :
    val_main_v15 (F := Ideal) x ei ea u batch (ix2 g (⟨k.val, by omega⟩ : Fin 96)) = val_main_v4 (F := Ideal) x batch (ix2 g k) := by
  unfold val_main_v15
  exact concatenate_apply_piece (t := S256x96) 1
    [⟨S256x32, val_main_v4 (F := Ideal) x batch⟩, ⟨S256x32, val_main_v14 (F := Ideal) ei ea batch⟩, ⟨S256x32, u⟩]
    concatenates_S256x32_S256x32_S256x32_S256x96_d1 (ix2 g (⟨k.val, by omega⟩ : Fin 96))
    0 (show (0 : ℕ) < 3 by omega) S256x32 (val_main_v4 (F := Ideal) x batch) rfl rfl 0 rfl (ix2 g k)
    (fun b hb => by match b with
      | ⟨0, _⟩ => rfl
      | ⟨1, _⟩ => exact absurd rfl hb)
    (Nat.zero_add _)

/-- Columns 32 … 63 are the edge sums. -/
theorem v15_apply_edge :
    val_main_v15 (F := Ideal) x ei ea u batch (ix2 g (⟨32 + k.val, by omega⟩ : Fin 96)) = val_main_v14 (F := Ideal) ei ea batch (ix2 g k) := by
  unfold val_main_v15
  exact concatenate_apply_piece (t := S256x96) 1
    [⟨S256x32, val_main_v4 (F := Ideal) x batch⟩, ⟨S256x32, val_main_v14 (F := Ideal) ei ea batch⟩, ⟨S256x32, u⟩]
    concatenates_S256x32_S256x32_S256x32_S256x96_d1 (ix2 g (⟨32 + k.val, by omega⟩ : Fin 96))
    1 (show (1 : ℕ) < 3 by omega) S256x32 (val_main_v14 (F := Ideal) ei ea batch) rfl rfl 32 rfl (ix2 g k)
    (fun b hb => by match b with
      | ⟨0, _⟩ => rfl
      | ⟨1, _⟩ => exact absurd rfl hb)
    rfl

/-- Columns 64 … 95 are the global features. -/
theorem v15_apply_glob :
    val_main_v15 (F := Ideal) x ei ea u batch (ix2 g (⟨64 + k.val, by omega⟩ : Fin 96)) = u (ix2 g k) := by
  unfold val_main_v15
  exact concatenate_apply_piece (t := S256x96) 1
    [⟨S256x32, val_main_v4 (F := Ideal) x batch⟩, ⟨S256x32, val_main_v14 (F := Ideal) ei ea batch⟩, ⟨S256x32, u⟩]
    concatenates_S256x32_S256x32_S256x32_S256x96_d1 (ix2 g (⟨64 + k.val, by omega⟩ : Fin 96))
    2 (show (2 : ℕ) < 3 by omega) S256x32 (u) rfl rfl 64 rfl (ix2 g k)
    (fun b hb => by match b with
      | ⟨0, _⟩ => rfl
      | ⟨1, _⟩ => exact absurd rfl hb)
    rfl

end Concat
/-- A sum over 96 terms is the sum of its three bands of 32. -/
theorem sum_three_bands (f : Fin 96 → EReal) :
    ∑ k : Fin 96, f k = (∑ k : Fin 32, f ⟨k.val, by omega⟩ + ∑ k : Fin 32, f ⟨32 + k.val, by omega⟩)
      + ∑ k : Fin 32, f ⟨64 + k.val, by omega⟩ := by
  have h1 : ∑ k : Fin 96, f k = ∑ k : Fin 32, f (Fin.castAdd 64 k) + ∑ k : Fin 64, f (Fin.natAdd 32 k) :=
    Fin.sum_univ_add (a := 32) (b := 64) f
  have h2 : ∑ k : Fin 64, f (Fin.natAdd 32 k)
      = ∑ k : Fin 32, f (Fin.natAdd 32 (Fin.castAdd 32 k)) + ∑ k : Fin 32, f (Fin.natAdd 32 (Fin.natAdd 32 k)) :=
    Fin.sum_univ_add (a := 32) (b := 32) fun k => f (Fin.natAdd 32 k)
  rw [h1, h2, ← add_assoc]
  refine congrArg₂ (· + ·) (congrArg₂ (· + ·) rfl rfl) (Finset.sum_congr rfl fun k _ => congrArg f (Fin.ext ?_))
  show 32 + (32 + k.val) = 64 + k.val
  omega

/-! ## The product, the bias, the positive part -/

theorem lidx_eq (g : Fin 256) (d : Fin 32) (k : Fin 96) : lidx_main_v16 (ix2 g d) k = ix2 g k := by
  funext a; match a with
  | ⟨0, _⟩ => rfl
  | ⟨1, _⟩ => rfl

theorem ridx_eq (g : Fin 256) (d : Fin 32) (k : Fin 96) : ridx_main_v16 (ix2 g d) k = ix2 k d := by
  funext a; match a with
  | ⟨0, _⟩ => rfl
  | ⟨1, _⟩ => rfl

/-- The bias, broadcast over the rows, reads the bias at the column. -/
theorem v18_apply (b : (⟨S32, .f32⟩ : BufTy).Contents (Elt Ideal)) (g : Fin 256) (d : Fin 32) :
    val_main_v18 (F := Ideal) b (ix2 g d) = b (ix1 d) := by
  rw [val_main_v18_apply, val_main_v17_apply]
  congr 1
  funext a; match a with
  | ⟨0, _⟩ => rfl

section Dot
variable (x : (⟨S100000x32, .f32⟩ : BufTy).Contents (Elt Ideal)) (ei : (⟨S2x1600000, .i32⟩ : BufTy).Contents (Elt Ideal))
  (ea : (⟨S1600000x32, .f32⟩ : BufTy).Contents (Elt Ideal)) (u : (⟨S256x32, .f32⟩ : BufTy).Contents (Elt Ideal))
  (batch : (⟨S100000, .i32⟩ : BufTy).Contents (Elt Ideal)) (W : (⟨S96x32, .f32⟩ : BufTy).Contents (Elt Ideal))
  (g : Fin 256) (d : Fin 32) (k : Fin 32)

/-- A term of the first band of the product: a node sum against a row of the first band of the weights. -/
theorem term_node :
    val_main_v15 (F := Ideal) x ei ea u batch (lidx_main_v16 (ix2 g d) ⟨k.val, by omega⟩) * W (ridx_main_v16 (ix2 g d) ⟨k.val, by omega⟩)
      = Cert.Spec.segSum (fun r => batch (ix1 r)) x (ix2 g k) * W (ix2 (⟨k.val, by omega⟩ : Fin 96) d) := by
  rw [lidx_eq, ridx_eq, v15_apply_node, v4_apply]

/-- A term of the third band: a global feature against a row of the third band of the weights. -/
theorem term_glob :
    val_main_v15 (F := Ideal) x ei ea u batch (lidx_main_v16 (ix2 g d) ⟨64 + k.val, by omega⟩) * W (ridx_main_v16 (ix2 g d) ⟨64 + k.val, by omega⟩)
      = u (ix2 g k) * W (ix2 (⟨64 + k.val, by omega⟩ : Fin 96) d) := by
  rw [lidx_eq, ridx_eq, v15_apply_glob]

variable (hpre : ∀ e : Fin 1600000, 0 ≤ (ei (ix2 0 e)).toInt ∧ (ei (ix2 0 e)).toInt < 100000)
include hpre

/-- A term of the second band: an edge sum against a row of the second band of the weights. -/
theorem term_edge :
    val_main_v15 (F := Ideal) x ei ea u batch (lidx_main_v16 (ix2 g d) ⟨32 + k.val, by omega⟩) * W (ridx_main_v16 (ix2 g d) ⟨32 + k.val, by omega⟩)
      = Cert.Spec.segSum (Cert.Spec.srcId batch ei) ea (ix2 g k) * W (ix2 (⟨32 + k.val, by omega⟩ : Fin 96) d) := by
  rw [lidx_eq, ridx_eq, v15_apply_edge, v14_apply ei ea batch hpre]

/-- The product at `(g, d)`: the three 32-term products against the three bands of the weights. -/
theorem v16_apply :
    val_main_v16 (F := Ideal) x ei ea u batch W (ix2 g d)
      = ((∑ k : Fin 32, Cert.Spec.segSum (fun r => batch (ix1 r)) x (ix2 g k) * W (ix2 (⟨k.val, by omega⟩ : Fin 96) d))
        + (∑ k : Fin 32, Cert.Spec.segSum (Cert.Spec.srcId batch ei) ea (ix2 g k) * W (ix2 (⟨32 + k.val, by omega⟩ : Fin 96) d)))
        + (∑ k : Fin 32, u (ix2 g k) * W (ix2 (⟨64 + k.val, by omega⟩ : Fin 96) d)) := by
  rw [val_main_v16_apply, sum_three_bands]
  exact congrArg₂ (· + ·)
    (congrArg₂ (· + ·) (Finset.sum_congr rfl fun k _ => term_node x ei ea u batch W g d k)
      (Finset.sum_congr rfl fun k _ => term_edge x ei ea u batch W g d k hpre))
    (Finset.sum_congr rfl fun k _ => term_glob x ei ea u batch W g d k)

end Dot

/-- The projection at `(g, d)`, written out. -/
theorem proj_apply (node edge u : Cert.Spec.Arr2 256 32) (W : Cert.Spec.Arr2 96 32) (b : Cert.Spec.Arr1 32) (g : Fin 256) (d : Fin 32) :
    Cert.Spec.proj node edge u W b (ix2 g d)
      = max ((((∑ k : Fin 32, node (ix2 g k) * W (ix2 (⟨k.val, by omega⟩ : Fin 96) d))
          + (∑ k : Fin 32, edge (ix2 g k) * W (ix2 (⟨32 + k.val, by omega⟩ : Fin 96) d)))
          + (∑ k : Fin 32, u (ix2 g k) * W (ix2 (⟨64 + k.val, by omega⟩ : Fin 96) d)))
          + b (ix1 d)) 0 := rfl

/-- The reference's result is the specification of its arguments: both are, at `(g, d)`, the positive part of the
    three banded products of the two segment sums and the global features with the weights, plus the bias. -/
theorem val_eq
    (x : (⟨S100000x32, .f32⟩ : BufTy).Contents (Elt Ideal))
    (ei : (⟨S2x1600000, .i32⟩ : BufTy).Contents (Elt Ideal))
    (ea : (⟨S1600000x32, .f32⟩ : BufTy).Contents (Elt Ideal))
    (u : (⟨S256x32, .f32⟩ : BufTy).Contents (Elt Ideal))
    (batch : (⟨S100000, .i32⟩ : BufTy).Contents (Elt Ideal))
    (W : (⟨S96x32, .f32⟩ : BufTy).Contents (Elt Ideal))
    (b : (⟨S32, .f32⟩ : BufTy).Contents (Elt Ideal))
    (hpre : ∀ e : Fin 1600000, 0 ≤ (ei (ix2 0 e)).toInt ∧ (ei (ix2 0 e)).toInt < 100000) :
    val_main_v20 (F := Ideal) x ei ea u batch W b = Cert.Spec.G x ei ea u batch W b := by
  funext i
  obtain ⟨g, d, rfl⟩ : ∃ (g : Fin 256) (d : Fin 32), i = ix2 g d := ⟨i 0, i 1, eq_ix2 i⟩
  rw [val_main_v20_apply, val_main_v19_apply, v16_apply x ei ea u batch W g d hpre, v18_apply, call0_v0_apply,
    Ideal.maximumf_def, Ideal.addf_def]
  unfold Cert.Spec.G
  rw [proj_apply]

/-- The term the reference's run ends at, as a function of the seven argument arrays, is the specification of them. -/
theorem result_eq
    (x : (⟨S100000x32, .f32⟩ : BufTy).Contents (Elt Ideal))
    (ei : (⟨S2x1600000, .i32⟩ : BufTy).Contents (Elt Ideal))
    (ea : (⟨S1600000x32, .f32⟩ : BufTy).Contents (Elt Ideal))
    (u : (⟨S256x32, .f32⟩ : BufTy).Contents (Elt Ideal))
    (batch : (⟨S100000, .i32⟩ : BufTy).Contents (Elt Ideal))
    (W : (⟨S96x32, .f32⟩ : BufTy).Contents (Elt Ideal))
    (b : (⟨S32, .f32⟩ : BufTy).Contents (Elt Ideal))
    (hpre : ∀ e : Fin 1600000, 0 ≤ (ei (ix2 0 e)).toInt ∧ (ei (ix2 0 e)).toInt < 100000) :
    maximumf (F := Ideal) (addf (F := Ideal) (Host.dotGeneral (F := Ideal) (φ₂ := .f32) dot_S256x96_S96x32_S256x32_1_0_0_1_n_n none (concatenate S256x96 1 [⟨S256x32, (Host.scatterAdd (F := Ideal) scatter_S256x32_S100000x1_S100000x32_1_0_0_1 (broadcastInDim S256x32 ![] bcast_S_S256x32 (constant (F := Ideal) S_ .f32 0x00000000#32)) (broadcastInDim S100000x1 ![0] bcast_S100000_S100000x1_0 (batch)) (x))⟩, ⟨S256x32, (Host.scatterAdd (F := Ideal) scatter_S256x32_S1600000x1_S1600000x32_1_0_0_1 (broadcastInDim S256x32 ![] bcast_S_S256x32 (constant (F := Ideal) S_ .f32 0x00000000#32)) (broadcastInDim S1600000x1 ![0] bcast_S1600000_S1600000x1_0 (Host.gather gather_S100000_S1600000x1_S1600000_n_0_n_n_0_1_1 (batch) (broadcastInDim S1600000x1 ![0] bcast_S1600000_S1600000x1_0 (select (cmpi .slt (shapeCast _ (extractStridedSlice S1x1600000 ![0, 0] (ei) slices_S2x1600000_S1x1600000_0_0) shapeCasts_S1x1600000_S1600000) (broadcastInDim S1600000 ![] bcast_S_S1600000 (constantI S_ 32 0#32))) (addi (shapeCast _ (extractStridedSlice S1x1600000 ![0, 0] (ei) slices_S2x1600000_S1x1600000_0_0) shapeCasts_S1x1600000_S1600000) (broadcastInDim S1600000 ![] bcast_S_S1600000 (constantI S_ 32 100000#32))) (shapeCast _ (extractStridedSlice S1x1600000 ![0, 0] (ei) slices_S2x1600000_S1x1600000_0_0) shapeCasts_S1x1600000_S1600000))))) (ea))⟩, ⟨S256x32, (u)⟩] concatenates_S256x32_S256x32_S256x32_S256x96_d1) (W)) (broadcastInDim S256x32 ![0, 1] bcast_S1x32_S256x32_0_1 (broadcastInDim S1x32 ![1] bcast_S32_S1x32_1 (b)))) (broadcastInDim S256x32 ![] bcast_S_S256x32 (constant (F := Ideal) S_ .f32 0x00000000#32))
      = Cert.Spec.G x ei ea u batch W b :=
  (val_main_v20_eq (F := Ideal) x ei ea u batch W b).trans (val_eq x ei ea u batch W b hpre)

end Cert.ReferenceIdeal.RefValue

end
-- ==== Proof.lean ====
/-
  Segment sums by graph, a projection, a positive part: the kernel program against its jnp reference.

  Both programs compute, for graph `g` and feature `d`,
      max (∑ₖ node g k · W k d + ∑ₖ edge g k · W (32 + k) d + ∑ₖ u g k · W (64 + k) d + b d) 0,
  where `node g` is the sum of the rows of `x` whose graph id (`batch`) is `g` and `edge g` the sum of the rows of
  `edge_attr` whose source node's graph id is `g` (`Cert.Spec.G`). The kernel program gets each sum as a product of a
  one-hot matrix with a block of rows, accumulated block by block over a grid (rows padded with zero features and the
  id -1, which is no graph); the reference scatters and adds. On the extended reals a product with a one-hot row is the
  sum of the selected rows (zero times anything is zero there), a sum may be taken in any order and grouping, and the
  96-term product of the reference is the kernel's three 32-term products. The precondition keeps the source node
  numbers inside `batch`'s extent, where the two programs read the same graph id; no law used here needs the float
  inputs to be finite.
  The three frames: the two kernel programs run their three regions one after the other, each region's grid points
  keeping the accumulator in a buffer of the kernel's own, and leave every argument array as launched; the reference
  is host operations only. The idealized kernel program is the word-level one read at the ideal instance (no rewrite).
-/
import proofs.«414828_j70153995813297_1_alg».proof.Defs
import proofs.«414828_j70153995813297_1_alg».proof.Proof.Gen.Kernel
import proofs.«414828_j70153995813297_1_alg».proof.Proof.Gen.KernelIdeal
import proofs.«414828_j70153995813297_1_alg».proof.Proof.Gen.ReferenceIdeal
import proofs.«414828_j70153995813297_1_alg».proof.Proof.Gen.Pre_finite_inputs
import proofs.«414828_j70153995813297_1_alg».proof.Proof.Gen.ReferenceIdeal.Run
import proofs.«414828_j70153995813297_1_alg».proof.Proof.K.Launch
import proofs.«414828_j70153995813297_1_alg».proof.Proof.KI.Launch
import proofs.«414828_j70153995813297_1_alg».proof.Proof.KI.Bridge
import proofs.«414828_j70153995813297_1_alg».proof.Proof.KI.PreSrc
import proofs.«414828_j70153995813297_1_alg».proof.Proof.RefVal

noncomputable section

namespace Cert.Proof

open Idealize.ShloMosaic Idealize.SL.Sem

/-- The word-level kernel program runs to the end and leaves its arguments as launched. -/
theorem frame_k : Cert.frame_Kernel := fun m ρ _ => Cert.Kernel.H.frame m ρ

/-- So does the idealized kernel program. -/
theorem frame_ki : Cert.frame_KernelIdeal := fun m ρ _ => Cert.KernelIdeal.H.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, on the reference's index domain, both programs end with the
    specification of the arguments in their result arrays. -/
theorem algebraic : Cert.algebraic_KernelIdeal_ReferenceIdeal := by
  intro m ρ m' ρ' hpre hagree
  have hsrc := fun c => Cert.KernelIdeal.H.pre_src m c (hpre c)
  refine ⟨fun c => Cert.Spec.G (Cert.KernelIdeal.H.ax m c) (Cert.KernelIdeal.H.aei m c) (Cert.KernelIdeal.H.aea m c)
    (Cert.KernelIdeal.H.au m c) (Cert.KernelIdeal.H.abatch m c) (Cert.KernelIdeal.H.aW m c) (Cert.KernelIdeal.H.ab m c), ?_, ?_⟩
  · exact (θ_run Cert.KernelIdeal.defs _ _).mono
      (fun r h c => ⟨(h c).1.trans (Cert.KernelIdeal.H.kernel_value m c (hsrc c)), (h c).2⟩)
      (Cert.KernelIdeal.H.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    exact Cert.ReferenceIdeal.RefValue.result_eq _ _ _ _ _ _ _ (hsrc c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
